-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S100000x40 : Shape := ⟨2, ![100000, 40]⟩
abbrev S40x1x40 : Shape := ⟨3, ![40, 1, 40]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x40 : S_.BroadcastsInDim S100000x40 (![] : Fin 0 → Fin S100000x40.rank)
  reducesTo_S100000x40_S_d0_1 : S100000x40.ReducesTo [0, 1] S_
  bcast_S_S40x1x40 : S_.BroadcastsInDim S40x1x40 (![] : Fin 0 → Fin S40x1x40.rank)
  reducesTo_S40x1x40_S_d0_1_2 : S40x1x40.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128x40 .f32) (main_arg10 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S100000x40 .f32) (main_arg4 : FVec F S40x1x40 .f32) (main_arg5 : FVec F S128x128 .f32) (main_arg6 : FVec F S128 .f32) (main_arg7 : FVec F S128x128 .f32) (main_arg8 : FVec F S128 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x40 .f32 := Host.absf main_arg3
  let main_cst_0 : FVec F S_ .f32 := constant S_ .f32 0x7F800000#32
  let main_v5 : FVec F S100000x40 .f32 := broadcastInDim S100000x40 ![] bcast_S_S100000x40 main_cst_0
  let main_v6 : IVec S100000x40 1 := cmpf .olt main_v4 main_v5
  let main_c_1 : IVec S_ 1 := constantI S_ 1 1#1
  let main_v7 : IVec S_ 1 := (fun x v => Host.reduce IntOp.andi x v reducesTo_S100000x40_S_d0_1 h_S_) main_v6 main_c_1
  let main_v8 : IVec S_ 1 := andi main_v3 main_v7
  let main_v9 : FVec F S40x1x40 .f32 := Host.absf main_arg4
  let main_cst_2 : FVec F S_ .f32 := constant S_ .f32 0x7F800000#32
  let main_v10 : FVec F S40x1x40 .f32 := broadcastInDim S40x1x40 ![] bcast_S_S40x1x40 main_cst_2
  let main_v11 : IVec S40x1x40 1 := cmpf .olt main_v9 main_v10
  let main_c_3 : IVec S_ 1 := constantI S_ 1 1#1
  let main_v12 : IVec S_ 1 := (fun x v => Host.reduce IntOp.andi x v reducesTo_S40x1x40_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S100000x40 : Shape := ⟨2, ![100000, 40]⟩
abbrev S40x1x40 : Shape := ⟨3, ![40, 1, 40]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1x128 : Shape := ⟨2, ![1, 128]⟩
abbrev S25x40x128 : Shape := ⟨3, ![25, 40, 128]⟩
abbrev S4000x128 : Shape := ⟨2, ![4000, 128]⟩
abbrev S4000x1 : Shape := ⟨2, ![4000, 1]⟩
abbrev S1x40x128 : Shape := ⟨3, ![1, 40, 128]⟩
abbrev S4000x40 : Shape := ⟨2, ![4000, 40]⟩
abbrev S40x128 : Shape := ⟨2, ![40, 128]⟩
abbrev S1600000x128 : Shape := ⟨2, ![1600000, 128]⟩
abbrev S40x1 : Shape := ⟨2, ![40, 1]⟩
abbrev S40x1x128 : Shape := ⟨3, ![40, 1, 128]⟩
abbrev S40x40x128 : Shape := ⟨3, ![40, 40, 128]⟩
abbrev S40x40 : Shape := ⟨2, ![40, 40]⟩
abbrev S40x40x1 : Shape := ⟨3, ![40, 40, 1]⟩
abbrev S50x40x128 : Shape := ⟨3, ![50, 40, 128]⟩
abbrev S2000x128 : Shape := ⟨2, ![2000, 128]⟩
abbrev S2000x1 : Shape := ⟨2, ![2000, 1]⟩
abbrev S2000x40 : Shape := ⟨2, ![2000, 40]⟩
abbrev S1x40 : Shape := ⟨2, ![1, 40]⟩
abbrev S50x40x40 : Shape := ⟨3, ![50, 40, 40]⟩
abbrev S1x40x40 : Shape := ⟨3, ![1, 40, 40]⟩
abbrev S1600000x40 : Shape := ⟨2, ![1600000, 40]⟩
abbrev S40x40x40 : Shape := ⟨3, ![40, 40, 40]⟩

abbrev nBuf : Space → Nat
  | .hbm => 165
  | .vmem => 55
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000x40, .f32⟩
  | 4 => ⟨S40x1x40, .f32⟩
  | 5 => ⟨S128x128, .f32⟩
  | 6 => ⟨S128, .f32⟩
  | 7 => ⟨S128x128, .f32⟩
  | 8 => ⟨S128, .f32⟩
  | 9 => ⟨S128x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S100000x1, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S_, .f32⟩
  | 30 => ⟨S100000, .f32⟩
  | 31 => ⟨S_, .f32⟩
  | 32 => ⟨S40, .f32⟩
  | 33 => ⟨S100000x1, .i32⟩
  | 34 => ⟨S40, .f32⟩
  | 35 => ⟨S_, .f32⟩
  | 36 => ⟨S40, .f32⟩
  | 37 => ⟨S40, .f32⟩
  | 38 => ⟨S1x128, .f32⟩
  | 39 => ⟨S100000x128, .f32⟩
  | 40 => ⟨S25x40x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S_, .f32⟩
  | 55 => ⟨S40x128, .f32⟩
  | 56 => ⟨S40x1, .f32⟩
  | 57 => ⟨S40x128, .f32⟩
  | 58 => ⟨S40x128, .f32⟩
  | 59 => ⟨S40x1x128, .f32⟩
  | 60 => ⟨S1x40x128, .f32⟩
  | 61 => ⟨S40x40x128, .f32⟩
  | 62 => ⟨S40x40x128, .f32⟩
  | 63 => ⟨S40x40x128, .f32⟩
  | 64 => ⟨S40x40x128, .f32⟩
  | 65 => ⟨S_, .f32⟩
  | 66 => ⟨S40x40, .f32⟩
  | 67 => ⟨S40x40x1, .f32⟩
  | 68 => ⟨S40x40x1, .f32⟩
  | 69 => ⟨S_, .f32⟩
  | 70 => ⟨S40x40x1, .f32⟩
  | 71 => ⟨S40x40x1, .i1⟩
  | 72 => ⟨S_, .f32⟩
  | 73 => ⟨S_, .f32⟩
  | 74 => ⟨S40x40x1, .f32⟩
  | 75 => ⟨S40x40x1, .f32⟩
  | 76 => ⟨S40x40x128, .f32⟩
  | 77 => ⟨S40x40x128, .f32⟩
  | 78 => ⟨S40x1x128, .f32⟩
  | 79 => ⟨S40x128, .f32⟩
  | 80 => ⟨S1x128, .f32⟩
  | 81 => ⟨S100000x128, .f32⟩
  | 82 => ⟨S50x40x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S_, .f32⟩
  | 97 => ⟨S40x128, .f32⟩
  | 98 => ⟨S40x1, .f32⟩
  | 99 => ⟨S40x128, .f32⟩
  | 100 => ⟨S40x128, .f32⟩
  | 101 => ⟨S40x1x128, .f32⟩
  | 102 => ⟨S1x40x128, .f32⟩
  | 103 => ⟨S40x40x128, .f32⟩
  | 104 => ⟨S40x40x128, .f32⟩
  | 105 => ⟨S40x40x128, .f32⟩
  | 106 => ⟨S40x40x128, .f32⟩
  | 107 => ⟨S_, .f32⟩
  | 108 => ⟨S40x40, .f32⟩
  | 109 => ⟨S40x40x1, .f32⟩
  | 110 => ⟨S40x40x1, .f32⟩
  | 111 => ⟨S_, .f32⟩
  | 112 => ⟨S40x40x1, .f32⟩
  | 113 => ⟨S40x40x1, .i1⟩
  | 114 => ⟨S_, .f32⟩
  | 115 => ⟨S_, .f32⟩
  | 116 => ⟨S40x40x1, .f32⟩
  | 117 => ⟨S40x40x1, .f32⟩
  | 118 => ⟨S40x40x128, .f32⟩
  | 119 => ⟨S40x40x128, .f32⟩
  | 120 => ⟨S40x1x128, .f32⟩
  | 121 => ⟨S40x128, .f32⟩
  | 122 => ⟨S1x40, .f32⟩
  | 123 => ⟨S100000x40, .f32⟩
  | 124 => ⟨S50x40x40, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x40, .f32⟩
  | 6 => ⟨S_, .f32⟩
  | 7 => ⟨S100000x40, .f32⟩
  | 8 => ⟨S1600000x1, .i32⟩
  | 9 => ⟨S100000x40, .f32⟩
  | 10 => ⟨S_, .f32⟩
  | 11 => ⟨S40x40, .f32⟩
  | 12 => ⟨S40x1, .f32⟩
  | 13 => ⟨S40x40, .f32⟩
  | 14 => ⟨S40x40, .f32⟩
  | 15 => ⟨S40x1x40, .f32⟩
  | 16 => ⟨S1x40x40, .f32⟩
  | 17 => ⟨S40x40x40, .f32⟩
  | 18 => ⟨S40x40x40, .f32⟩
  | 19 => ⟨S40x40x40, .f32⟩
  | 20 => ⟨S40x40x40, .f32⟩
  | 21 => ⟨S_, .f32⟩
  | 22 => ⟨S40x40, .f32⟩
  | 23 => ⟨S40x40x1, .f32⟩
  | 24 => ⟨S40x40x1, .f32⟩
  | 25 => ⟨S_, .f32⟩
  | 26 => ⟨S40x40x1, .f32⟩
  | 27 => ⟨S40x40x1, .i1⟩
  | 28 => ⟨S_, .f32⟩
  | 29 => ⟨S_, .f32⟩
  | 30 => ⟨S40x40x1, .f32⟩
  | 31 => ⟨S40x40x1, .f32⟩
  | 32 => ⟨S40x40x40, .f32⟩
  | 33 => ⟨S40x40x40, .f32⟩
  | 34 => ⟨S40x1x40, .f32⟩
  | 35 => ⟨S40x40, .f32⟩
  | 36 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x1, .i32⟩
  | .local _ .vmem, ⟨5, _⟩ => ⟨S4000x1, .i32⟩
  | .local _ .vmem, ⟨6, _⟩ => ⟨S4000x128, .f32⟩
  | .local _ .vmem, ⟨7, _⟩ => ⟨S4000x128, .f32⟩
  | .local _ .vmem, ⟨8, _⟩ => ⟨S1x40x128, .f32⟩
  | .local _ .vmem, ⟨9, _⟩ => ⟨S1x40x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x40, .f32⟩
  | .local _ .vmem, ⟨17, _⟩ => ⟨S2000x40, .f32⟩
  | .local _ .vmem, ⟨18, _⟩ => ⟨S40x128, .f32⟩
  | .local _ .vmem, ⟨19, _⟩ => ⟨S128x128, .f32⟩
  | .local _ .vmem, ⟨20, _⟩ => ⟨S1x128, .f32⟩
  | .local _ .vmem, ⟨21, _⟩ => ⟨S2000x1, .i32⟩
  | .local _ .vmem, ⟨22, _⟩ => ⟨S2000x1, .i32⟩
  | .local _ .vmem, ⟨23, _⟩ => ⟨S2000x128, .f32⟩
  | .local _ .vmem, ⟨24, _⟩ => ⟨S2000x128, .f32⟩
  | .local _ .vmem, ⟨25, _⟩ => ⟨S1x40x128, .f32⟩
  | .local _ .vmem, ⟨26, _⟩ => ⟨S1x40x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S2000x40, .f32⟩
  | .local _ .vmem, ⟨34, _⟩ => ⟨S2000x40, .f32⟩
  | .local _ .vmem, ⟨35, _⟩ => ⟨S40x128, .f32⟩
  | .local _ .vmem, ⟨36, _⟩ => ⟨S128x40, .f32⟩
  | .local _ .vmem, ⟨37, _⟩ => ⟨S1x40, .f32⟩
  | .local _ .vmem, ⟨38, _⟩ => ⟨S2000x1, .i32⟩
  | .local _ .vmem, ⟨39, _⟩ => ⟨S2000x1, .i32⟩
  | .local _ .vmem, ⟨40, _⟩ => ⟨S2000x40, .f32⟩
  | .local _ .vmem, ⟨41, _⟩ => ⟨S2000x40, .f32⟩
  | .local _ .vmem, ⟨42, _⟩ => ⟨S1x40x40, .f32⟩
  | .local _ .vmem, ⟨43, _⟩ => ⟨S1x40x40, .f32⟩
  | .local _ .vmem, ⟨44, _⟩ => ⟨S4000x40, .f32⟩
  | .local _ .vmem, ⟨45, _⟩ => ⟨S4000x40, .f32⟩
  | .local _ .vmem, ⟨46, _⟩ => ⟨S4000x40, .f32⟩
  | .local _ .vmem, ⟨47, _⟩ => ⟨S4000x40, .f32⟩
  | .local _ .vmem, ⟨48, _⟩ => ⟨S4000x1, .f32⟩
  | .local _ .vmem, ⟨49, _⟩ => ⟨S4000x1, .f32⟩
  | .local _ .vmem, ⟨50, _⟩ => ⟨S4000x40, .f32⟩
  | .local _ .vmem, ⟨51, _⟩ => ⟨S4000x40, .f32⟩
  | .local _ .vmem, ⟨52, _⟩ => ⟨S40x40, .f32⟩
  | .local _ .vmem, ⟨53, _⟩ => ⟨S4000x40, .f32⟩
  | .local _ .vmem, ⟨54, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_cst : Ref sig .tc := ⟨.hbm, 65, rfl⟩
abbrev main_call0_v1 : Ref sig .tc := ⟨.hbm, 66, rfl⟩
abbrev main_call0_v2 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_call1_v0 : Ref sig .tc := ⟨.hbm, 73, rfl⟩
abbrev main_call1_v1 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev main_c_11 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call2_v0 : Ref sig .tc := ⟨.hbm, 106, rfl⟩
abbrev main_call2_cst : Ref sig .tc := ⟨.hbm, 107, rfl⟩
abbrev main_call2_v1 : Ref sig .tc := ⟨.hbm, 108, rfl⟩
abbrev main_call2_v2 : Ref sig .tc := ⟨.hbm, 109, rfl⟩
abbrev main_v70 : Ref sig .tc := ⟨.hbm, 110, rfl⟩
abbrev main_cst_15 : Ref sig .tc := ⟨.hbm, 111, rfl⟩
abbrev main_v71 : Ref sig .tc := ⟨.hbm, 112, rfl⟩
abbrev main_v72 : Ref sig .tc := ⟨.hbm, 113, rfl⟩
abbrev main_cst_16 : Ref sig .tc := ⟨.hbm, 114, rfl⟩
abbrev main_call3_v0 : Ref sig .tc := ⟨.hbm, 115, rfl⟩
abbrev main_call3_v1 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79_0 : Ref sig .tc := ⟨.hbm, 123, rfl⟩
abbrev main_v79_1 : Ref sig .tc := ⟨.hbm, 124, rfl⟩
abbrev main_c_17 : Ref sig .tc := ⟨.hbm, 125, rfl⟩
abbrev main_v80 : Ref sig .tc := ⟨.hbm, 126, rfl⟩
abbrev main_v81 : Ref sig .tc := ⟨.hbm, 127, rfl⟩
abbrev main_c_18 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_19 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_20 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_call4_v0 : Ref sig .tc := ⟨.hbm, 148, rfl⟩
abbrev main_call4_cst : Ref sig .tc := ⟨.hbm, 149, rfl⟩
abbrev main_call4_v1 : Ref sig .tc := ⟨.hbm, 150, rfl⟩
abbrev main_call4_v2 : Ref sig .tc := ⟨.hbm, 151, rfl⟩
abbrev main_v99 : Ref sig .tc := ⟨.hbm, 152, rfl⟩
abbrev main_cst_21 : Ref sig .tc := ⟨.hbm, 153, rfl⟩
abbrev main_v100 : Ref sig .tc := ⟨.hbm, 154, rfl⟩
abbrev main_v101 : Ref sig .tc := ⟨.hbm, 155, rfl⟩
abbrev main_cst_22 : Ref sig .tc := ⟨.hbm, 156, rfl⟩
abbrev main_call5_v0 : Ref sig .tc := ⟨.hbm, 157, rfl⟩
abbrev main_call5_v1 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc2_stg9_0 : Ref sig .tc := ⟨.vmem, 42, rfl⟩
abbrev cc2_stg9_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg5_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41
abbrev cc2_sem9_0 : DmaSem sig := 42
abbrev cc2_sem9_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem5_0 : DmaSem sig := 53
abbrev cc3_sem5_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S40x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x40x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S40x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x40x40 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S40x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S40 : S_.BroadcastsInDim S40 (![] : Fin 0 → Fin S40.rank)
  bcast_S100000_S100000x1_0 : S100000.BroadcastsInDim S100000x1 (![0] : Fin 1 → Fin S100000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x40_d1_w32 : S4000x40.Iotas .tc 32 [1]
  broadcasts_S4000x1_S4000x40 : S4000x1.Broadcasts S4000x40
  natLt_1_32 : 1 < 32
  shapeCasts_S40x128_S1x40x128 : S40x128.ShapeCasts S1x40x128
  inb_S1x40x128_S1x40x128_0_0_0 : ∀ a, (![0, 0, 0] : Fin 3 → Nat) a + S1x40x128.size a ≤ S1x40x128.size a
  h_S1x40x128 : 0 < S1x40x128.numel
  bcast_S_S100000x128 : S_.BroadcastsInDim S100000x128 (![] : Fin 0 → Fin S100000x128.rank)
  reducesTo_S25x40x128_S40x128_d0 : S25x40x128.ReducesTo [0] S40x128
  h_S_ : 0 < S_.numel
  bcast_S40_S40x1_0 : S40.BroadcastsInDim S40x1 (![0] : Fin 1 → Fin S40x1.rank)
  bcast_S40x1_S40x128_0_1 : S40x1.BroadcastsInDim S40x128 (![0, 1] : Fin 2 → Fin S40x128.rank)
  bcast_S40x128_S40x1x128_0_2 : S40x128.BroadcastsInDim S40x1x128 (![0, 2] : Fin 2 → Fin S40x1x128.rank)
  bcast_S40x128_S1x40x128_1_2 : S40x128.BroadcastsInDim S1x40x128 (![1, 2] : Fin 2 → Fin S1x40x128.rank)
  bcast_S40x1x128_S40x40x128_0_1_2 : S40x1x128.BroadcastsInDim S40x40x128 (![0, 1, 2] : Fin 3 → Fin S40x40x128.rank)
  bcast_S1x40x128_S40x40x128_0_1_2 : S1x40x128.BroadcastsInDim S40x40x128 (![0, 1, 2] : Fin 3 → Fin S40x40x128.rank)
  reducesTo_S40x40x128_S40x40_d2 : S40x40x128.ReducesTo [2] S40x40
  bcast_S40x40_S40x40x1_0_1 : S40x40.BroadcastsInDim S40x40x1 (![0, 1] : Fin 2 → Fin S40x40x1.rank)
  bcast_S_S40x40x1 : S_.BroadcastsInDim S40x40x1 (![] : Fin 0 → Fin S40x40x1.rank)
  bcast_S40x40x1_S40x40x128_0_1_2 : S40x40x1.BroadcastsInDim S40x40x128 (![0, 1, 2] : Fin 3 → Fin S40x40x128.rank)
  shapeCasts_S40x1x128_S40x128 : S40x1x128.ShapeCasts S40x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x40_S2000x40_0_0 : ∀ a, (![0, 0] : Fin 2 → Nat) a + S2000x40.size a ≤ S2000x40.size a
  h_S2000x40 : 0 < S2000x40.numel
  inb_S40x128_S40x128_0_0 : ∀ a, (![0, 0] : Fin 2 → Nat) a + S40x128.size a ≤ S40x128.size a
  h_S40x128 : 0 < S40x128.numel
  shapeCasts_S40x128_S40x128 : S40x128.ShapeCasts S40x128
  broadcasts_S1x128_S2000x128 : S1x128.Broadcasts S2000x128
  iota_S2000x40_d1_w32 : S2000x40.Iotas .tc 32 [1]
  broadcasts_S2000x1_S2000x40 : S2000x1.Broadcasts S2000x40
  reducesTo_S50x40x128_S40x128_d0 : S50x40x128.ReducesTo [0] S40x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  shapeCasts_S40x40_S1x40x40 : S40x40.ShapeCasts S1x40x40
  inb_S1x40x40_S1x40x40_0_0_0 : ∀ a, (![0, 0, 0] : Fin 3 → Nat) a + S1x40x40.size a ≤ S1x40x40.size a
  h_S1x40x40 : 0 < S1x40x40.numel
  bcast_S_S100000x40 : S_.BroadcastsInDim S100000x40 (![] : Fin 0 → Fin S100000x40.rank)
  reducesTo_S50x40x40_S40x40_d0 : S50x40x40.ReducesTo [0] S40x40
  bcast_S40x1_S40x40_0_1 : S40x1.BroadcastsInDim S40x40 (![0, 1] : Fin 2 → Fin S40x40.rank)
  bcast_S40x40_S40x1x40_0_2 : S40x40.BroadcastsInDim S40x1x40 (![0, 2] : Fin 2 → Fin S40x1x40.rank)
  bcast_S40x40_S1x40x40_1_2 : S40x40.BroadcastsInDim S1x40x40 (![1, 2] : Fin 2 → Fin S1x40x40.rank)
  bcast_S40x1x40_S40x40x40_0_1_2 : S40x1x40.BroadcastsInDim S40x40x40 (![0, 1, 2] : Fin 3 → Fin S40x40x40.rank)
  bcast_S1x40x40_S40x40x40_0_1_2 : S1x40x40.BroadcastsInDim S40x40x40 (![0, 1, 2] : Fin 3 → Fin S40x40x40.rank)
  reducesTo_S40x40x40_S40x40_d2 : S40x40x40.ReducesTo [2] S40x40
  bcast_S40x40x1_S40x40x40_0_1_2 : S40x40x1.BroadcastsInDim S40x40x40 (![0, 1, 2] : Fin 3 → Fin S40x40x40.rank)
  shapeCasts_S40x1x40_S40x40 : S40x1x40.ShapeCasts S40x40
  inb_S4000x40_S4000x40_0_0 : ∀ a, (![0, 0] : Fin 2 → Nat) a + S4000x40.size a ≤ S4000x40.size a
  h_S4000x40 : 0 < S4000x40.numel
  shapeCasts_S4000x40_S4000x40 : S4000x40.ShapeCasts S4000x40
  inb_S40x40_S40x40_0_0 : ∀ a, (![0, 0] : Fin 2 → Nat) a + S40x40.size a ≤ S40x40.size a
  h_S40x40 : 0 < S40x40.numel
  shapeCasts_S40x40_S40x40 : S40x40.ShapeCasts S40x40
  scatter_S100000_S1600000x1_S1600000_n_0_0_1_wf : ScatterDims.WF S100000 S1600000x1 S1600000 [] [0] [0] 1
  scatter_S40_S100000x1_S100000_n_0_0_1_wf : ScatterDims.WF S40 S100000x1 S100000 [] [0] [0] 1
  dot_S4000x128_S128x128_S4000x128_1_0_0_1_n_n_wf : DotDims.WF S4000x128 S128x128 S4000x128 [1] [0] [0] [1] [] []
  dot_S4000x40_S4000x128_S40x128_0_0_1_1_n_n_wf : DotDims.WF S4000x40 S4000x128 S40x128 [0] [0] [1] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S40x1x40_S40x40x128_S40x1x128_2_1_1_2_0_0_wf : DotDims.WF S40x1x40 S40x40x128 S40x1x128 [2] [1] [1] [2] [0] [0]
  dot_S2000x40_S40x128_S2000x128_1_0_0_1_n_n_wf : DotDims.WF S2000x40 S40x128 S2000x128 [1] [0] [0] [1] [] []
  dot_S2000x128_S128x128_S2000x128_1_0_0_1_n_n_wf : DotDims.WF S2000x128 S128x128 S2000x128 [1] [0] [0] [1] [] []
  dot_S2000x40_S2000x128_S40x128_0_0_1_1_n_n_wf : DotDims.WF S2000x40 S2000x128 S40x128 [0] [0] [1] [1] [] []
  dot_S2000x128_S128x40_S2000x40_1_0_0_1_n_n_wf : DotDims.WF S2000x128 S128x40 S2000x40 [1] [0] [0] [1] [] []
  dot_S2000x40_S2000x40_S40x40_0_0_1_1_n_n_wf : DotDims.WF S2000x40 S2000x40 S40x40 [0] [0] [1] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S40x1x40_S40x40x40_S40x1x40_2_1_1_2_0_0_wf : DotDims.WF S40x1x40 S40x40x40 S40x1x40 [2] [1] [1] [2] [0] [0]
  dot_S4000x40_S40x40_S4000x40_1_0_0_1_n_n_wf : DotDims.WF S4000x40 S40x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .i32 = 32 ∨ (Rect.block (s := S100000x1) S4000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x40x128.size a ≤ S25x40x128.size a
  hwx0_5 : ∀ i : grid0.Coords, EltTy.bits .f32 = 32 ∨ (Rect.block (s := S25x40x128) S1x40x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40x128.size a ≤ S40x128.size a
  hwx1_4 : ∀ i : grid1.Coords, EltTy.bits .f32 = 32 ∨ (Rect.block (s := S40x128) S40x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S100000x1.size a
  hwx1_7 : ∀ i : grid1.Coords, EltTy.bits .i32 = 32 ∨ (Rect.block (s := S100000x1) S2000x1.size (cc1_transform_7 i) (hinb1_7 i)).WholeWords (EltTy.packing .i32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x40x128.size a ≤ S50x40x128.size a
  hwx1_9 : ∀ i : grid1.Coords, EltTy.bits .f32 = 32 ∨ (Rect.block (s := S50x40x128) S1x40x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S100000x40.size a
  hwx2_3 : ∀ i : grid2.Coords, EltTy.bits .f32 = 32 ∨ (Rect.block (s := S100000x40) S2000x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S40x128.size a ≤ S40x128.size a
  hwx2_4 : ∀ i : grid2.Coords, EltTy.bits .f32 = 32 ∨ (Rect.block (s := S40x128) S40x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x40.size a ≤ S128x40.size a
  hwx2_5 : ∀ i : grid2.Coords, EltTy.bits .f32 = 32 ∨ (Rect.block (s := S128x40) S128x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S100000x1.size a
  hwx2_7 : ∀ i : grid2.Coords, EltTy.bits .i32 = 32 ∨ (Rect.block (s := S100000x1) S2000x1.size (cc2_transform_7 i) (hinb2_7 i)).WholeWords (EltTy.packing .i32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x40.size a ≤ S100000x40.size a
  hwx2_8 : ∀ i : grid2.Coords, EltTy.bits .f32 = 32 ∨ (Rect.block (s := S100000x40) S2000x40.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x40x40.size a ≤ S50x40x40.size a
  hwx2_9 : ∀ i : grid2.Coords, EltTy.bits .f32 = 32 ∨ (Rect.block (s := S50x40x40) S1x40x40.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x40.size a ≤ S100000x40.size a
  hwx3_0 : ∀ i : grid3.Coords, EltTy.bits .f32 = 32 ∨ (Rect.block (s := S100000x40) S4000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x40.size a ≤ S100000x40.size a
  hwx3_1 : ∀ i : grid3.Coords, EltTy.bits .f32 = 32 ∨ (Rect.block (s := S100000x40) S4000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x40.size a ≤ S100000x40.size a
  hwx3_3 : ∀ i : grid3.Coords, EltTy.bits .f32 = 32 ∨ (Rect.block (s := S100000x40) S4000x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S40x40.size a ≤ S40x40.size a
  hwx3_4 : ∀ i : grid3.Coords, EltTy.bits .f32 = 32 ∨ (Rect.block (s := S40x40) S40x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x40.size a ≤ S100000x40.size a
  hwx3_5 : ∀ i : grid3.Coords, EltTy.bits .f32 = 32 ∨ (Rect.block (s := S100000x40) S4000x40.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S40_S100000x1_S100000_n_0_0_1 : ScatterDims S40 S100000x1 S100000 where
  updateWindowDims := []
  insertedWindowDims := [0]
  scatterDimsToOperandDims := [0]
  indexVectorDim := 1
  wf := scatter_S40_S100000x1_S100000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x40_S4000x128_S40x128_0_0_1_1_n_n : DotDims S4000x40 S4000x128 S40x128 where
  lhsContracting := [0]
  rhsContracting := [0]
  lhsNonContracting := [1]
  rhsNonContracting := [1]
  lhsBatch := []
  rhsBatch := []
  wf := dot_S4000x40_S4000x128_S40x128_0_0_1_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S40x1x40_S40x40x128_S40x1x128_2_1_1_2_0_0 : DotDims S40x1x40 S40x40x128 S40x1x128 where
  lhsContracting := [2]
  rhsContracting := [1]
  lhsNonContracting := [1]
  rhsNonContracting := [2]
  lhsBatch := [0]
  rhsBatch := [0]
  wf := dot_S40x1x40_S40x40x128_S40x1x128_2_1_1_2_0_0_wf
def dot_S2000x40_S40x128_S2000x128_1_0_0_1_n_n : DotDims S2000x40 S40x128 S2000x128 where
  lhsContracting := [1]
  rhsContracting := [0]
  lhsNonContracting := [0]
  rhsNonContracting := [1]
  lhsBatch := []
  rhsBatch := []
  wf := dot_S2000x40_S40x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x40_S2000x128_S40x128_0_0_1_1_n_n : DotDims S2000x40 S2000x128 S40x128 where
  lhsContracting := [0]
  rhsContracting := [0]
  lhsNonContracting := [1]
  rhsNonContracting := [1]
  lhsBatch := []
  rhsBatch := []
  wf := dot_S2000x40_S2000x128_S40x128_0_0_1_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def dot_S2000x40_S2000x40_S40x40_0_0_1_1_n_n : DotDims S2000x40 S2000x40 S40x40 where
  lhsContracting := [0]
  rhsContracting := [0]
  lhsNonContracting := [1]
  rhsNonContracting := [1]
  lhsBatch := []
  rhsBatch := []
  wf := dot_S2000x40_S2000x40_S40x40_0_0_1_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S40x1x40_S40x40x40_S40x1x40_2_1_1_2_0_0 : DotDims S40x1x40 S40x40x40 S40x1x40 where
  lhsContracting := [2]
  rhsContracting := [1]
  lhsNonContracting := [1]
  rhsNonContracting := [2]
  lhsBatch := [0]
  rhsBatch := [0]
  wf := dot_S40x1x40_S40x40x40_S40x1x40_2_1_1_2_0_0_wf
def dot_S4000x40_S40x40_S4000x40_1_0_0_1_n_n : DotDims S4000x40 S40x40 S4000x40 where
  lhsContracting := [1]
  rhsContracting := [0]
  lhsNonContracting := [0]
  rhsNonContracting := [1]
  lhsBatch := []
  rhsBatch := []
  wf := dot_S4000x40_S40x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S1x40x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000x40.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S40x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S2000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v50_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v50_1) S1x40x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v50_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S2000x40.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v77) S40x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S2000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v79_0) S2000x40.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v79_1) S1x40x40.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v79_0) S4000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S4000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S4000x40.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v106) S40x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v107) S4000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S100000x40 : Shape := ⟨2, ![100000, 40]⟩
abbrev S40x1x40 : Shape := ⟨3, ![40, 1, 40]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S40x128 : Shape := ⟨2, ![40, 128]⟩
abbrev S40x1 : Shape := ⟨2, ![40, 1]⟩
abbrev S40x1x128 : Shape := ⟨3, ![40, 1, 128]⟩
abbrev S1x40x128 : Shape := ⟨3, ![1, 40, 128]⟩
abbrev S40x40x128 : Shape := ⟨3, ![40, 40, 128]⟩
abbrev S40x40 : Shape := ⟨2, ![40, 40]⟩
abbrev S40x40x1 : Shape := ⟨3, ![40, 40, 1]⟩
abbrev S1x40 : Shape := ⟨2, ![1, 40]⟩
abbrev S1600000x40 : Shape := ⟨2, ![1600000, 40]⟩
abbrev S1x40x40 : Shape := ⟨3, ![1, 40, 40]⟩
abbrev S40x40x40 : Shape := ⟨3, ![40, 40, 40]⟩

abbrev nBuf : Space → Nat
  | .hbm => 249
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000x40, .f32⟩
  | 4 => ⟨S40x1x40, .f32⟩
  | 5 => ⟨S128x128, .f32⟩
  | 6 => ⟨S128, .f32⟩
  | 7 => ⟨S128x128, .f32⟩
  | 8 => ⟨S128, .f32⟩
  | 9 => ⟨S128x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S1x128, .f32⟩
  | 17 => ⟨S100000x128, .f32⟩
  | 18 => ⟨S100000x128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .f32⟩
  | 45 => ⟨S40x128, .f32⟩
  | 46 => ⟨S100000x1, .i32⟩
  | 47 => ⟨S40x128, .f32⟩
  | 48 => ⟨S_, .f32⟩
  | 49 => ⟨S100000, .f32⟩
  | 50 => ⟨S_, .f32⟩
  | 51 => ⟨S40, .f32⟩
  | 52 => ⟨S100000x1, .i32⟩
  | 53 => ⟨S40, .f32⟩
  | 54 => ⟨S_, .f32⟩
  | 55 => ⟨S40, .f32⟩
  | 56 => ⟨S40, .f32⟩
  | 57 => ⟨S40x1, .f32⟩
  | 58 => ⟨S40x128, .f32⟩
  | 59 => ⟨S40x128, .f32⟩
  | 60 => ⟨S40x1x128, .f32⟩
  | 61 => ⟨S1x40x128, .f32⟩
  | 62 => ⟨S40x40x128, .f32⟩
  | 63 => ⟨S40x40x128, .f32⟩
  | 64 => ⟨S40x40x128, .f32⟩
  | 65 => ⟨S40x40x128, .f32⟩
  | 66 => ⟨S_, .f32⟩
  | 67 => ⟨S40x40, .f32⟩
  | 68 => ⟨S40x40x1, .f32⟩
  | 69 => ⟨S40x40x1, .f32⟩
  | 70 => ⟨S_, .f32⟩
  | 71 => ⟨S40x40x1, .f32⟩
  | 72 => ⟨S40x40x1, .i1⟩
  | 73 => ⟨S_, .f32⟩
  | 74 => ⟨S_, .f32⟩
  | 75 => ⟨S40x40x1, .f32⟩
  | 76 => ⟨S40x40x1, .f32⟩
  | 77 => ⟨S40x40x128, .f32⟩
  | 78 => ⟨S40x40x128, .f32⟩
  | 79 => ⟨S40x1x128, .f32⟩
  | 80 => ⟨S40x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S_, .f32⟩
  | 112 => ⟨S1600000, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S_, .f32⟩
  | 124 => ⟨S40x128, .f32⟩
  | 125 => ⟨S100000x1, .i32⟩
  | 126 => ⟨S40x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S40, .f32⟩
  | 3 => ⟨S100000x1, .i32⟩
  | 4 => ⟨S40, .f32⟩
  | 5 => ⟨S_, .f32⟩
  | 6 => ⟨S40, .f32⟩
  | 7 => ⟨S40, .f32⟩
  | 8 => ⟨S40x1, .f32⟩
  | 9 => ⟨S40x128, .f32⟩
  | 10 => ⟨S40x128, .f32⟩
  | 11 => ⟨S40x1x128, .f32⟩
  | 12 => ⟨S1x40x128, .f32⟩
  | 13 => ⟨S40x40x128, .f32⟩
  | 14 => ⟨S40x40x128, .f32⟩
  | 15 => ⟨S40x40x128, .f32⟩
  | 16 => ⟨S40x40x128, .f32⟩
  | 17 => ⟨S_, .f32⟩
  | 18 => ⟨S40x40, .f32⟩
  | 19 => ⟨S40x40x1, .f32⟩
  | 20 => ⟨S40x40x1, .f32⟩
  | 21 => ⟨S_, .f32⟩
  | 22 => ⟨S40x40x1, .f32⟩
  | 23 => ⟨S40x40x1, .i1⟩
  | 24 => ⟨S_, .f32⟩
  | 25 => ⟨S_, .f32⟩
  | 26 => ⟨S40x40x1, .f32⟩
  | 27 => ⟨S40x40x1, .f32⟩
  | 28 => ⟨S40x40x128, .f32⟩
  | 29 => ⟨S40x40x128, .f32⟩
  | 30 => ⟨S40x1x128, .f32⟩
  | 31 => ⟨S40x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x40, .f32⟩
  | 46 => ⟨S1x40, .f32⟩
  | 47 => ⟨S100000x40, .f32⟩
  | 48 => ⟨S100000x40, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x40, .f32⟩
  | 58 => ⟨S_, .f32⟩
  | 59 => ⟨S100000x40, .f32⟩
  | 60 => ⟨S1600000x1, .i32⟩
  | 61 => ⟨S100000x40, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x40, .f32⟩
  | 73 => ⟨S100000x40, .f32⟩
  | 74 => ⟨S_, .f32⟩
  | 75 => ⟨S40x40, .f32⟩
  | 76 => ⟨S100000x1, .i32⟩
  | 77 => ⟨S40x40, .f32⟩
  | 78 => ⟨S_, .f32⟩
  | 79 => ⟨S100000, .f32⟩
  | 80 => ⟨S_, .f32⟩
  | 81 => ⟨S40, .f32⟩
  | 82 => ⟨S100000x1, .i32⟩
  | 83 => ⟨S40, .f32⟩
  | 84 => ⟨S_, .f32⟩
  | 85 => ⟨S40, .f32⟩
  | 86 => ⟨S40, .f32⟩
  | 87 => ⟨S40x1, .f32⟩
  | 88 => ⟨S40x40, .f32⟩
  | 89 => ⟨S40x40, .f32⟩
  | 90 => ⟨S40x1x40, .f32⟩
  | 91 => ⟨S1x40x40, .f32⟩
  | 92 => ⟨S40x40x40, .f32⟩
  | 93 => ⟨S40x40x40, .f32⟩
  | 94 => ⟨S40x40x40, .f32⟩
  | 95 => ⟨S40x40x40, .f32⟩
  | 96 => ⟨S_, .f32⟩
  | 97 => ⟨S40x40, .f32⟩
  | 98 => ⟨S40x40x1, .f32⟩
  | 99 => ⟨S40x40x1, .f32⟩
  | 100 => ⟨S_, .f32⟩
  | 101 => ⟨S40x40x1, .f32⟩
  | 102 => ⟨S40x40x1, .i1⟩
  | 103 => ⟨S_, .f32⟩
  | 104 => ⟨S_, .f32⟩
  | 105 => ⟨S40x40x1, .f32⟩
  | 106 => ⟨S40x40x1, .f32⟩
  | 107 => ⟨S40x40x40, .f32⟩
  | 108 => ⟨S40x40x40, .f32⟩
  | 109 => ⟨S40x1x40, .f32⟩
  | 110 => ⟨S40x40, .f32⟩
  | 111 => ⟨S100000x40, .f32⟩
  | 112 => ⟨S_, .f32⟩
  | 113 => ⟨S100000x40, .f32⟩
  | 114 => ⟨S100000x40, .f32⟩
  | 115 => ⟨S100000x40, .f32⟩
  | 116 => ⟨S100000x40, .f32⟩
  | 117 => ⟨S_, .f32⟩
  | 118 => ⟨S100000x40, .f32⟩
  | 119 => ⟨S100000x40, .f32⟩
  | 120 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_v0 : Ref sig .tc := ⟨.hbm, 65, rfl⟩
abbrev main_call0_cst : Ref sig .tc := ⟨.hbm, 66, rfl⟩
abbrev main_call0_v1 : Ref sig .tc := ⟨.hbm, 67, rfl⟩
abbrev main_call0_v2 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_cst_20 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call3_v0 : Ref sig .tc := ⟨.hbm, 144, rfl⟩
abbrev main_call3_cst : Ref sig .tc := ⟨.hbm, 145, rfl⟩
abbrev main_call3_v1 : Ref sig .tc := ⟨.hbm, 146, rfl⟩
abbrev main_call3_v2 : Ref sig .tc := ⟨.hbm, 147, rfl⟩
abbrev main_v101 : Ref sig .tc := ⟨.hbm, 148, rfl⟩
abbrev main_cst_22 : Ref sig .tc := ⟨.hbm, 149, rfl⟩
abbrev main_v102 : Ref sig .tc := ⟨.hbm, 150, rfl⟩
abbrev main_v103 : Ref sig .tc := ⟨.hbm, 151, rfl⟩
abbrev main_cst_23 : Ref sig .tc := ⟨.hbm, 152, rfl⟩
abbrev main_call4_v0 : Ref sig .tc := ⟨.hbm, 153, rfl⟩
abbrev main_call4_v1 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_24 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_25 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_call5_cst : Ref sig .tc := ⟨.hbm, 170, rfl⟩
abbrev main_call5_v0 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_c_26 : Ref sig .tc := ⟨.hbm, 177, rfl⟩
abbrev main_v122 : Ref sig .tc := ⟨.hbm, 178, rfl⟩
abbrev main_v123 : Ref sig .tc := ⟨.hbm, 179, rfl⟩
abbrev main_c_27 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_28 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_29 : Ref sig .tc := ⟨.hbm, 190, rfl⟩
abbrev main_v132 : Ref sig .tc := ⟨.hbm, 191, rfl⟩
abbrev main_cst_30 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_31 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_32 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_33 : Ref sig .tc := ⟨.hbm, 206, rfl⟩
abbrev main_v144 : Ref sig .tc := ⟨.hbm, 207, rfl⟩
abbrev main_cst_34 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_35 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_call6_v0 : Ref sig .tc := ⟨.hbm, 223, rfl⟩
abbrev main_call6_cst : Ref sig .tc := ⟨.hbm, 224, rfl⟩
abbrev main_call6_v1 : Ref sig .tc := ⟨.hbm, 225, rfl⟩
abbrev main_call6_v2 : Ref sig .tc := ⟨.hbm, 226, rfl⟩
abbrev main_v158 : Ref sig .tc := ⟨.hbm, 227, rfl⟩
abbrev main_cst_36 : Ref sig .tc := ⟨.hbm, 228, rfl⟩
abbrev main_v159 : Ref sig .tc := ⟨.hbm, 229, rfl⟩
abbrev main_v160 : Ref sig .tc := ⟨.hbm, 230, rfl⟩
abbrev main_cst_37 : Ref sig .tc := ⟨.hbm, 231, rfl⟩
abbrev main_call7_v0 : Ref sig .tc := ⟨.hbm, 232, rfl⟩
abbrev main_call7_v1 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_cst_38 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_39 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S40x128 : S_.BroadcastsInDim S40x128 (![] : Fin 0 → Fin S40x128.rank)
  bcast_S_S40 : S_.BroadcastsInDim S40 (![] : Fin 0 → Fin S40.rank)
  bcast_S40_S40x1_0 : S40.BroadcastsInDim S40x1 (![0] : Fin 1 → Fin S40x1.rank)
  bcast_S40x1_S40x128_0_1 : S40x1.BroadcastsInDim S40x128 (![0, 1] : Fin 2 → Fin S40x128.rank)
  bcast_S40x128_S40x1x128_0_2 : S40x128.BroadcastsInDim S40x1x128 (![0, 2] : Fin 2 → Fin S40x1x128.rank)
  bcast_S40x128_S1x40x128_1_2 : S40x128.BroadcastsInDim S1x40x128 (![1, 2] : Fin 2 → Fin S1x40x128.rank)
  bcast_S40x1x128_S40x40x128_0_1_2 : S40x1x128.BroadcastsInDim S40x40x128 (![0, 1, 2] : Fin 3 → Fin S40x40x128.rank)
  bcast_S1x40x128_S40x40x128_0_1_2 : S1x40x128.BroadcastsInDim S40x40x128 (![0, 1, 2] : Fin 3 → Fin S40x40x128.rank)
  reducesTo_S40x40x128_S40x40_d2 : S40x40x128.ReducesTo [2] S40x40
  h_S_ : 0 < S_.numel
  bcast_S40x40_S40x40x1_0_1 : S40x40.BroadcastsInDim S40x40x1 (![0, 1] : Fin 2 → Fin S40x40x1.rank)
  bcast_S_S40x40x1 : S_.BroadcastsInDim S40x40x1 (![] : Fin 0 → Fin S40x40x1.rank)
  bcast_S40x40x1_S40x40x128_0_1_2 : S40x40x1.BroadcastsInDim S40x40x128 (![0, 1, 2] : Fin 3 → Fin S40x40x128.rank)
  shapeCasts_S40x1x128_S40x128 : S40x1x128.ShapeCasts S40x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S_S40x40 : S_.BroadcastsInDim S40x40 (![] : Fin 0 → Fin S40x40.rank)
  bcast_S40x1_S40x40_0_1 : S40x1.BroadcastsInDim S40x40 (![0, 1] : Fin 2 → Fin S40x40.rank)
  bcast_S40x40_S40x1x40_0_2 : S40x40.BroadcastsInDim S40x1x40 (![0, 2] : Fin 2 → Fin S40x1x40.rank)
  bcast_S40x40_S1x40x40_1_2 : S40x40.BroadcastsInDim S1x40x40 (![1, 2] : Fin 2 → Fin S1x40x40.rank)
  bcast_S40x1x40_S40x40x40_0_1_2 : S40x1x40.BroadcastsInDim S40x40x40 (![0, 1, 2] : Fin 3 → Fin S40x40x40.rank)
  bcast_S1x40x40_S40x40x40_0_1_2 : S1x40x40.BroadcastsInDim S40x40x40 (![0, 1, 2] : Fin 3 → Fin S40x40x40.rank)
  reducesTo_S40x40x40_S40x40_d2 : S40x40x40.ReducesTo [2] S40x40
  bcast_S40x40x1_S40x40x40_0_1_2 : S40x40x1.BroadcastsInDim S40x40x40 (![0, 1, 2] : Fin 3 → Fin S40x40x40.rank)
  shapeCasts_S40x1x40_S40x40 : S40x1x40.ShapeCasts S40x40
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  scatter_S40x128_S100000x1_S100000x128_1_0_0_1_wf : ScatterDims.WF S40x128 S100000x1 S100000x128 [1] [0] [0] 1
  scatter_S40_S100000x1_S100000_n_0_0_1_wf : ScatterDims.WF S40 S100000x1 S100000 [] [0] [0] 1
  dot_S40x1x40_S40x40x128_S40x1x128_2_1_1_2_0_0_wf : DotDims.WF S40x1x40 S40x40x128 S40x1x128 [2] [1] [1] [2] [0] [0]
  dot_S100000x40_S40x128_S100000x128_1_0_0_1_n_n_wf : DotDims.WF S100000x40 S40x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  scatter_S40x40_S100000x1_S100000x40_1_0_0_1_wf : ScatterDims.WF S40x40 S100000x1 S100000x40 [1] [0] [0] 1
  dot_S40x1x40_S40x40x40_S40x1x40_2_1_1_2_0_0_wf : DotDims.WF S40x1x40 S40x40x40 S40x1x40 [2] [1] [1] [2] [0] [0]
  dot_S100000x40_S40x40_S100000x40_1_0_0_1_n_n_wf : DotDims.WF S100000x40 S40x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S40x128_S100000x1_S100000x128_1_0_0_1 : ScatterDims S40x128 S100000x1 S100000x128 where
  updateWindowDims := [1]
  insertedWindowDims := [0]
  scatterDimsToOperandDims := [0]
  indexVectorDim := 1
  wf := scatter_S40x128_S100000x1_S100000x128_1_0_0_1_wf
def scatter_S40_S100000x1_S100000_n_0_0_1 : ScatterDims S40 S100000x1 S100000 where
  updateWindowDims := []
  insertedWindowDims := [0]
  scatterDimsToOperandDims := [0]
  indexVectorDim := 1
  wf := scatter_S40_S100000x1_S100000_n_0_0_1_wf
def dot_S40x1x40_S40x40x128_S40x1x128_2_1_1_2_0_0 : DotDims S40x1x40 S40x40x128 S40x1x128 where
  lhsContracting := [2]
  rhsContracting := [1]
  lhsNonContracting := [1]
  rhsNonContracting := [2]
  lhsBatch := [0]
  rhsBatch := [0]
  wf := dot_S40x1x40_S40x40x128_S40x1x128_2_1_1_2_0_0_wf
def dot_S100000x40_S40x128_S100000x128_1_0_0_1_n_n : DotDims S100000x40 S40x128 S100000x128 where
  lhsContracting := [1]
  rhsContracting := [0]
  lhsNonContracting := [0]
  rhsNonContracting := [1]
  lhsBatch := []
  rhsBatch := []
  wf := dot_S100000x40_S40x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def scatter_S40x40_S100000x1_S100000x40_1_0_0_1 : ScatterDims S40x40 S100000x1 S100000x40 where
  updateWindowDims := [1]
  insertedWindowDims := [0]
  scatterDimsToOperandDims := [0]
  indexVectorDim := 1
  wf := scatter_S40x40_S100000x1_S100000x40_1_0_0_1_wf
def dot_S40x1x40_S40x40x40_S40x1x40_2_1_1_2_0_0 : DotDims S40x1x40 S40x40x40 S40x1x40 where
  lhsContracting := [2]
  rhsContracting := [1]
  lhsNonContracting := [1]
  rhsNonContracting := [2]
  lhsBatch := [0]
  rhsBatch := [0]
  wf := dot_S40x1x40_S40x40x40_S40x1x40_2_1_1_2_0_0_wf
def dot_S100000x40_S40x40_S100000x40_1_0_0_1_n_n : DotDims S100000x40 S40x40 S100000x40 where
  lhsContracting := [1]
  rhsContracting := [0]
  lhsNonContracting := [0]
  rhsNonContracting := [1]
  lhsBatch := []
  rhsBatch := []
  wf := dot_S100000x40_S40x40_S100000x40_1_0_0_1_n_n_wf

class Facts : Prop extends Facts₀ where

variable [Facts]
-- ==== Proof.KernelHost0.lean ====
/- What the launch memory holds in the buffers region 0 reads, and each region's window arrays by name. -/
import proofs.«421558_j42331197669872_3_alg».proof.Proof.Gen.KernelIdeal.Frame
import Idealize.ShloMosaic.Lib.StableHlo.Run
import Idealize.ShloMosaic.PureOps.Ideal

set_option maxRecDepth 16384

noncomputable section

namespace Cert.KernelIdeal.HostVals

open Cert.KernelIdeal Cert.KernelIdeal.Gen
open Idealize.ShloMosaic Idealize.ShloMosaic.TcCoe Idealize.ShloMosaic.Tactic
open Idealize.SL Idealize.SL.Sem
open Idealize.ShloMosaic.StableHlo

/-! ## Each window's array, by name -/

/-! ### Region 0's windows -/
theorem arr0_0 : Pipeline.arrRef spec0 0 = main_arg0 := rfl
theorem arr0_1 : Pipeline.arrRef spec0 1 = main_arg5 := rfl
theorem arr0_2 : Pipeline.arrRef spec0 2 = main_v20 := rfl
theorem arr0_3 : Pipeline.arrRef spec0 3 = main_v4 := rfl
theorem arr0_4 : Pipeline.arrRef spec0 4 = main_v21_0 := rfl
theorem arr0_5 : Pipeline.arrRef spec0 5 = main_v21_1 := rfl

/-! ### Region 1's windows -/
theorem arr1_0 : Pipeline.arrRef spec1 0 = main_v21_0 := rfl
theorem arr1_1 : Pipeline.arrRef spec1 1 = main_v31 := rfl
theorem arr1_2 : Pipeline.arrRef spec1 2 = main_v13 := rfl
theorem arr1_3 : Pipeline.arrRef spec1 3 = main_arg3 := rfl
theorem arr1_4 : Pipeline.arrRef spec1 4 = main_v48 := rfl
theorem arr1_5 : Pipeline.arrRef spec1 5 = main_arg7 := rfl
theorem arr1_6 : Pipeline.arrRef spec1 6 = main_v49 := rfl
theorem arr1_7 : Pipeline.arrRef spec1 7 = main_v4 := rfl
theorem arr1_8 : Pipeline.arrRef spec1 8 = main_v50_0 := rfl
theorem arr1_9 : Pipeline.arrRef spec1 9 = main_v50_1 := rfl

/-! ### Region 2's windows -/
theorem arr2_0 : Pipeline.arrRef spec2 0 = main_v50_0 := rfl
theorem arr2_1 : Pipeline.arrRef spec2 1 = main_v60 := rfl
theorem arr2_2 : Pipeline.arrRef spec2 2 = main_v13 := rfl
theorem arr2_3 : Pipeline.arrRef spec2 3 = main_arg3 := rfl
theorem arr2_4 : Pipeline.arrRef spec2 4 = main_v77 := rfl
theorem arr2_5 : Pipeline.arrRef spec2 5 = main_arg9 := rfl
theorem arr2_6 : Pipeline.arrRef spec2 6 = main_v78 := rfl
theorem arr2_7 : Pipeline.arrRef spec2 7 = main_v4 := rfl
theorem arr2_8 : Pipeline.arrRef spec2 8 = main_v79_0 := rfl
theorem arr2_9 : Pipeline.arrRef spec2 9 = main_v79_1 := rfl

/-! ### Region 3's windows -/
theorem arr3_0 : Pipeline.arrRef spec3 0 = main_v79_0 := rfl
theorem arr3_1 : Pipeline.arrRef spec3 1 = main_v89 := rfl
theorem arr3_2 : Pipeline.arrRef spec3 2 = main_v13 := rfl
theorem arr3_3 : Pipeline.arrRef spec3 3 = main_arg3 := rfl
theorem arr3_4 : Pipeline.arrRef spec3 4 = main_v106 := rfl
theorem arr3_5 : Pipeline.arrRef spec3 5 = main_v107 := rfl

/-! ## Region 0's entry: the contents after the first stretch of host operations, at the buffers region 0 reads -/

variable (m : (ℓ : Loc nD τ sig) → Buf (Elt Ideal) ℓ) (ρ : Dev nD → PrngReg) (c : Dev nD)

/-- The features `x`: argument 0 as launched. -/
theorem x_eq0 : W1 m ρ c (Proc.devRef .tc main_arg0) = m ((c.tc : Thread nD τ).loc main_arg0) := by
  dsimp only [W1]; after_results_simp <;> rfl

/-- Layer 1's weights: argument 5 as launched. -/
theorem w_eq0 : W1 m ρ c (Proc.devRef .tc main_arg5) = m ((c.tc : Thread nD τ).loc main_arg5) := by
  dsimp only [W1]; after_results_simp <;> rfl

/-- Layer 1's bias as a row: argument 6 reshaped. -/
theorem b_eq0 : W1 m ρ c (Proc.devRef .tc main_v20)
    = shapeCast S1x128 (m ((c.tc : Thread nD τ).loc main_arg6)) shapeCasts_S128_S1x128 := by
  dsimp only [W1]; after_results_simp <;> rfl

/-- The labels as a column: argument 2 reshaped. -/
theorem lab_eq0 : W1 m ρ c (Proc.devRef .tc main_v4)
    = shapeCast S100000x1 (m ((c.tc : Thread nD τ).loc main_arg2)) shapeCasts_S100000_S100000x1 := by
  dsimp only [W1]; after_results_simp <;> rfl

end Cert.KernelIdeal.HostVals

end
-- ==== Proof.KernelHost1.lean ====
/- Region 1's entry: what the host operations between the launch and region 1 leave in the buffers region 1 reads,
   each as the reference's own stage function (`Cert.ReferenceIdeal.Read.val_main_vN`) of the arguments as launched,
   given what region 0 left in its two outputs. -/
import proofs.«421558_j42331197669872_3_alg».proof.Proof.KernelHost0
import proofs.«421558_j42331197669872_3_alg».proof.Proof.RefStages

set_option maxRecDepth 16384

noncomputable section

namespace Cert.KernelIdeal.HostVals

open Cert.KernelIdeal Cert.KernelIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg) (c : Dev nD)

-- the arguments as launched, on core `c`
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
set_option quotPrecheck true

/-! ## What the first stretch leaves in the buffers later stretches read: the edge lists, the inverse clamped
    degree, the clamped class counts — each the reference's own stage function of the arguments -/

/-- The edges' source column. -/
theorem W1_v1 : W1 m ρ c (Proc.devRef .tc main_v1) = ReferenceIdeal.Read.val_main_v1 a1 := by
  dsimp only [W1]; after_results_simp <;> rfl

/-- The edges' target column. -/
theorem W1_v3 : W1 m ρ c (Proc.devRef .tc main_v3) = ReferenceIdeal.Read.val_main_v3 a1 := by
  dsimp only [W1]; after_results_simp <;> rfl

/-- One over the clamped in-degree, as a column. -/
theorem W1_v13 : W1 m ρ c (Proc.devRef .tc main_v13)
    = shapeCast S100000x1 (Host.divf (broadcastInDim S100000 ![] bcast_S_S100000 (constant S_ .f32 0x3F800000#32))
        (ReferenceIdeal.Read.val_main_v23 a1)) shapeCasts_S100000_S100000x1 := by
  dsimp only [W1]; after_results_simp <;> rfl

/-- The clamped class counts. -/
theorem W1_v19 : W1 m ρ c (Proc.devRef .tc main_v19) = ReferenceIdeal.Read.val_main_v35 a2 := by
  dsimp only [W1]; after_results_simp <;> rfl

theorem W1_arg3 : W1 m ρ c (Proc.devRef .tc main_arg3) = a3 := by
  dsimp only [W1]; after_results_simp <;> rfl
theorem W1_arg4 : W1 m ρ c (Proc.devRef .tc main_arg4) = a4 := by
  dsimp only [W1]; after_results_simp <;> rfl
theorem W1_arg7 : W1 m ρ c (Proc.devRef .tc main_arg7) = a7 := by
  dsimp only [W1]; after_results_simp <;> rfl
theorem W1_arg8 : W1 m ρ c (Proc.devRef .tc main_arg8) = a8 := by
  dsimp only [W1]; after_results_simp <;> rfl
theorem W1_arg9 : W1 m ρ c (Proc.devRef .tc main_arg9) = a9 := by
  dsimp only [W1]; after_results_simp <;> rfl
theorem W1_arg10 : W1 m ρ c (Proc.devRef .tc main_arg10) = a10 := by
  dsimp only [W1]; after_results_simp <;> rfl

/-! ## Region 1's entry -/

/-- Layer 1's features, as region 0 left them. -/
theorem h1_kept : W7 m ρ c (Proc.devRef .tc main_v21_0) = W2 m ρ c (Proc.devRef .tc main_v21_0) := by
  dsimp only [W7, W6, W5, W4, W3]; after_results_simp <;> rfl

/-- The neighbour sums of layer 1's features. -/
theorem s1_eq (hh : W2 m ρ c (Proc.devRef .tc main_v21_0) = ReferenceIdeal.Read.val_main_v7 a0 a5 a6) :
    W7 m ρ c (Proc.devRef .tc main_v31) = ReferenceIdeal.Read.val_main_v17 a0 a1 a5 a6 := by
  dsimp only [W7, W6, W5, W4, W3]; after_results_simp
  rw [hh, W2_of_ne m ρ c main_v3 (by decide), W2_of_ne m ρ c main_v1 (by decide), W1_v1, W1_v3]; rfl

/-- One over the clamped in-degree. -/
theorem inv_eq1 : W7 m ρ c (Proc.devRef .tc main_v13)
    = shapeCast S100000x1 (Host.divf (broadcastInDim S100000 ![] bcast_S_S100000 (constant S_ .f32 0x3F800000#32))
        (ReferenceIdeal.Read.val_main_v23 a1)) shapeCasts_S100000_S100000x1 := by
  dsimp only [W7, W6, W5, W4, W3]; after_results_simp
  rw [W2_of_ne m ρ c main_v13 (by decide)]; exact W1_v13 m ρ c

/-- The class memberships. -/
theorem p_eq1 : W7 m ρ c (Proc.devRef .tc main_arg3) = a3 := by
  dsimp only [W7, W6, W5, W4, W3]; after_results_simp
  rw [W2_of_ne m ρ c main_arg3 (by decide)]; exact W1_arg3 m ρ c

/-- Layer 2's weights. -/
theorem w_eq1 : W7 m ρ c (Proc.devRef .tc main_arg7) = a7 := by
  dsimp only [W7, W6, W5, W4, W3]; after_results_simp
  rw [W2_of_ne m ρ c main_arg7 (by decide)]; exact W1_arg7 m ρ c

/-- Layer 2's bias as a row. -/
theorem b_eq1 : W7 m ρ c (Proc.devRef .tc main_v49) = shapeCast S1x128 a8 shapeCasts_S128_S1x128 := by
  dsimp only [W7, W6, W5, W4, W3]; after_results_simp
  rw [W2_of_ne m ρ c main_arg8 (by decide), W1_arg8]; rfl

/-- The labels as a column. -/
theorem lab_eq1 : W7 m ρ c (Proc.devRef .tc main_v4) = shapeCast S100000x1 a2 shapeCasts_S100000_S100000x1 := by
  dsimp only [W7, W6, W5, W4, W3]; after_results_simp
  exact ((W2_arr m ρ c 3).trans (((dat0 (V1 m ρ) c).arrAt_in 3 rfl _).trans (A_eq0 (V1 m ρ) c 3))).trans (lab_eq0 m ρ c)

/-- The class directions of layer 1. -/
theorem r1_eq (hc : Host.reduceAdd (F := Ideal) (W2 m ρ c (Proc.devRef .tc main_v21_1)) (constant S_ .f32 0x00000000#32)
      reducesTo_S25x40x128_S40x128_d0 h_S_ = ReferenceIdeal.Read.val_main_v29 a0 a2 a5 a6) :
    W7 m ρ c (Proc.devRef .tc main_v48) = ReferenceIdeal.Read.val_main_v51 a0 a2 a4 a5 a6 := by
  dsimp only [W7, W6, W5, W4, W3]; after_results_simp
  rw [hc, W2_of_ne m ρ c main_v19 (by decide), W2_of_ne m ρ c main_arg4 (by decide), W1_v19, W1_arg4]; rfl

/-! ## What region 1's entry holds in the buffers the later stretches read -/

theorem W7_v1 : W7 m ρ c (Proc.devRef .tc main_v1) = ReferenceIdeal.Read.val_main_v1 a1 := by
  dsimp only [W7, W6, W5, W4, W3]; after_results_simp
  rw [W2_of_ne m ρ c main_v1 (by decide)]; exact W1_v1 m ρ c
theorem W7_v3 : W7 m ρ c (Proc.devRef .tc main_v3) = ReferenceIdeal.Read.val_main_v3 a1 := by
  dsimp only [W7, W6, W5, W4, W3]; after_results_simp
  rw [W2_of_ne m ρ c main_v3 (by decide)]; exact W1_v3 m ρ c
theorem W7_v19 : W7 m ρ c (Proc.devRef .tc main_v19) = ReferenceIdeal.Read.val_main_v35 a2 := by
  dsimp only [W7, W6, W5, W4, W3]; after_results_simp
  rw [W2_of_ne m ρ c main_v19 (by decide)]; exact W1_v19 m ρ c
theorem W7_arg4 : W7 m ρ c (Proc.devRef .tc main_arg4) = a4 := by
  dsimp only [W7, W6, W5, W4, W3]; after_results_simp
  rw [W2_of_ne m ρ c main_arg4 (by decide)]; exact W1_arg4 m ρ c
theorem W7_arg9 : W7 m ρ c (Proc.devRef .tc main_arg9) = a9 := by
  dsimp only [W7, W6, W5, W4, W3]; after_results_simp
  rw [W2_of_ne m ρ c main_arg9 (by decide)]; exact W1_arg9 m ρ c
theorem W7_arg10 : W7 m ρ c (Proc.devRef .tc main_arg10) = a10 := by
  dsimp only [W7, W6, W5, W4, W3]; after_results_simp
  rw [W2_of_ne m ρ c main_arg10 (by decide)]; exact W1_arg10 m ρ c

end Cert.KernelIdeal.HostVals

end
-- ==== Proof.KernelHost2.lean ====
/- Region 2's entry: what the host operations between region 1 and region 2 leave in the buffers region 2 reads,
   each as the reference's own stage function (`Cert.ReferenceIdeal.Read.val_main_vN`) of the arguments as launched,
   given what region 1 left in its two outputs. -/
import proofs.«421558_j42331197669872_3_alg».proof.Proof.KernelHost1

set_option maxRecDepth 16384

noncomputable section

namespace Cert.KernelIdeal.HostVals

open Cert.KernelIdeal Cert.KernelIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg) (c : Dev nD)

-- the arguments as launched, on core `c`
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
set_option quotPrecheck true

/-! ## Region 2's entry -/

/-- Layer 2's features, as region 1 left them. -/
theorem h2_kept : W13 m ρ c (Proc.devRef .tc main_v50_0) = W8 m ρ c (Proc.devRef .tc main_v50_0) := by
  dsimp only [W13, W12, W11, W10, W9]; after_results_simp <;> rfl

/-- The neighbour sums of layer 2's features. -/
theorem s2_eq (hh : W8 m ρ c (Proc.devRef .tc main_v50_0) = ReferenceIdeal.Read.val_main_v64 a0 a1 a2 a3 a4 a5 a6 a7 a8) :
    W13 m ρ c (Proc.devRef .tc main_v60) = ReferenceIdeal.Read.val_main_v74 a0 a1 a2 a3 a4 a5 a6 a7 a8 := by
  dsimp only [W13, W12, W11, W10, W9]; after_results_simp
  rw [hh, W8_of_ne m ρ c main_v3 (by decide), W8_of_ne m ρ c main_v1 (by decide), W7_v1, W7_v3]; rfl

/-- One over the clamped in-degree. -/
theorem inv_eq2 : W13 m ρ c (Proc.devRef .tc main_v13)
    = shapeCast S100000x1 (Host.divf (broadcastInDim S100000 ![] bcast_S_S100000 (constant S_ .f32 0x3F800000#32))
        (ReferenceIdeal.Read.val_main_v80 a1)) shapeCasts_S100000_S100000x1 := by
  dsimp only [W13, W12, W11, W10, W9]; after_results_simp
  exact (((W8_arr m ρ c 2).trans (((dat1 (V7 m ρ) c).arrAt_in 2 rfl _).trans (A_eq1 (V7 m ρ) c 2))).trans (inv_eq1 m ρ c)).trans rfl

/-- The class memberships. -/
theorem p_eq2 : W13 m ρ c (Proc.devRef .tc main_arg3) = a3 := by
  dsimp only [W13, W12, W11, W10, W9]; after_results_simp
  exact ((W8_arr m ρ c 3).trans (((dat1 (V7 m ρ) c).arrAt_in 3 rfl _).trans (A_eq1 (V7 m ρ) c 3))).trans (p_eq1 m ρ c)

/-- Layer 3's weights. -/
theorem w_eq2 : W13 m ρ c (Proc.devRef .tc main_arg9) = a9 := by
  dsimp only [W13, W12, W11, W10, W9]; after_results_simp
  rw [W8_of_ne m ρ c main_arg9 (by decide)]; exact W7_arg9 m ρ c

/-- Layer 3's bias as a row. -/
theorem b_eq2 : W13 m ρ c (Proc.devRef .tc main_v78) = shapeCast S1x40 a10 shapeCasts_S40_S1x40 := by
  dsimp only [W13, W12, W11, W10, W9]; after_results_simp
  rw [W8_of_ne m ρ c main_arg10 (by decide), W7_arg10]; rfl

/-- The labels as a column. -/
theorem lab_eq2 : W13 m ρ c (Proc.devRef .tc main_v4) = shapeCast S100000x1 a2 shapeCasts_S100000_S100000x1 := by
  dsimp only [W13, W12, W11, W10, W9]; after_results_simp
  exact ((W8_arr m ρ c 7).trans (((dat1 (V7 m ρ) c).arrAt_in 7 rfl _).trans (A_eq1 (V7 m ρ) c 7))).trans (lab_eq1 m ρ c)

/-- The class directions of layer 2. -/
theorem r2_eq (hc : Host.reduceAdd (F := Ideal) (W8 m ρ c (Proc.devRef .tc main_v50_1)) (constant S_ .f32 0x00000000#32)
      reducesTo_S50x40x128_S40x128_d0 h_S_ = ReferenceIdeal.Read.val_main_v86 a0 a1 a2 a3 a4 a5 a6 a7 a8) :
    W13 m ρ c (Proc.devRef .tc main_v77) = ReferenceIdeal.Read.val_main_v108 a0 a1 a2 a3 a4 a5 a6 a7 a8 := by
  dsimp only [W13, W12, W11, W10, W9]; after_results_simp
  rw [hc, W8_of_ne m ρ c main_v19 (by decide), W8_of_ne m ρ c main_arg4 (by decide), W7_v19, W7_arg4]; rfl

/-! ## What region 2's entry holds in the buffers the last stretches read -/

theorem W13_v1 : W13 m ρ c (Proc.devRef .tc main_v1) = ReferenceIdeal.Read.val_main_v1 a1 := by
  dsimp only [W13, W12, W11, W10, W9]; after_results_simp
  rw [W8_of_ne m ρ c main_v1 (by decide)]; exact W7_v1 m ρ c
theorem W13_v3 : W13 m ρ c (Proc.devRef .tc main_v3) = ReferenceIdeal.Read.val_main_v3 a1 := by
  dsimp only [W13, W12, W11, W10, W9]; after_results_simp
  rw [W8_of_ne m ρ c main_v3 (by decide)]; exact W7_v3 m ρ c
theorem W13_v19 : W13 m ρ c (Proc.devRef .tc main_v19) = ReferenceIdeal.Read.val_main_v35 a2 := by
  dsimp only [W13, W12, W11, W10, W9]; after_results_simp
  rw [W8_of_ne m ρ c main_v19 (by decide)]; exact W7_v19 m ρ c
theorem W13_arg4 : W13 m ρ c (Proc.devRef .tc main_arg4) = a4 := by
  dsimp only [W13, W12, W11, W10, W9]; after_results_simp
  rw [W8_of_ne m ρ c main_arg4 (by decide)]; exact W7_arg4 m ρ c

end Cert.KernelIdeal.HostVals

end
-- ==== Proof.KernelHost3.lean ====
/- Region 3's entry: what the host operations between region 2 and region 3 leave in the buffers region 3 reads,
   each as the reference's own stage function (`Cert.ReferenceIdeal.Read.val_main_vN`) of the arguments as launched,
   given what region 2 left in its two outputs. -/
import proofs.«421558_j42331197669872_3_alg».proof.Proof.KernelHost2

set_option maxRecDepth 16384

noncomputable section

namespace Cert.KernelIdeal.HostVals

open Cert.KernelIdeal Cert.KernelIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg) (c : Dev nD)

-- the arguments as launched, on core `c`
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
set_option quotPrecheck true

/-! ## Region 3's entry -/

/-- Layer 3's features, as region 2 left them. -/
theorem h3_kept : W19 m ρ c (Proc.devRef .tc main_v79_0) = W14 m ρ c (Proc.devRef .tc main_v79_0) := by
  dsimp only [W19, W18, W17, W16, W15]; after_results_simp <;> rfl

/-- The neighbour sums of layer 3's features. -/
theorem s3_eq (hh : W14 m ρ c (Proc.devRef .tc main_v79_0) = ReferenceIdeal.Read.val_main_v121 a0 a1 a2 a3 a4 a5 a6 a7 a8 a9 a10) :
    W19 m ρ c (Proc.devRef .tc main_v89) = ReferenceIdeal.Read.val_main_v131 a0 a1 a2 a3 a4 a5 a6 a7 a8 a9 a10 := by
  dsimp only [W19, W18, W17, W16, W15]; after_results_simp
  rw [hh, W14_of_ne m ρ c main_v3 (by decide), W14_of_ne m ρ c main_v1 (by decide), W13_v1, W13_v3]; rfl

/-- One over the clamped in-degree. -/
theorem inv_eq3 : W19 m ρ c (Proc.devRef .tc main_v13)
    = shapeCast S100000x1 (Host.divf (broadcastInDim S100000 ![] bcast_S_S100000 (constant S_ .f32 0x3F800000#32))
        (ReferenceIdeal.Read.val_main_v137 a1)) shapeCasts_S100000_S100000x1 := by
  dsimp only [W19, W18, W17, W16, W15]; after_results_simp
  exact (((W14_arr m ρ c 2).trans (((dat2 (V13 m ρ) c).arrAt_in 2 rfl _).trans (A_eq2 (V13 m ρ) c 2))).trans (inv_eq2 m ρ c)).trans rfl

/-- The class memberships. -/
theorem p_eq3 : W19 m ρ c (Proc.devRef .tc main_arg3) = a3 := by
  dsimp only [W19, W18, W17, W16, W15]; after_results_simp
  exact ((W14_arr m ρ c 3).trans (((dat2 (V13 m ρ) c).arrAt_in 3 rfl _).trans (A_eq2 (V13 m ρ) c 3))).trans (p_eq2 m ρ c)

/-- The class directions of layer 3. -/
theorem r3_eq (hc : Host.reduceAdd (F := Ideal) (W14 m ρ c (Proc.devRef .tc main_v79_1)) (constant S_ .f32 0x00000000#32)
      reducesTo_S50x40x40_S40x40_d0 h_S_ = ReferenceIdeal.Read.val_main_v143 a0 a1 a2 a3 a4 a5 a6 a7 a8 a9 a10) :
    W19 m ρ c (Proc.devRef .tc main_v106) = ReferenceIdeal.Read.val_main_v165 a0 a1 a2 a3 a4 a5 a6 a7 a8 a9 a10 := by
  dsimp only [W19, W18, W17, W16, W15]; after_results_simp
  rw [hc, W14_of_ne m ρ c main_v19 (by decide), W14_of_ne m ρ c main_arg4 (by decide), W13_v19, W13_arg4]; rfl

end Cert.KernelIdeal.HostVals

end
-- ==== Proof.Spec.lean ====
/-
  The formulas both programs compute, entry by entry, over the extended reals.

  One layer takes the node features `h` (an `[N, D]` array), the sum `s` of the neighbours' features at each node,
  the class directions `r` (a `[40, D]` array) and the class weights `p` (an `[N, 40]` array), and returns
  `h + ½ · (p · r) + ½ · (agg − h)`, where `agg` is the neighbours' mean: the kernel multiplies `s` by a reciprocal
  it computed once (`mixMul`), the reference divides `s` by the clamped degree (`mixDiv`). The next layer's features are
  the rectified output times a weight matrix plus a bias (`lin` of `max · 0`). The class sums add, for each class, the
  rows whose label is that class (`ind`, the indicator a label word gives a class).
-/
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-- The literal one half, as both programs print it. -/
abbrev half : EReal := Ideal.ofBits .f32 0x3F000000#32

/-- The literal zero, as both programs print it. -/
abbrev zero32 : EReal := Ideal.ofBits .f32 0x00000000#32

/-- The literal one, as both programs print it. -/
abbrev one32 : EReal := Ideal.ofBits .f32 0x3F800000#32

variable {N D E : Nat}

/-- The class term at node `n`, feature `k`: `∑ c, p (n, c) · r (c, k)`. -/
def classTerm (p : (⟨2, ![N, 40]⟩ : Shape).Idx → EReal) (r : (⟨2, ![40, D]⟩ : Shape).Idx → EReal) (n : Fin N) (k : Fin D) : EReal :=
  ∑ c : Fin 40, p (ix2 n c) * r (ix2 c k)

/-- A layer's output with the neighbours' mean as the sum TIMES a reciprocal `inv (n, 0)`. -/
def mixMul (h s : (⟨2, ![N, D]⟩ : Shape).Idx → EReal) (inv : (⟨2, ![N, 1]⟩ : Shape).Idx → EReal)
    (p : (⟨2, ![N, 40]⟩ : Shape).Idx → EReal) (r : (⟨2, ![40, D]⟩ : Shape).Idx → EReal) (n : Fin N) (k : Fin D) : EReal :=
  (h (ix2 n k) + half * classTerm p r n k) + half * (s (ix2 n k) * inv (ix2 n 0) - h (ix2 n k))

/-- A layer's output with the neighbours' mean as the sum DIVIDED by the clamped degree `d n`. -/
def mixDiv (h s : (⟨2, ![N, D]⟩ : Shape).Idx → EReal) (d : (⟨1, ![N]⟩ : Shape).Idx → EReal)
    (p : (⟨2, ![N, 40]⟩ : Shape).Idx → EReal) (r : (⟨2, ![40, D]⟩ : Shape).Idx → EReal) (n : Fin N) (k : Fin D) : EReal :=
  (h (ix2 n k) + half * classTerm p r n k) + half * (Ideal.div (s (ix2 n k)) (d (ix1 n)) - h (ix2 n k))

/-- A linear map of the rows `o n ·`: `∑ k, o n k · w (k, f)` plus the bias `b f`. -/
def lin (o : Fin N → Fin D → EReal) (w : (⟨2, ![D, E]⟩ : Shape).Idx → EReal) (b : Fin E → EReal) (n : Fin N) (f : Fin E) : EReal :=
  (∑ k : Fin D, o n k * w (ix2 k f)) + b f

/-- The rectified value. -/
def relu (o : Fin N → Fin D → EReal) (n : Fin N) (k : Fin D) : EReal := max (o n k) zero32

/-- The indicator that the label word `v`, read as a signed integer, is the class `c`. -/
def ind (v : BitVec 32) (c : Fin 40) : EReal := if v.toInt = (c.val : Int) then 1 else 0

/-- Where the two means agree: a reciprocal of a divisor that is not zero. -/
theorem mul_div_one (s d : EReal) (hd : d ≠ 0) : s * Ideal.div one32 d = Ideal.div s d := by
  have h1 : one32 = 1 := Ideal.ofBits_one_f32
  unfold Ideal.div
  rw [if_neg hd, if_neg hd, h1, one_mul]

/-- So the two forms of a layer's output agree where the reciprocal is that of the clamped degree. -/
theorem mixMul_eq_mixDiv (h s : (⟨2, ![N, D]⟩ : Shape).Idx → EReal) (inv : (⟨2, ![N, 1]⟩ : Shape).Idx → EReal)
    (d : (⟨1, ![N]⟩ : Shape).Idx → EReal) (p : (⟨2, ![N, 40]⟩ : Shape).Idx → EReal) (r : (⟨2, ![40, D]⟩ : Shape).Idx → EReal)
    (n : Fin N) (k : Fin D) (hinv : inv (ix2 n 0) = Ideal.div one32 (d (ix1 n))) (hd : d (ix1 n) ≠ 0) :
    mixMul h s inv p r n k = mixDiv h s d p r n k := by
  unfold mixMul mixDiv
  rw [hinv, mul_div_one _ _ hd]

end Cert.Spec

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.LibClassSum.lean ====
/-
  Sums over the rows of one class, read at an entry.

  Four readings, each over abstract extents. (1) A row scatter with an `add` body — `N` update rows of width `D`, row
  `n` sent to the operand row named by the `n`-th scatter index — is, over the extended reals, the operand plus, at row
  `c`, the sum of the update rows whose index is `c` (a segment sum). (2) A matrix product that contracts the FIRST
  axis of both operands, `[B, C]` by `[B, E]`, into a zero accumulator, is `∑ b, l (b, c) · r (b, e)`: with a one-hot
  left operand this is the same segment sum. (3) The one-hot entry itself: the signed conversion of the widened one-bit
  comparison "the column's number equals the label" is `1` where the two words are equal and `0` elsewhere, and a
  column's number `c` below `2 ^ 31` equals a 32-bit word exactly when the word, read signed, is `c`. (4) A sum over
  `T · B` rows is the sum over `T` tiles of the sums over a tile's `B` rows.
-/
import Idealize.ShloMosaic.PureOps.Ideal.Laws
import Idealize.ShloMosaic.Lib.ValueIdx
import Mathlib.Logic.Equiv.Fin.Basic
import Mathlib.Data.Fintype.BigOperators
import Mathlib.Algebra.BigOperators.Group.Finset.Basic

noncomputable section

open scoped BigOperators

namespace Cert.Lib.ClassSum

open Idealize.ShloMosaic Idealize.ShloMosaic.ValueIdx

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-! ## (1) The row scatter: a segment sum -/

section RowScatter

variable {C D N : Nat}

/-- The dimension numbers of a row scatter: `N` update rows of width `D` into an operand of `C` rows, one scatter index
    per update row (the scatter indices are `[N, 1]`, the index vector along axis 1, its one component naming operand
    axis 0, which is the inserted window axis), the update's axis 1 being the window. -/
structure IsRowScatter (d : ScatterDims ⟨2, ![C, D]⟩ ⟨2, ![N, 1]⟩ ⟨2, ![N, D]⟩) : Prop where
  uw : d.updateWindowDims = [1]
  iw : d.insertedWindowDims = [0]
  sd : d.scatterDimsToOperandDims = [0]
  iv : d.indexVectorDim = 1

variable {d : ScatterDims ⟨2, ![C, D]⟩ ⟨2, ![N, 1]⟩ ⟨2, ![N, D]⟩}

/-- An entry of a list that is a singleton is its one element. -/
private theorem getElem_of_eq_singleton {α : Type*} {l : List α} {a : α} (e : l = [a]) (i : Nat) (hi : i < l.length) :
    l[i] = a := by
  subst e; exact List.getElem_singleton hi

/-- The update's scatter axis is its axis 0 … -/
theorem uScatter_eq (h : IsRowScatter d) : d.uScatter = [0] := by
  show Shape.kept _ d.updateWindowDims = [0]
  rw [h.uw]; rfl

/-- … and the operand's kept axis is its axis 1. -/
theorem sKept_eq (h : IsRowScatter d) : d.sKept = [1] := by
  show Shape.kept _ d.insertedWindowDims = [1]
  rw [h.iw]; rfl

/-- Update index `j` reads its start index at row `j 0` of the scatter indices. -/
theorem siIdx_eq (h : IsRowScatter d) (j : (⟨2, ![N, D]⟩ : Shape).Idx) (c : Fin d.scatterDimsToOperandDims.length) :
    d.siIdx j c = ix2 (j 0) 0 := by
  have key : ∀ b : Fin (⟨2, ![N, 1]⟩ : Shape).rank,
      (b.val = 0 → (d.siIdx j c b).val = (j 0).val) ∧ (b.val = 1 → (d.siIdx j c b).val = 0) := by
    intro b
    unfold ScatterDims.siIdx
    constructor
    · intro hb
      rw [dif_neg (by rw [h.iv, hb]; exact Nat.zero_ne_one)]
      unfold ScatterDims.siCoord
      simp only [Fin.val_cast]
      exact congrArg (fun a => (j a).val) (getElem_of_eq_singleton (uScatter_eq h) _ _)
    · intro hb
      rw [dif_pos (by rw [h.iv, hb])]
      have hl : d.scatterDimsToOperandDims.length = 1 := by rw [h.sd]; rfl
      exact Nat.lt_one_iff.mp (lt_of_lt_of_eq c.isLt hl)
  funext b
  apply Fin.ext
  match b with
  | ⟨0, _⟩ => exact (key _).1 rfl
  | ⟨1, _⟩ => exact (key _).2 rfl

/-- On operand axis 0 the window starts at the scatter index of the update's row, read signed … -/
theorem start_row (h : IsRowScatter d) {w : Nat} (j : (⟨2, ![N, D]⟩ : Shape).Idx) (idx : IVec ⟨2, ![N, 1]⟩ w) :
    d.start j idx 0 = (idx (ix2 (j 0) 0)).toInt := by
  unfold ScatterDims.start
  rw [dif_pos (show (0 : Fin (⟨2, ![C, D]⟩ : Shape).rank) ∈ d.scatterDimsToOperandDims by
    rw [h.sd]; exact List.mem_singleton.mpr rfl), siIdx_eq h]
  rfl

/-- … and on operand axis 1 at `0`; -/
theorem start_col (h : IsRowScatter d) {w : Nat} (j : (⟨2, ![N, D]⟩ : Shape).Idx) (idx : IVec ⟨2, ![N, 1]⟩ w) :
    d.start j idx 1 = 0 := by
  unfold ScatterDims.start
  rw [dif_neg (show ¬(1 : Fin (⟨2, ![C, D]⟩ : Shape).rank) ∈ d.scatterDimsToOperandDims by
    rw [h.sd]; intro hm; exact absurd (congrArg Fin.val (List.mem_singleton.mp hm)) Nat.one_ne_zero)]

/-- the window coordinate is `0` on operand axis 0 … -/
theorem window_row (h : IsRowScatter d) (j : (⟨2, ![N, D]⟩ : Shape).Idx) : d.window j 0 = 0 := by
  unfold ScatterDims.window
  rw [dif_neg (show ¬(0 : Fin (⟨2, ![C, D]⟩ : Shape).rank) ∈ d.sKept by
    rw [sKept_eq h]; intro hm; exact absurd (congrArg Fin.val (List.mem_singleton.mp hm)) Nat.zero_ne_one)]

/-- … and the update's column on operand axis 1. -/
theorem window_col (h : IsRowScatter d) (j : (⟨2, ![N, D]⟩ : Shape).Idx) : d.window j 1 = (j 1).val := by
  unfold ScatterDims.window
  rw [dif_pos (show (1 : Fin (⟨2, ![C, D]⟩ : Shape).rank) ∈ d.sKept by
    rw [sKept_eq h]; exact List.mem_singleton.mpr rfl)]
  exact congrArg (fun a => (j a).val) (getElem_of_eq_singleton h.uw _ _)

/-- Update entry `(n, f)` lands on operand entry `(c, g)` exactly when the `n`-th scatter index, read signed, is `c`
    and the columns agree. -/
theorem resultIdx_eq (h : IsRowScatter d) {w : Nat} (idx : IVec ⟨2, ![N, 1]⟩ w) (n : Fin N) (f : Fin D) (c : Fin C) (g : Fin D) :
    d.resultIdx? (ix2 n f) idx = some (ix2 c g) ↔ ((idx (ix2 n 0)).toInt = (c.val : Int) ∧ f = g) := by
  have h0 : d.start (ix2 n f) idx 0 + (d.window (ix2 n f) 0 : Int) = (idx (ix2 n 0)).toInt := by
    rw [start_row h, window_row h, Nat.cast_zero, add_zero]
    rfl
  have h1 : d.start (ix2 n f) idx 1 + (d.window (ix2 n f) 1 : Int) = (f.val : Int) := by
    rw [start_col h, window_col h, zero_add]
    rfl
  have hcl := c.isLt
  have hfl := f.isLt
  unfold ScatterDims.resultIdx?
  split
  · rename_i hc
    rw [Option.some.injEq]
    constructor
    · intro e
      have e0 : (d.start (ix2 n f) idx 0 + (d.window (ix2 n f) 0 : Int)).toNat = c.val := congrArg Fin.val (congrFun e 0)
      have e1 : (d.start (ix2 n f) idx 1 + (d.window (ix2 n f) 1 : Int)).toNat = g.val := congrArg Fin.val (congrFun e 1)
      have p0 : 0 ≤ d.start (ix2 n f) idx 0 + (d.window (ix2 n f) 0 : Int) := (hc 0).1
      rw [h0] at e0 p0
      rw [h1] at e1
      exact ⟨by omega, Fin.ext (by omega)⟩
    · rintro ⟨hv, rfl⟩
      funext a
      apply Fin.ext
      match a with
      | ⟨0, _⟩ =>
        show (d.start (ix2 n f) idx 0 + (d.window (ix2 n f) 0 : Int)).toNat = c.val
        rw [h0, hv]; exact Int.toNat_natCast _
      | ⟨1, _⟩ =>
        show (d.start (ix2 n f) idx 1 + (d.window (ix2 n f) 1 : Int)).toNat = f.val
        rw [h1]; exact Int.toNat_natCast _
  · rename_i hc
    constructor
    · intro e; cases e
    · rintro ⟨hv, rfl⟩
      exfalso
      apply hc
      intro a
      match a with
      | ⟨0, _⟩ =>
        show 0 ≤ d.start (ix2 n f) idx 0 + (d.window (ix2 n f) 0 : Int) ∧
          d.start (ix2 n f) idx 0 + (d.window (ix2 n f) 0 : Int) < (C : Int)
        rw [h0, hv]; omega
      | ⟨1, _⟩ =>
        show 0 ≤ d.start (ix2 n f) idx 1 + (d.window (ix2 n f) 1 : Int) ∧
          d.start (ix2 n f) idx 1 + (d.window (ix2 n f) 1 : Int) < (D : Int)
        rw [h1]; omega

/-- The scatter with an `add` body, at entry `(c, f)`: the operand's entry plus the sum of column `f` over the update
    rows whose scatter index, read signed, is `c`. -/
theorem scatterAdd_apply (h : IsRowScatter d) {w : Nat} {φ : FTy} (x : FVec Ideal ⟨2, ![C, D]⟩ φ)
    (idx : IVec ⟨2, ![N, 1]⟩ w) (upd : FVec Ideal ⟨2, ![N, D]⟩ φ) (c : Fin C) (f : Fin D) :
    Host.scatterAdd d x idx upd (ix2 c f)
      = x (ix2 c f) + ∑ n : Fin N, if (idx (ix2 n 0)).toInt = (c.val : Int) then upd (ix2 n f) else 0 := by
  unfold Host.scatterAdd
  rw [Ideal.hostScatterAdd_def]
  unfold Ideal.hostScatterAdd
  refine congrArg (x (ix2 c f) + ·) ?_
  rw [Finset.sum_filter, sum_idx2]
  refine Finset.sum_congr rfl fun n _ => ?_
  by_cases hn : (idx (ix2 n 0)).toInt = (c.val : Int)
  · rw [if_pos hn, Finset.sum_eq_single f]
    · rw [if_pos ((resultIdx_eq h idx n f c f).mpr ⟨hn, rfl⟩)]
    · intro g _ hg
      rw [if_neg]
      intro e
      exact hg ((resultIdx_eq h idx n g c f).mp e).2
    · intro hf
      exact absurd (Finset.mem_univ f) hf
  · rw [if_neg hn]
    refine Finset.sum_eq_zero fun g _ => ?_
    rw [if_neg]
    intro e
    exact hn ((resultIdx_eq h idx n g c f).mp e).1

end RowScatter

/-! ## (2) The product that contracts the first axis of both operands -/

section ColProduct

variable {B C E : Nat}

/-- The dimension numbers of a product `[B, C]ᵀ · [B, E]`: both operands contract their axis 0, the kept axes are each
    operand's axis 1, and there is no batch axis. -/
structure IsColProduct (D : DotDims ⟨2, ![B, C]⟩ ⟨2, ![B, E]⟩ ⟨2, ![C, E]⟩) : Prop where
  lc : D.lhsContracting = [0]
  rc : D.rhsContracting = [0]
  ln : D.lhsNonContracting = [1]
  rn : D.rhsNonContracting = [1]
  lb : D.lhsBatch = []
  rb : D.rhsBatch = []

variable {D : DotDims ⟨2, ![B, C]⟩ ⟨2, ![B, E]⟩ ⟨2, ![C, E]⟩}

/-- One axis is contracted … -/
theorem contr_rank (h : IsColProduct D) : D.contr.rank = 1 := by
  rw [D.rank_contr, h.lc]; rfl

/-- … and its extent is `B`. -/
theorem contr_size (h : IsColProduct D) (h0 : 0 < D.contr.rank) : D.contr.size ⟨0, h0⟩ = B := by
  rw [D.size_contr 0 (by rw [h.lc]; exact Nat.one_pos)]
  simp only [h.lc, List.getElem_cons_zero]
  rfl

/-- The left operand is read at the contraction position … -/
theorem lhsIdx_row (h : IsColProduct D) (j : (⟨2, ![C, E]⟩ : Shape).Idx) (k : D.contr.Idx) :
    (D.lhsIdx j k 0).val = (k ⟨0, by rw [contr_rank h]; exact Nat.one_pos⟩).val :=
  D.lhsIdx_val_of_single h.lc j k

/-- … and at the result's row; -/
theorem lhsIdx_col (h : IsColProduct D) (j : (⟨2, ![C, E]⟩ : Shape).Idx) (k : D.contr.Idx) :
    (D.lhsIdx j k 1).val = (j 0).val := by
  unfold DotDims.lhsIdx
  rw [dif_neg (show ¬(1 : Fin (⟨2, ![B, C]⟩ : Shape).rank) ∈ D.lhsBatch by rw [h.lb]; exact List.not_mem_nil),
    dif_pos (show (1 : Fin (⟨2, ![B, C]⟩ : Shape).rank) ∈ D.lhsNonContracting by rw [h.ln]; exact List.mem_singleton.mpr rfl)]
  simp only [Fin.val_cast]
  exact coord_congr j _ _ _ _ (by simp [h.lb, h.ln])

/-- the right operand at the contraction position … -/
theorem rhsIdx_row (h : IsColProduct D) (j : (⟨2, ![C, E]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsColProduct D) (j : (⟨2, ![C, E]⟩ : Shape).Idx) (k : D.contr.Idx) :
    (D.rhsIdx j k 1).val = (j 1).val := by
  unfold DotDims.rhsIdx
  rw [dif_neg (show ¬(1 : Fin (⟨2, ![B, E]⟩ : Shape).rank) ∈ D.rhsBatch by rw [h.rb]; exact List.not_mem_nil),
    dif_pos (show (1 : Fin (⟨2, ![B, E]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(c, e)`, is the sum over
    `b : Fin B` of `l (b, c) · r (b, e)`. -/
theorem sum_contr (h : IsColProduct D) (l : (⟨2, ![B, C]⟩ : Shape).Idx → EReal) (r : (⟨2, ![B, E]⟩ : Shape).Idx → EReal)
    (c : Fin C) (e : Fin E) :
    ∑ k : D.contr.Idx, l (D.lhsIdx (ix2 c e) k) * r (D.rhsIdx (ix2 c e) k) = ∑ b : Fin B, l (ix2 b c) * r (ix2 b e) := by
  have hr := contr_rank h
  have hs : D.contr.size ⟨0, by omega⟩ = B := contr_size h _
  rw [← Equiv.sum_comp (contrEquiv1 D B hr hs).symm]
  refine Finset.sum_congr rfl fun b _ => ?_
  have hk := contrEquiv1_symm_val D B hr hs b
  have el : D.lhsIdx (ix2 c e) ((contrEquiv1 D B hr hs).symm b) = ix2 b c := funext fun a => Fin.ext (by
    match a with
    | ⟨0, _⟩ => exact (lhsIdx_row h _ _).trans hk
    | ⟨1, _⟩ => exact lhsIdx_col h _ _)
  have er : D.rhsIdx (ix2 c e) ((contrEquiv1 D B hr hs).symm b) = ix2 b e := funext fun a => Fin.ext (by
    match a with
    | ⟨0, _⟩ => exact (rhsIdx_row h _ _).trans hk
    | ⟨1, _⟩ => exact rhsIdx_col h _ _)
  rw [el, er]

/-- A `tpu.matmul` of this kind into the zero splat, at entry `(c, e)`. -/
theorem matmul_zero_apply (h : IsColProduct D) {φ₁ φ₂ : FTy} (prec : Option ContractPrecision)
    (l : FVec Ideal ⟨2, ![B, C]⟩ φ₁) (r : FVec Ideal ⟨2, ![B, E]⟩ φ₂) (c : Fin C) (e : Fin E) :
    FloatOps.matmul D prec l r (constant ⟨2, ![C, E]⟩ .f32 0x00000000#32) (ix2 c e) = ∑ b : Fin B, l (ix2 b c) * r (ix2 b e) := by
  rw [Ideal.matmul_constant_zero_apply]
  exact sum_contr h l r c e

/-- The host's `dot_general` of this kind, at entry `(c, e)`. -/
theorem dotGeneral_apply (h : IsColProduct D) {φ₁ φ₂ : FTy} (prec : Option ContractPrecision) (sched : HostSchedule)
    (l : FVec Ideal ⟨2, ![B, C]⟩ φ₁) (r : FVec Ideal ⟨2, ![B, E]⟩ φ₂) (c : Fin C) (e : Fin E) :
    FloatOps.dotGeneral D prec sched l r (ix2 c e) = ∑ b : Fin B, l (ix2 b c) * r (ix2 b e) := by
  rw [Ideal.dotGeneral_apply]
  exact sum_contr h l r c e

end ColProduct

/-! ## (3) The one-hot entry -/

/-- The one-bit comparison "equal" of two words, widened to 32 bits and converted signed, is `1` where the words are
    equal and `0` elsewhere. -/
theorem indicator_scalar {w : Nat} (a b : BitVec w) :
    FloatOps.sitofp (F := Ideal) .f32 ((IntOp.cmpi .eq a b).setWidth 32) = if a = b then (1 : EReal) else 0 := by
  show ((((BitVec.ofBool (a == b)).setWidth 32).toInt : ℝ) : EReal) = _
  by_cases hab : a = b
  · rw [if_pos hab, beq_iff_eq.mpr hab]
    have : ((BitVec.ofBool true).setWidth 32).toInt = 1 := by decide
    rw [this]; norm_num
  · rw [if_neg hab, beq_eq_false_iff_ne.mpr hab]
    have : ((BitVec.ofBool false).setWidth 32).toInt = 0 := by decide
    rw [this]; norm_num

/-- The same for the vector operations, at an index. -/
theorem indicator_apply {s : Shape} {w : Nat} (u v : IVec s w) (h : 1 < 32) (i : s.Idx) :
    (sitofp .f32 (extui 32 (cmpi .eq u v) h) : FVec Ideal s .f32) i = if u i = v i then (1 : EReal) else 0 :=
  indicator_scalar (u i) (v i)

/-- The number of a column below `2 ^ 31`, as a 32-bit word, equals a word exactly when the word read signed is that
    number. -/
theorem ofNat_eq_iff_toInt {C : Nat} (hC : C ≤ 2 ^ 31) (c : Fin C) (v : BitVec 32) :
    BitVec.ofNat 32 c.val = v ↔ v.toInt = (c.val : Int) := by
  have hc : c.val < 2 ^ 31 := lt_of_lt_of_le c.isLt hC
  have hv := BitVec.toInt_eq_toNat_cond v
  have hlt := v.isLt
  constructor
  · rintro rfl
    rw [BitVec.toInt_eq_toNat_cond, BitVec.toNat_ofNat, Nat.mod_eq_of_lt (by omega), if_pos (by omega)]
  · intro e
    apply BitVec.eq_of_toNat_eq
    rw [BitVec.toNat_ofNat, Nat.mod_eq_of_lt (by omega)]
    split at hv <;> omega

/-- The iota vector along axis 1 of a rank-2 shape holds, at column `c`, the word of `c`. -/
theorem iota_col_apply {κ : Kind} {N C w : Nat} (h : (⟨2, ![N, C]⟩ : Shape).Iotas κ w [1]) (n : Fin N) (c : Fin C) :
    iota κ ⟨2, ![N, C]⟩ w [1] h (ix2 n c) = BitVec.ofNat w c.val := by
  show BitVec.ofNat w (0 * _ + c.val) = _
  rw [Nat.zero_mul, Nat.zero_add]

/-- The one-hot entry as the kernel builds it — the column's number compared with the row's label, widened, converted —
    is `1` where the label, read signed, is the column's number, and `0` elsewhere (fewer than `2 ^ 31` columns). -/
theorem onehot_apply {κ : Kind} {N C : Nat} (hC : C ≤ 2 ^ 31) (hi : (⟨2, ![N, C]⟩ : Shape).Iotas κ 32 [1])
    (lbl : IVec ⟨2, ![N, C]⟩ 32) (h : 1 < 32) (n : Fin N) (c : Fin C) :
    (sitofp .f32 (extui 32 (cmpi .eq (iota κ ⟨2, ![N, C]⟩ 32 [1] hi) lbl) h) : FVec Ideal ⟨2, ![N, C]⟩ .f32) (ix2 n c)
      = if (lbl (ix2 n c)).toInt = (c.val : Int) then (1 : EReal) else 0 := by
  rw [indicator_apply, iota_col_apply]
  exact if_congr (ofNat_eq_iff_toInt hC c _) rfl rfl

/-! ## (4) A sum over `T · B` rows, tile by tile -/

/-- Row `r` of tile `t` is a row of the whole. -/
theorem tile_lt {T B : Nat} (t : Fin T) (r : Fin B) : t.val * B + r.val < T * B :=
  calc t.val * B + r.val < t.val * B + B := Nat.add_lt_add_left r.isLt _
    _ = (t.val + 1) * B := (Nat.succ_mul _ _).symm
    _ ≤ T * B := Nat.mul_le_mul_right _ t.isLt

/-- A sum over `T · B` rows is the sum over the `T` tiles of the sums over a tile's `B` rows, row `r` of tile `t`
    being row `t · B + r`. -/
theorem sum_tiles {M : Type*} [AddCommMonoid M] {T B : Nat} (g : Fin (T * B) → M) :
    ∑ n : Fin (T * B), g n = ∑ t : Fin T, ∑ r : Fin B, g ⟨t.val * B + r.val, tile_lt t r⟩ := by
  rw [← Equiv.sum_comp finProdFinEquiv g, Fintype.sum_prod_type]
  refine Finset.sum_congr rfl fun t _ => Finset.sum_congr rfl fun r _ => congrArg g (Fin.ext ?_)
  show r.val + B * t.val = t.val * B + r.val
  rw [Nat.mul_comm, Nat.add_comm]

end Cert.Lib.ClassSum

end
-- ==== Proof.Region0.lean ====
/-
  The first region: what it leaves in its two output arrays.

  Point `t` of the grid of 25 reads rows `4000·t … 4000·t + 3999` of the input features `x` and of the label column,
  and the whole weight matrix `w` and bias row `b`. It writes those rows of the new features `x · w + b`, and tile `t`
  of the class sums: at class `c`, feature `f`, the sum over the tile's 4000 rows of the indicator "the row's label is
  `c`" times the row's new feature `f`. The 25 blocks tile each of the two arrays, so each ends as that function of the
  arrays the region found, entry by entry.
-/
import proofs.«421558_j42331197669872_3_alg».proof.Proof.Gen.KernelIdeal.Frame
import proofs.«421558_j42331197669872_3_alg».proof.Proof.Spec
import proofs.«421558_j42331197669872_3_alg».proof.Proof.LibPlainProduct
import proofs.«421558_j42331197669872_3_alg».proof.Proof.LibClassSum
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz3 : (![0, 0, 0] : Fin 3 → Nat) = fun _ => 0 := funext fun a => by fin_cases a <;> rfl

/-! ## The body's two values at an entry -/

/-- The product of the feature block by the weights has the plain dimension numbers. -/
theorem plain_xw : Cert.Lib.PlainProduct.IsPlain (M := 4000) (K := 128) (N := 128) dot_S4000x128_S128x128_S4000x128_1_0_0_1_n_n :=
  ⟨rfl, rfl, rfl, rfl, rfl, rfl⟩

/-- The product of the one-hot block by the new features contracts the rows of both. -/
theorem col_oh : Cert.Lib.ClassSum.IsColProduct (B := 4000) (C := 40) (E := 128) dot_S4000x40_S4000x128_S40x128_0_0_1_1_n_n :=
  ⟨rfl, rfl, rfl, rfl, rfl, rfl⟩

/-- The new features at row `r`, feature `f` of a block: the row of `x` times the weights, plus the bias. -/
theorem payH_at (x0 : Vec Ideal S4000x128 .f32) (x1 : Vec Ideal S128x128 .f32) (x2 : Vec Ideal S1x128 .f32)
    (r : Fin 4000) (f : Fin 128) :
    k0_pay1 x0 x1 x2 (ix2 r f)
      = lin (N := 4000) (D := 128) (E := 128) (fun n k => x0 (ix2 n k)) x1 (fun f => x2 (ix2 0 f)) r f := by
  unfold k0_pay1 lin
  simp only [addf_apply, shapeCast_self]
  rw [broadcastTo_apply x2 broadcasts_S1x128_S4000x128 (ix2 r f) (ix2 0 f)
    (fun a => by match a with | ⟨0, _⟩ => rfl | ⟨1, _⟩ => rfl)]
  unfold matmul
  rw [Cert.Lib.PlainProduct.matmul_zero_apply plain_xw]
  rfl

/-- The class sums at class `c`, feature `f` of a block: over the block's rows, the indicator that the row's label is
    `c` times the row's new feature `f`. -/
theorem payC_at (x0 : Vec Ideal S4000x128 .f32) (x1 : Vec Ideal S128x128 .f32) (x2 : Vec Ideal S1x128 .f32)
    (lab : Vec Ideal S4000x1 .i32) (c : Fin 40) (f : Fin 128) :
    k0_pay2 x0 x1 x2 lab (ix3 0 c f) = ∑ r : Fin 4000, ind (lab (ix2 r 0)) c * k0_pay1 x0 x1 x2 (ix2 r f) := by
  unfold k0_pay2
  simp only [shapeCast_self]
  rw [shapeCast_ab_1ab_apply (a := 40) (b := 128) _ shapeCasts_S40x128_S1x40x128 0 c f]
  unfold matmul
  rw [Cert.Lib.ClassSum.matmul_zero_apply col_oh]
  refine Finset.sum_congr rfl fun r _ => ?_
  simp only [truncf_apply]
  rw [Cert.Lib.ClassSum.onehot_apply (N := 4000) (C := 40) (by norm_num) iota_S4000x40_d1_w32 _ natLt_1_32 r c]
  rw [broadcastTo_apply (α := BitVec 32) lab broadcasts_S4000x1_S4000x40 (ix2 r c) (ix2 r 0)
    (fun a => by match a with | ⟨0, _⟩ => rfl | ⟨1, _⟩ => rfl)]
  rfl

/-! ## The blocks a point reads -/

/-- Row `r` of block `t` is row `4000·t + r` of the array. -/
def row (t : Fin 25) (r : Fin 4000) : Fin 100000 := ⟨t.val * 4000 + r.val, by have := t.isLt; have := r.isLt; omega⟩

/-- The printed index maps over the grid: the row-blocked windows are at block `(t, 0)`, the weights and the bias at
    `(0, 0)`, the class sums at `(t, 0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem blk0 (c : Dev nD) (t : Fin cfg0.N) (r : Fin 4000) (k : Fin 128) :
    iblk0 V c 0 t (ix2 r k) = V c (Pipeline.arrRef spec0 0) (ix2 (row t r) k) := by
  obtain ⟨e0, e1, -⟩ := idx_facts t
  show V c (Pipeline.arrRef spec0 0) (((cfg0.win 0).blk t).view.emb (ix2 r k)) = _
  refine congrArg _ (funext fun a => Fin.ext ?_)
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

theorem blk1 (c : Dev nD) (t : Fin cfg0.N) (k f : Fin 128) :
    iblk0 V c 1 t (ix2 k f) = V c (Pipeline.arrRef spec0 1) (ix2 k f) := by
  obtain ⟨-, -, e0, e1, -⟩ := idx_facts t
  show V c (Pipeline.arrRef spec0 1) (((cfg0.win 1).blk t).view.emb (ix2 k f)) = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * f.val = f.val; rw [e1]; omega

theorem blk2 (c : Dev nD) (t : Fin cfg0.N) (f : Fin 128) :
    iblk0 V c 2 t (ix2 0 f) = V c (Pipeline.arrRef spec0 2) (ix2 0 f) := by
  obtain ⟨-, -, -, -, e0, e1, -⟩ := idx_facts t
  show V c (Pipeline.arrRef spec0 2) (((cfg0.win 2).blk t).view.emb (ix2 0 f)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * f.val = f.val; rw [e1]; omega

theorem blk3 (c : Dev nD) (t : Fin cfg0.N) (r : Fin 4000) :
    iblk0 V c 3 t (ix2 r 0) = V c (Pipeline.arrRef spec0 3) (ix2 (row t r) 0) := by
  obtain ⟨-, -, -, -, -, -, e0, e1, -⟩ := idx_facts t
  show V c (Pipeline.arrRef spec0 3) (((cfg0.win 3).blk t).view.emb (ix2 r 0)) = _
  refine congrArg _ (funext fun a => Fin.ext ?_)
  match a with
  | ⟨0, _⟩ => show win0_3.index t (0 : Fin 2) * 4000 + 1 * r.val = t.val * 4000 + r.val; rw [e0]; omega
  | ⟨1, _⟩ => show win0_3.index t (1 : Fin 2) * 1 + 1 * 0 = 0; rw [e1]

/-! ## The new features -/

/-- The whole-array function: every row of `x` times the weights, plus the bias. -/
def outH (x : Vec Ideal S100000x128 .f32) (w : Vec Ideal S128x128 .f32) (b : Vec Ideal S1x128 .f32) :
    Vec Ideal S100000x128 .f32 :=
  fun i => lin (N := 100000) (D := 128) (E := 128) (fun n k => x (ix2 n k)) w (fun f => b (ix2 0 f)) (i 0) (i 1)

/-- The body's new features at row `r` of point `t`'s blocks are the whole-array function at row `4000·t + r`. -/
theorem payH_blk (c : Dev nD) (t : Fin cfg0.N) (r : Fin 4000) (f : Fin 128) :
    k0_pay1 (iblk0 V c 0 t) (iblk0 V c 1 t) (iblk0 V c 2 t) (ix2 r f)
      = outH (V c (Pipeline.arrRef spec0 0)) (V c (Pipeline.arrRef spec0 1)) (V c (Pipeline.arrRef spec0 2)) (ix2 (row t r) f) := by
  refine (payH_at _ _ _ r f).trans ?_
  show lin (N := 4000) (D := 128) (E := 128) (fun n k => iblk0 V c 0 t (ix2 n k)) (iblk0 V c 1 t) (fun f => iblk0 V c 2 t (ix2 0 f)) r f
    = lin (N := 100000) (D := 128) (E := 128) (fun n k => V c (Pipeline.arrRef spec0 0) (ix2 n k)) (V c (Pipeline.arrRef spec0 1))
        (fun f => V c (Pipeline.arrRef spec0 2) (ix2 0 f)) (row t r) f
  unfold lin
  simp only [blk0, blk1, blk2]

/-- Entry `(r, f)` of the features' block `t` is entry `(4000·t + r, f)` of the array. -/
theorem emb4 (t : Fin cfg0.N) (r : Fin 4000) (f : Fin 128) :
    ((cfg0.win 4).blk t).view.emb (ix2 r f) = ix2 (row t r) f := by
  obtain ⟨-, -, -, -, -, -, -, -, e0, e1, -⟩ := idx_facts t
  refine funext fun a => Fin.ext ?_
  match a with
  | ⟨0, _⟩ => show win0_4.index t (0 : Fin 2) * 4000 + 1 * r.val = t.val * 4000 + r.val; rw [e0]; omega
  | ⟨1, _⟩ => show win0_4.index t (1 : Fin 2) * 128 + 1 * f.val = f.val; rw [e1]; omega

/-- What point `t` writes back to the features is block `t` of the whole-array function. -/
theorem flushedH_eq (c : Dev nD) (t : Fin cfg0.N) :
    (dat0 V c).flushed 4 t = ((cfg0.win 4).blk t).view.read (Elt Ideal)
      (outH (V c (Pipeline.arrRef spec0 0)) (V c (Pipeline.arrRef spec0 1)) (V c (Pipeline.arrRef spec0 2))) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz, View.ld_unit_zero (S := S1x128) hz]
  funext j
  obtain ⟨r, f, rfl⟩ : ∃ (r : Fin 4000) (f : Fin 128), j = ix2 r f := ⟨j 0, j 1, eq_ix2 j⟩
  show k0_pay1 (iblk0 V c 0 t) (iblk0 V c 1 t) (iblk0 V c 2 t) (ix2 r f)
    = outH (V c (Pipeline.arrRef spec0 0)) (V c (Pipeline.arrRef spec0 1)) (V c (Pipeline.arrRef spec0 2))
        (((cfg0.win 4).blk t).view.emb (ix2 r f))
  rw [emb4]
  exact payH_blk V c t r f

/-- An index of the features is in point `t`'s block iff each coordinate is in the block's range on its axis. -/
theorem mem_blk4 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v21_0).slice (win0_4.rect t)).set ↔ _
  rw [View.set_slice_whole, Rect.mem_set_unit]
  exact Iff.rfl

/-- Every entry of the features is in some point's block: row `n` in block `n / 4000`. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 4000 < 25 := by omega
  refine ⟨⟨(i 0).val / 4000, ht⟩, flush0_4 _, ?_⟩
  rw [mem_blk4]
  obtain ⟨-, -, -, -, -, -, -, -, e0, e1, -⟩ := idx_facts ⟨(i 0).val / 4000, ht⟩
  intro a
  match a with
  | ⟨0, _⟩ =>
    show win0_4.index ⟨(i 0).val / 4000, ht⟩ (0 : Fin 2) * 4000 ≤ (i 0).val
      ∧ (i 0).val < win0_4.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_4.index ⟨(i 0).val / 4000, ht⟩ (1 : Fin 2) * 128 ≤ (i 1).val
      ∧ (i 1).val < win0_4.index ⟨(i 0).val / 4000, ht⟩ (1 : Fin 2) * 128 + 128
    rw [e1]; omega

/-- THE FEATURES after the region: every row of `x` times the weights, plus the bias, entry by entry. -/
theorem finalH (c : Dev nD) : (dat0 V c).arrAt 4 cfg0.N
    = outH (V c (Pipeline.arrRef spec0 0)) (V c (Pipeline.arrRef spec0 1)) (V c (Pipeline.arrRef spec0 2)) :=
  (dat0 V c).arrAt_eq_of_cover 4 _ (fun t _ => flushedH_eq V c t) cover4

/-! ## The per-tile class sums -/

/-- The whole-array function: at tile `t`, class `c`, feature `f`, the sum over the tile's rows of the indicator that
    the row's label is `c` times the row's feature `f` of `Hn`. -/
def outC (lab : Vec Ideal S100000x1 .i32) (Hn : Vec Ideal S100000x128 .f32) : Vec Ideal S25x40x128 .f32 :=
  fun j => ∑ r : Fin 4000, ind (lab (ix2 (row (j 0) r) 0)) (j 1) * Hn (ix2 (row (j 0) r) (j 2))

/-- Entry `(0, c, f)` of the class sums' block `t` is entry `(t, c, f)` of the array. -/
theorem emb5 (t : Fin cfg0.N) (c : Fin 40) (f : Fin 128) :
    ((cfg0.win 5).blk t).view.emb (ix3 0 c f) = (ix3 t c f : S25x40x128.Idx) := by
  obtain ⟨-, -, -, -, -, -, -, -, -, -, e0, e1, e2⟩ := idx_facts t
  refine funext fun a => Fin.ext ?_
  match a with
  | ⟨0, _⟩ => show win0_5.index t (0 : Fin 3) * 1 + 1 * 0 = t.val; rw [e0]; omega
  | ⟨1, _⟩ => show win0_5.index t (1 : Fin 3) * 40 + 1 * c.val = c.val; rw [e1]; omega
  | ⟨2, _⟩ => show win0_5.index t (2 : Fin 3) * 128 + 1 * f.val = f.val; rw [e2]; omega

/-- What point `t` writes back to the class sums is block `t` of the whole-array function, over the labels and the
    new features of the arrays the region found. -/
theorem flushedC_eq (c : Dev nD) (t : Fin cfg0.N) :
    (dat0 V c).flushed 5 t = ((cfg0.win 5).blk t).view.read (Elt Ideal)
      (outC (V c (Pipeline.arrRef spec0 3))
        (outH (V c (Pipeline.arrRef spec0 0)) (V c (Pipeline.arrRef spec0 1)) (V c (Pipeline.arrRef spec0 2)))) := by
  show (cfg0.win 5).cut (grid0.coords t) ((dat0 V c).after 5 t) = _
  rw [after0_5]
  unfold out0_5
  rw [View.canon_unit_zero hz3]
  simp only [View.ld_unit_zero (S := S4000x128) hz, View.ld_unit_zero (S := S128x128) hz, View.ld_unit_zero (S := S1x128) hz,
    View.ld_unit_zero (S := S4000x1) hz]
  funext j
  obtain ⟨k, f, rfl⟩ : ∃ (k : Fin 40) (f : Fin 128), j = ix3 (0 : Fin 1) k f :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show k0_pay2 (iblk0 V c 0 t) (iblk0 V c 1 t) (iblk0 V c 2 t) (iblk0 V c 3 t) (ix3 0 k f)
    = outC (V c (Pipeline.arrRef spec0 3))
        (outH (V c (Pipeline.arrRef spec0 0)) (V c (Pipeline.arrRef spec0 1)) (V c (Pipeline.arrRef spec0 2)))
        (((cfg0.win 5).blk t).view.emb (ix3 0 k f))
  refine (payC_at _ _ _ _ k f).trans ?_
  rw [emb5]
  show ∑ r : Fin 4000, ind (iblk0 V c 3 t (ix2 r 0)) k * k0_pay1 (iblk0 V c 0 t) (iblk0 V c 1 t) (iblk0 V c 2 t) (ix2 r f)
    = ∑ r : Fin 4000, ind (V c (Pipeline.arrRef spec0 3) (ix2 (row t r) 0)) k
        * outH (V c (Pipeline.arrRef spec0 0)) (V c (Pipeline.arrRef spec0 1)) (V c (Pipeline.arrRef spec0 2)) (ix2 (row t r) f)
  refine Finset.sum_congr rfl fun r _ => ?_
  rw [blk3, payH_blk]

/-- An index of the class sums is in point `t`'s block iff each coordinate is in the block's range on its axis. -/
theorem mem_blk5 (t : Fin cfg0.N) (i : S25x40x128.Idx) :
    i ∈ ((cfg0.win 5).blk t).view.set ↔ ∀ a : Fin 3, win0_5.index t a * S1x40x128.size a ≤ (i a).val
      ∧ (i a).val < win0_5.index t a * S1x40x128.size a + S1x40x128.size a := by
  show i ∈ ((View.whole main_v21_1).slice (win0_5.rect t)).set ↔ _
  rw [View.set_slice_whole, Rect.mem_set_unit]
  exact Iff.rfl

/-- Every entry of the class sums is in some point's block: tile `t` in block `t`. -/
theorem cover5 (i : S25x40x128.Idx) : ∃ t : Fin cfg0.N, (cfg0.win 5).flush t = true ∧ i ∈ ((cfg0.win 5).blk t).view.set := by
  have hi0 : (i 0).val < 25 := (i 0).isLt
  have hi1 : (i 1).val < 40 := (i 1).isLt
  have hi2 : (i 2).val < 128 := (i 2).isLt
  refine ⟨⟨(i 0).val, hi0⟩, flush0_5 _, ?_⟩
  rw [mem_blk5]
  obtain ⟨-, -, -, -, -, -, -, -, -, -, e0, e1, e2⟩ := idx_facts ⟨(i 0).val, hi0⟩
  intro a
  match a with
  | ⟨0, _⟩ =>
    show win0_5.index ⟨(i 0).val, hi0⟩ (0 : Fin 3) * 1 ≤ (i 0).val
      ∧ (i 0).val < win0_5.index ⟨(i 0).val, hi0⟩ (0 : Fin 3) * 1 + 1
    rw [e0]; show (i 0).val * 1 ≤ (i 0).val ∧ (i 0).val < (i 0).val * 1 + 1; omega
  | ⟨1, _⟩ =>
    show win0_5.index ⟨(i 0).val, hi0⟩ (1 : Fin 3) * 40 ≤ (i 1).val
      ∧ (i 1).val < win0_5.index ⟨(i 0).val, hi0⟩ (1 : Fin 3) * 40 + 40
    rw [e1]; omega
  | ⟨2, _⟩ =>
    show win0_5.index ⟨(i 0).val, hi0⟩ (2 : Fin 3) * 128 ≤ (i 2).val
      ∧ (i 2).val < win0_5.index ⟨(i 0).val, hi0⟩ (2 : Fin 3) * 128 + 128
    rw [e2]; omega

/-- THE CLASS SUMS after the region: per tile, class and feature, the sum over the tile's rows with that label of the
    new features, entry by entry. -/
theorem finalC (c : Dev nD) : (dat0 V c).arrAt 5 cfg0.N
    = outC (V c (Pipeline.arrRef spec0 3))
        (outH (V c (Pipeline.arrRef spec0 0)) (V c (Pipeline.arrRef spec0 1)) (V c (Pipeline.arrRef spec0 2))) :=
  (dat0 V c).arrAt_eq_of_cover 5 _ (fun t _ => flushedC_eq V c t) cover5

end Cert.KernelIdeal.Region0

end
-- ==== Proof.Region1H.lean ====
/-
  Region 1: what it leaves in the array of the next layer's features.

  Point `t` of the grid of 50 reads rows `2000·t … 2000·t + 1999` of the features `h`, of the neighbours' sums `s`,
  of the reciprocal column and of the class weights, and the whole arrays of class directions (`[40, 128]`), of the
  next layer's weights (`[128, 128]`) and of its bias (a `[1, 128]` row), and writes those rows of the result: at row
  `n`, feature `f`, the rectified layer output `max (h + ½ · (p · r) + ½ · (s · inv − h)) 0` times the weights plus the
  bias. The 50 blocks tile the array, so the array ends as that function of the arrays the region found, entry by
  entry.
-/
import proofs.«421558_j42331197669872_3_alg».proof.Proof.Gen.KernelIdeal.Frame
import proofs.«421558_j42331197669872_3_alg».proof.Proof.Spec
import proofs.«421558_j42331197669872_3_alg».proof.Proof.LibPlainProduct
import Idealize.ShloMosaic.Lib.Pipeline.Value
import Idealize.ShloMosaic.Lib.ValueIdx

set_option maxRecDepth 16384

noncomputable section

namespace Cert.KernelIdeal.Region1H

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The class-term product has the plain dimension numbers … -/
theorem plain_pr : Cert.Lib.PlainProduct.IsPlain (M := 2000) (K := 40) (N := 128) dot_S2000x40_S40x128_S2000x128_1_0_0_1_n_n :=
  ⟨rfl, rfl, rfl, rfl, rfl, rfl⟩

/-- … and so has the product by the next layer's weights. -/
theorem plain_ow : Cert.Lib.PlainProduct.IsPlain (M := 2000) (K := 128) (N := 128) dot_S2000x128_S128x128_S2000x128_1_0_0_1_n_n :=
  ⟨rfl, rfl, rfl, rfl, rfl, rfl⟩

/-- The body's value at row `r`, feature `f` of a block: the next layer's features of the blocks it loaded. -/
theorem pay_at (x0 x1 : Vec Ideal S2000x128 .f32) (x2 : Vec Ideal S2000x1 .f32) (x3 : Vec Ideal S2000x40 .f32)
    (x4 : Vec Ideal S40x128 .f32) (x5 : Vec Ideal S128x128 .f32) (x6 : Vec Ideal S1x128 .f32) (r : Fin 2000) (f : Fin 128) :
    k1_pay2 x0 x1 x2 x3 x4 x5 x6 (ix2 r f)
      = lin (N := 2000) (D := 128) (E := 128) (relu (mixMul x0 x1 x2 x3 x4)) x5 (fun f => x6 (ix2 0 f)) r f := by
  unfold k1_pay2 lin
  simp only [addf_apply, shapeCast_self]
  rw [broadcastTo_apply x6 broadcasts_S1x128_S2000x128 (ix2 r f) (ix2 0 f)
    (fun a => by match a with | ⟨0, _⟩ => rfl | ⟨1, _⟩ => rfl)]
  unfold matmul
  rw [Cert.Lib.PlainProduct.matmul_zero_apply plain_ow]
  refine congrArg (· + x6 (ix2 0 f)) (Finset.sum_congr rfl fun k _ => ?_)
  unfold relu mixMul classTerm
  simp only [truncf_apply, maximumf_apply, addf_apply, mulf_apply, subf_apply, broadcast_apply]
  rw [broadcastTo_apply x2 broadcasts_S2000x1_S2000x128 (ix2 r k) (ix2 r 0)
    (fun a => by match a with | ⟨0, _⟩ => rfl | ⟨1, _⟩ => rfl)]
  rw [Cert.Lib.PlainProduct.matmul_zero_apply plain_pr]
  rfl

/-- Row `r` of block `t` is row `2000·t + r` of the array. -/
def row (t : Fin 50) (r : Fin 2000) : Fin 100000 := ⟨t.val * 2000 + r.val, by have := t.isLt; have := r.isLt; omega⟩

/-- The printed index maps over the grid: every row-blocked window is at block `(t, 0)`, the whole arrays at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_8.index t (0 : Fin 2) = t.val ∧ win1_8.index t (1 : Fin 2) = 0 :=
  (by decide +kernel : ∀ t : Fin grid1.N, _)

/-- The whole-array function: the next layer's features of the arrays the region found. -/
def out (h s : Vec Ideal S100000x128 .f32) (inv : Vec Ideal S100000x1 .f32) (p : Vec Ideal S100000x40 .f32)
    (r : Vec Ideal S40x128 .f32) (w : Vec Ideal S128x128 .f32) (b : Vec Ideal S1x128 .f32) : Vec Ideal S100000x128 .f32 :=
  fun i => lin (N := 100000) (D := 128) (E := 128) (relu (mixMul h s inv p r)) w (fun f => b (ix2 0 f)) (i 0) (i 1)

theorem blk0 (c : Dev nD) (t : Fin cfg1.N) (r : Fin 2000) (f : Fin 128) :
    iblk1 V c 0 t (ix2 r f) = V c (Pipeline.arrRef spec1 0) (ix2 (row t r) f) := by
  obtain ⟨e0, e1, -⟩ := idx_facts t
  show V c (Pipeline.arrRef spec1 0) (((cfg1.win 0).blk t).view.emb (ix2 r f)) = _
  refine congrArg _ (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * f.val = f.val; rw [e1]; omega

theorem blk1 (c : Dev nD) (t : Fin cfg1.N) (r : Fin 2000) (f : Fin 128) :
    iblk1 V c 1 t (ix2 r f) = V c (Pipeline.arrRef spec1 1) (ix2 (row t r) f) := by
  obtain ⟨-, -, e0, e1, -⟩ := idx_facts t
  show V c (Pipeline.arrRef spec1 1) (((cfg1.win 1).blk t).view.emb (ix2 r f)) = _
  refine congrArg _ (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 128 + 1 * f.val = f.val; rw [e1]; omega

theorem blk2 (c : Dev nD) (t : Fin cfg1.N) (r : Fin 2000) :
    iblk1 V c 2 t (ix2 r 0) = V c (Pipeline.arrRef spec1 2) (ix2 (row t r) 0) := by
  obtain ⟨-, -, -, -, e0, e1, -⟩ := idx_facts t
  show V c (Pipeline.arrRef spec1 2) (((cfg1.win 2).blk t).view.emb (ix2 r 0)) = _
  refine congrArg _ (funext fun a => Fin.ext ?_)
  match a with
  | ⟨0, _⟩ => show win1_2.index t (0 : Fin 2) * 2000 + 1 * r.val = t.val * 2000 + r.val; rw [e0]; omega
  | ⟨1, _⟩ => show win1_2.index t (1 : Fin 2) * 1 + 1 * 0 = 0; rw [e1]

theorem blk3 (c : Dev nD) (t : Fin cfg1.N) (r : Fin 2000) (k : Fin 40) :
    iblk1 V c 3 t (ix2 r k) = V c (Pipeline.arrRef spec1 3) (ix2 (row t r) k) := by
  obtain ⟨-, -, -, -, -, -, e0, e1, -⟩ := idx_facts t
  show V c (Pipeline.arrRef spec1 3) (((cfg1.win 3).blk t).view.emb (ix2 r k)) = _
  refine congrArg _ (funext fun a => Fin.ext ?_)
  match a with
  | ⟨0, _⟩ => show win1_3.index t (0 : Fin 2) * 2000 + 1 * r.val = t.val * 2000 + r.val; rw [e0]; omega
  | ⟨1, _⟩ => show win1_3.index t (1 : Fin 2) * 40 + 1 * k.val = k.val; rw [e1]; omega

theorem blk4 (c : Dev nD) (t : Fin cfg1.N) (k : Fin 40) (f : Fin 128) :
    iblk1 V c 4 t (ix2 k f) = V c (Pipeline.arrRef spec1 4) (ix2 k f) := by
  obtain ⟨-, -, -, -, -, -, -, -, e0, e1, -⟩ := idx_facts t
  show V c (Pipeline.arrRef spec1 4) (((cfg1.win 4).blk t).view.emb (ix2 k f)) = _
  refine congrArg _ (funext fun a => Fin.ext ?_)
  match a with
  | ⟨0, _⟩ => show win1_4.index t (0 : Fin 2) * 40 + 1 * k.val = k.val; rw [e0]; omega
  | ⟨1, _⟩ => show win1_4.index t (1 : Fin 2) * 128 + 1 * f.val = f.val; rw [e1]; omega

theorem blk5 (c : Dev nD) (t : Fin cfg1.N) (k f : Fin 128) :
    iblk1 V c 5 t (ix2 k f) = V c (Pipeline.arrRef spec1 5) (ix2 k f) := by
  obtain ⟨-, -, -, -, -, -, -, -, -, -, e0, e1, -⟩ := idx_facts t
  show V c (Pipeline.arrRef spec1 5) (((cfg1.win 5).blk t).view.emb (ix2 k f)) = _
  refine congrArg _ (funext fun a => Fin.ext ?_)
  match a with
  | ⟨0, _⟩ => show win1_5.index t (0 : Fin 2) * 128 + 1 * k.val = k.val; rw [e0]; omega
  | ⟨1, _⟩ => show win1_5.index t (1 : Fin 2) * 128 + 1 * f.val = f.val; rw [e1]; omega

theorem blk6 (c : Dev nD) (t : Fin cfg1.N) (f : Fin 128) :
    iblk1 V c 6 t (ix2 0 f) = V c (Pipeline.arrRef spec1 6) (ix2 0 f) := by
  obtain ⟨-, -, -, -, -, -, -, -, -, -, -, -, e0, e1, -⟩ := idx_facts t
  show V c (Pipeline.arrRef spec1 6) (((cfg1.win 6).blk t).view.emb (ix2 0 f)) = _
  refine congrArg _ (funext fun a => Fin.ext ?_)
  match a with
  | ⟨0, _⟩ => show win1_6.index t (0 : Fin 2) * 1 + 1 * 0 = 0; rw [e0]
  | ⟨1, _⟩ => show win1_6.index t (1 : Fin 2) * 128 + 1 * f.val = f.val; rw [e1]; omega

/-- Entry `(r, f)` of the output's block `t` is entry `(2000·t + r, f)` of the array. -/
theorem emb8 (t : Fin cfg1.N) (r : Fin 2000) (f : Fin 128) :
    ((cfg1.win 8).blk t).view.emb (ix2 r f) = ix2 (row t r) f := by
  obtain ⟨-, -, -, -, -, -, -, -, -, -, -, -, -, -, e0, e1⟩ := idx_facts t
  refine funext fun a => Fin.ext ?_
  match a with
  | ⟨0, _⟩ => show win1_8.index t (0 : Fin 2) * 2000 + 1 * r.val = t.val * 2000 + r.val; rw [e0]; omega
  | ⟨1, _⟩ => show win1_8.index t (1 : Fin 2) * 128 + 1 * f.val = f.val; rw [e1]; omega

/-- The next layer's features at a row depend only on that row of the row-blocked arrays and on the whole arrays: if
    row `r` of the blocks is row `n` of the arrays, and the whole arrays agree, the block's value at `(r, f)` is the
    arrays' at `(n, f)`. -/
theorem rows_eq (x0 x1 : Vec Ideal S2000x128 .f32) (x2 : Vec Ideal S2000x1 .f32) (x3 : Vec Ideal S2000x40 .f32)
    (x4 : Vec Ideal S40x128 .f32) (x5 : Vec Ideal S128x128 .f32) (x6 : Vec Ideal S1x128 .f32)
    (h s : Vec Ideal S100000x128 .f32) (inv : Vec Ideal S100000x1 .f32) (p : Vec Ideal S100000x40 .f32)
    (d : Vec Ideal S40x128 .f32) (w : Vec Ideal S128x128 .f32) (b : Vec Ideal S1x128 .f32)
    (n : Fin 100000) (r : Fin 2000) (f : Fin 128)
    (e0 : ∀ k : Fin 128, x0 (ix2 r k) = h (ix2 n k)) (e1 : ∀ k : Fin 128, x1 (ix2 r k) = s (ix2 n k))
    (e2 : x2 (ix2 r 0) = inv (ix2 n 0)) (e3 : ∀ q : Fin 40, x3 (ix2 r q) = p (ix2 n q))
    (e4 : ∀ (q : Fin 40) (k : Fin 128), x4 (ix2 q k) = d (ix2 q k))
    (e5 : ∀ k g : Fin 128, x5 (ix2 k g) = w (ix2 k g)) (e6 : ∀ g : Fin 128, x6 (ix2 0 g) = b (ix2 0 g)) :
    lin (N := 2000) (D := 128) (E := 128) (relu (mixMul x0 x1 x2 x3 x4)) x5 (fun f => x6 (ix2 0 f)) r f
      = out h s inv p d w b (ix2 n f) := by
  show _ = lin (N := 100000) (D := 128) (E := 128) (relu (mixMul h s inv p d)) w (fun f => b (ix2 0 f)) n f
  unfold lin relu mixMul classTerm
  simp only [e0, e1, e2, e3, e4, e5, e6]

/-- The body's value at row `r`, feature `f` of point `t`'s blocks is the next layer's features of the arrays the region
    found, at row `2000·t + r`, feature `f`. -/
theorem pay_blk (c : Dev nD) (t : Fin cfg1.N) (r : Fin 2000) (f : Fin 128) :
    k1_pay2 (iblk1 V c 0 t) (iblk1 V c 1 t) (iblk1 V c 2 t) (iblk1 V c 3 t) (iblk1 V c 4 t) (iblk1 V c 5 t) (iblk1 V c 6 t) (ix2 r f)
      = out (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (ix2 (row t r) f) :=
  (pay_at _ _ _ _ _ _ _ r f).trans
    (rows_eq _ _ _ _ _ _ _ _ _ _ _ _ _ _ (row t r) r f (fun k => blk0 V c t r k) (fun k => blk1 V c t r k) (blk2 V c t r)
      (fun q => blk3 V c t r q) (fun q k => blk4 V c t q k) (fun k g => blk5 V c t k g) (fun g => blk6 V c t g))

/-- What point `t` writes back is block `t` of the next layer's features of the arrays the region found. -/
theorem flushed_eq (c : Dev nD) (t : Fin cfg1.N) :
    (dat1 V c).flushed 8 t = ((cfg1.win 8).blk t).view.read (Elt Ideal)
      (out (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 8).cut (grid1.coords t) ((dat1 V c).after 8 t) = _
  rw [after1_8]
  unfold out1_8
  rw [View.canon_unit_zero hz]
  simp only [View.ld_unit_zero (S := S2000x128) hz, View.ld_unit_zero (S := S2000x1) hz, View.ld_unit_zero (S := S2000x40) hz,
    View.ld_unit_zero (S := S40x128) hz, View.ld_unit_zero (S := S128x128) hz, View.ld_unit_zero (S := S1x128) hz]
  funext j
  obtain ⟨r, f, rfl⟩ : ∃ (r : Fin 2000) (f : Fin 128), j = ix2 r f := ⟨j 0, j 1, eq_ix2 j⟩
  show k1_pay2 (iblk1 V c 0 t) (iblk1 V c 1 t) (iblk1 V c 2 t) (iblk1 V c 3 t) (iblk1 V c 4 t) (iblk1 V c 5 t) (iblk1 V c 6 t) (ix2 r f)
    = out (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (((cfg1.win 8).blk t).view.emb (ix2 r f))
  rw [emb8]
  exact pay_blk V c t r f

/-- An index of the array is in point `t`'s block iff each coordinate is in the block's range on its axis. -/
theorem mem_blk (t : Fin cfg1.N) (i : S100000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v50_0).slice (win1_8.rect t)).set ↔ _
  rw [View.set_slice_whole, Rect.mem_set_unit]
  exact Iff.rfl

/-- Every entry of the array is in some point's block: row `n` in block `n / 2000`. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have ht : (i 0).val / 2000 < 50 := by omega
  refine ⟨⟨(i 0).val / 2000, ht⟩, flush1_8 _, ?_⟩
  rw [mem_blk]
  obtain ⟨-, -, -, -, -, -, -, -, -, -, -, -, -, -, e0, e1⟩ := idx_facts ⟨(i 0).val / 2000, ht⟩
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [e1]; omega

/-- THE ARRAY after the region: the next layer's features of the arrays the region found, entry by entry. -/
theorem final (c : Dev nD) : (dat1 V c).arrAt 8 cfg1.N
    = out (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) :=
  (dat1 V c).arrAt_eq_of_cover 8 _ (fun t _ => flushed_eq V c t) cover

end Cert.KernelIdeal.Region1H

end
-- ==== Proof.Region1C.lean ====
/-
  The second region's per-tile class sums: what it leaves in that output array.

  Point `t` of the grid of 50 reads rows `2000·t … 2000·t + 1999` of the labels and computes, from the other blocks it
  loaded, those rows of the new features. It writes block `(t, 0, 0)` of a `[50, 40, 128]` array: at class `c`, feature
  `f`, the sum over the tile's 2000 rows of the new feature `f` of the rows whose label, read as a signed integer, is
  `c`. The body builds this as a product: the one-hot of the labels (the column's number compared with the row's label)
  contracted over the rows with the new features. The 50 blocks tile the array, so the array ends as that function of
  the label array the region found and of the new features' array, entry by entry.
-/
import proofs.«421558_j42331197669872_3_alg».proof.Proof.Gen.KernelIdeal.Frame
import proofs.«421558_j42331197669872_3_alg».proof.Proof.Spec
import proofs.«421558_j42331197669872_3_alg».proof.Proof.LibClassSum
import Idealize.ShloMosaic.Lib.Pipeline.Value
import Idealize.ShloMosaic.Lib.ValueIdx

set_option maxRecDepth 16384

noncomputable section

open scoped BigOperators

namespace Cert.KernelIdeal.Region1C

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz3 : (![0, 0, 0] : Fin 3 → Nat) = fun _ => 0 := funext fun a => by fin_cases a <;> rfl

/-- The class-sum product contracts the first axis of both operands. -/
theorem col_sum : Cert.Lib.ClassSum.IsColProduct (B := 2000) (C := 40) (E := 128) dot_S2000x40_S2000x128_S40x128_0_0_1_1_n_n :=
  ⟨rfl, rfl, rfl, rfl, rfl, rfl⟩

/-- The one-hot entry at row `r`, class `c`: the indicator that the label of row `r` is `c`. -/
theorem onehot_at (lab : IVec S2000x1 32) (r : Fin 2000) (c : Fin 40) :
    (sitofp .f32 (extui 32 (cmpi .eq (iota .tc S2000x40 32 [1] iota_S2000x40_d1_w32)
      (broadcastTo S2000x40 lab broadcasts_S2000x1_S2000x40)) natLt_1_32) : FVec Ideal S2000x40 .f32) (ix2 r c)
      = ind (lab (ix2 r 0)) c := by
  rw [Cert.Lib.ClassSum.onehot_apply (by norm_num) iota_S2000x40_d1_w32 _ natLt_1_32 r c]
  rw [broadcastTo_apply lab broadcasts_S2000x1_S2000x40 (ix2 r c) (ix2 r 0)
    (fun a => by match a with | ⟨0, _⟩ => rfl | ⟨1, _⟩ => rfl)]
  rfl

/-- The body's value at class `c`, feature `f` of a block: the sum over the block's rows of the new feature `f` of the
    rows labelled `c`. -/
theorem pay_at (H : FVec Ideal S2000x128 .f32) (lab : Vec Ideal S2000x1 .i32) (c : Fin 40) (f : Fin 128) :
    k1_pay1 H (k1_pay3 lab) (iota .tc S2000x40 32 [1] iota_S2000x40_d1_w32) (ix3 0 c f)
      = ∑ r : Fin 2000, ind (lab (ix2 r 0)) c * H (ix2 r f) := by
  unfold k1_pay1 k1_pay3
  simp only [shapeCast_self]
  refine (shapeCast_addUnit_apply ![40, 128] _ shapeCasts_S40x128_S1x40x128 (ix3 0 c f)).trans ?_
  rw [show (fun a : Fin 2 => (ix3 (0 : Fin 1) c f) a.succ) = ix2 c f from
    funext fun a => by match a with | ⟨0, _⟩ => rfl | ⟨1, _⟩ => rfl]
  unfold matmul
  rw [Cert.Lib.ClassSum.matmul_zero_apply col_sum]
  refine Finset.sum_congr rfl fun r _ => ?_
  rw [truncf_apply, truncf_apply, onehot_at]

/-- Row `r` of block `t` is row `2000·t + r` of the array. -/
def row (t : Fin 50) (r : Fin 2000) : Fin 100000 := ⟨t.val * 2000 + r.val, by have := t.isLt; have := r.isLt; omega⟩

/-- The printed index maps over the grid: the label window is at block `(t, 0)`, the class sums at `(t, 0, 0)`. -/
theorem idx_facts : ∀ t : Fin cfg1.N,
    win1_7.index t (0 : Fin 2) = t.val ∧ win1_7.index t (1 : Fin 2) = 0
    ∧ win1_9.index t (0 : Fin 3) = t.val ∧ win1_9.index t (1 : Fin 3) = 0 ∧ win1_9.index t (2 : Fin 3) = 0 :=
  (by decide +kernel : ∀ t : Fin grid1.N, _)

/-- The whole-array function: per tile and class, the sum over the tile's rows of the new features of the rows with
    that label. -/
def out (lab : Vec Ideal S100000x1 .i32) (Hn : Vec Ideal S100000x128 .f32) : Vec Ideal S50x40x128 .f32 :=
  fun j => ∑ r : Fin 2000, ind (lab (ix2 (row (j 0) r) 0)) (j 1) * Hn (ix2 (row (j 0) r) (j 2))

theorem blk7 (c : Dev nD) (t : Fin cfg1.N) (r : Fin 2000) :
    iblk1 V c 7 t (ix2 r 0) = V c (Pipeline.arrRef spec1 7) (ix2 (row t r) 0) := by
  obtain ⟨e0, e1, -⟩ := idx_facts t
  show V c (Pipeline.arrRef spec1 7) (((cfg1.win 7).blk t).view.emb (ix2 r 0)) = _
  refine congrArg _ (funext fun a => Fin.ext ?_)
  match a with
  | ⟨0, _⟩ => show win1_7.index t (0 : Fin 2) * 2000 + 1 * r.val = t.val * 2000 + r.val; rw [e0]; omega
  | ⟨1, _⟩ => show win1_7.index t (1 : Fin 2) * 1 + 1 * 0 = 0; rw [e1]

/-- Entry `(0, k, f)` of the output's block `t` is entry `(t, k, f)` of the array. -/
theorem emb9 (t : Fin cfg1.N) (k : Fin 40) (f : Fin 128) :
    ((cfg1.win 9).blk t).view.emb (ix3 0 k f) = (ix3 t k f : S50x40x128.Idx) := by
  obtain ⟨-, -, e0, e1, e2⟩ := idx_facts t
  refine funext fun a => Fin.ext ?_
  match a with
  | ⟨0, _⟩ => show win1_9.index t (0 : Fin 3) * 1 + 1 * 0 = t.val; rw [e0]; omega
  | ⟨1, _⟩ => show win1_9.index t (1 : Fin 3) * 40 + 1 * k.val = k.val; rw [e1]; omega
  | ⟨2, _⟩ => show win1_9.index t (2 : Fin 3) * 128 + 1 * f.val = f.val; rw [e2]; omega

/-- What point `t` writes back is block `t` of the class sums of the label array the region found and of the new
    features' array, given that the body's new features at a block are that array's rows. -/
theorem flushed_eq (c : Dev nD) (Hn : Vec Ideal S100000x128 .f32)
    (hH : ∀ (t : Fin cfg1.N) (r : Fin 2000) (f : Fin 128),
      k1_pay2 (iblk1 V c 0 t) (iblk1 V c 1 t) (iblk1 V c 2 t) (iblk1 V c 3 t) (iblk1 V c 4 t) (iblk1 V c 5 t) (iblk1 V c 6 t) (ix2 r f)
        = Hn (ix2 (row t r) f))
    (t : Fin cfg1.N) :
    (dat1 V c).flushed 9 t = ((cfg1.win 9).blk t).view.read (Elt Ideal) (out (V c (Pipeline.arrRef spec1 7)) Hn) := by
  show (cfg1.win 9).cut (grid1.coords t) ((dat1 V c).after 9 t) = _
  rw [after1_9]
  unfold out1_9
  rw [View.canon_unit_zero hz3]
  simp only [View.ld_unit_zero (S := S2000x128) hz, View.ld_unit_zero (S := S2000x1) hz, View.ld_unit_zero (S := S2000x40) hz,
    View.ld_unit_zero (S := S40x128) hz, View.ld_unit_zero (S := S128x128) hz, View.ld_unit_zero (S := S1x128) hz]
  funext j
  obtain ⟨z, k, f, rfl⟩ : ∃ (z : Fin 1) (k : Fin 40) (f : Fin 128), j = ix3 z k f := ⟨j 0, j 1, j 2, eq_ix3 j⟩
  obtain rfl : z = 0 := Fin.ext (by have := z.isLt; omega)
  show k1_pay1 (k1_pay2 (iblk1 V c 0 t) (iblk1 V c 1 t) (iblk1 V c 2 t) (iblk1 V c 3 t) (iblk1 V c 4 t) (iblk1 V c 5 t) (iblk1 V c 6 t))
      (k1_pay3 (iblk1 V c 7 t)) (iota .tc S2000x40 32 [1] iota_S2000x40_d1_w32) (ix3 0 k f)
    = out (V c (Pipeline.arrRef spec1 7)) Hn (((cfg1.win 9).blk t).view.emb (ix3 0 k f))
  refine (pay_at _ _ k f).trans ?_
  rw [emb9]
  show ∑ r : Fin 2000, ind (iblk1 V c 7 t (ix2 r 0)) k
      * k1_pay2 (iblk1 V c 0 t) (iblk1 V c 1 t) (iblk1 V c 2 t) (iblk1 V c 3 t) (iblk1 V c 4 t) (iblk1 V c 5 t) (iblk1 V c 6 t) (ix2 r f)
    = ∑ r : Fin 2000, ind (V c (Pipeline.arrRef spec1 7) (ix2 (row t r) 0)) k * Hn (ix2 (row t r) f)
  refine Finset.sum_congr rfl fun r _ => ?_
  rw [blk7 V c t r, hH t r f]

/-- An index of the array is in point `t`'s block iff each coordinate is in the block's range on its axis. -/
theorem mem_blk (t : Fin cfg1.N) (i : S50x40x128.Idx) :
    i ∈ ((cfg1.win 9).blk t).view.set ↔ ∀ a : Fin 3, win1_9.index t a * S1x40x128.size a ≤ (i a).val
      ∧ (i a).val < win1_9.index t a * S1x40x128.size a + S1x40x128.size a := by
  show i ∈ ((View.whole main_v50_1).slice (win1_9.rect t)).set ↔ _
  rw [View.set_slice_whole, Rect.mem_set_unit]
  exact Iff.rfl

/-- Every entry of the array is in some point's block: tile `n` in block `n`. -/
theorem cover (i : S50x40x128.Idx) : ∃ t : Fin cfg1.N, (cfg1.win 9).flush t = true ∧ i ∈ ((cfg1.win 9).blk t).view.set := by
  have hi0 : (i 0).val < 50 := (i 0).isLt
  have hi1 : (i 1).val < 40 := (i 1).isLt
  have hi2 : (i 2).val < 128 := (i 2).isLt
  refine ⟨⟨(i 0).val, hi0⟩, flush1_9 _, ?_⟩
  rw [mem_blk]
  obtain ⟨-, -, e0, e1, e2⟩ := idx_facts ⟨(i 0).val, hi0⟩
  intro a
  match a with
  | ⟨0, _⟩ =>
    show win1_9.index ⟨(i 0).val, hi0⟩ (0 : Fin 3) * 1 ≤ (i 0).val
      ∧ (i 0).val < win1_9.index ⟨(i 0).val, hi0⟩ (0 : Fin 3) * 1 + 1
    rw [e0]; show (i 0).val * 1 ≤ (i 0).val ∧ (i 0).val < (i 0).val * 1 + 1; omega
  | ⟨1, _⟩ =>
    show win1_9.index ⟨(i 0).val, hi0⟩ (1 : Fin 3) * 40 ≤ (i 1).val
      ∧ (i 1).val < win1_9.index ⟨(i 0).val, hi0⟩ (1 : Fin 3) * 40 + 40
    rw [e1]; omega
  | ⟨2, _⟩ =>
    show win1_9.index ⟨(i 0).val, hi0⟩ (2 : Fin 3) * 128 ≤ (i 2).val
      ∧ (i 2).val < win1_9.index ⟨(i 0).val, hi0⟩ (2 : Fin 3) * 128 + 128
    rw [e2]; omega

/-- THE ARRAY after the region: the per-tile class sums of the label array the region found and of the new features'
    array, entry by entry, given that the body's new features at a block are that array's rows. -/
theorem final (c : Dev nD) (Hn : Vec Ideal S100000x128 .f32)
    (hH : ∀ (t : Fin cfg1.N) (r : Fin 2000) (f : Fin 128),
      k1_pay2 (iblk1 V c 0 t) (iblk1 V c 1 t) (iblk1 V c 2 t) (iblk1 V c 3 t) (iblk1 V c 4 t) (iblk1 V c 5 t) (iblk1 V c 6 t) (ix2 r f)
        = Hn (ix2 (row t r) f)) :
    (dat1 V c).arrAt 9 cfg1.N = out (V c (Pipeline.arrRef spec1 7)) Hn :=
  (dat1 V c).arrAt_eq_of_cover 9 _ (fun t _ => flushed_eq V c Hn hH t) cover

end Cert.KernelIdeal.Region1C

end
-- ==== Proof.Region2H.lean ====
/-
  Region 2: what it leaves in the array of the next layer's features.

  Point `t` of the grid of 50 reads rows `2000·t … 2000·t + 1999` of the features `h`, of the neighbours' sums `s`,
  of the reciprocal column and of the class weights, and the whole arrays of class directions (`[40, 128]`), of the
  next layer's weights (`[128, 40]`) and of its bias (a `[1, 40]` row), and writes those rows of the result: at row
  `n`, feature `f`, the rectified layer output `max (h + ½ · (p · r) + ½ · (s · inv − h)) 0` times the weights plus the
  bias. The 50 blocks tile the array, so the array ends as that function of the arrays the region found, entry by
  entry.
-/
import proofs.«421558_j42331197669872_3_alg».proof.Proof.Gen.KernelIdeal.Frame
import proofs.«421558_j42331197669872_3_alg».proof.Proof.Spec
import proofs.«421558_j42331197669872_3_alg».proof.Proof.LibPlainProduct
import Idealize.ShloMosaic.Lib.Pipeline.Value
import Idealize.ShloMosaic.Lib.ValueIdx

set_option maxRecDepth 16384

noncomputable section

namespace Cert.KernelIdeal.Region2H

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The class-term product has the plain dimension numbers … -/
theorem plain_pr : Cert.Lib.PlainProduct.IsPlain (M := 2000) (K := 40) (N := 128) dot_S2000x40_S40x128_S2000x128_1_0_0_1_n_n :=
  ⟨rfl, rfl, rfl, rfl, rfl, rfl⟩

/-- … and so has the product by the next layer's weights. -/
theorem plain_ow : Cert.Lib.PlainProduct.IsPlain (M := 2000) (K := 128) (N := 40) dot_S2000x128_S128x40_S2000x40_1_0_0_1_n_n :=
  ⟨rfl, rfl, rfl, rfl, rfl, rfl⟩

/-- The body's value at row `r`, feature `f` of a block: the next layer's features of the blocks it loaded. -/
theorem pay_at (x0 x1 : Vec Ideal S2000x128 .f32) (x2 : Vec Ideal S2000x1 .f32) (x3 : Vec Ideal S2000x40 .f32)
    (x4 : Vec Ideal S40x128 .f32) (x5 : Vec Ideal S128x40 .f32) (x6 : Vec Ideal S1x40 .f32) (r : Fin 2000) (f : Fin 40) :
    k2_pay2 x0 x1 x2 x3 x4 x5 x6 (ix2 r f)
      = lin (N := 2000) (D := 128) (E := 40) (relu (mixMul x0 x1 x2 x3 x4)) x5 (fun f => x6 (ix2 0 f)) r f := by
  unfold k2_pay2 lin
  simp only [addf_apply, shapeCast_self]
  rw [broadcastTo_apply x6 broadcasts_S1x40_S2000x40 (ix2 r f) (ix2 0 f)
    (fun a => by match a with | ⟨0, _⟩ => rfl | ⟨1, _⟩ => rfl)]
  unfold matmul
  rw [Cert.Lib.PlainProduct.matmul_zero_apply plain_ow]
  refine congrArg (· + x6 (ix2 0 f)) (Finset.sum_congr rfl fun k _ => ?_)
  unfold relu mixMul classTerm
  simp only [truncf_apply, maximumf_apply, addf_apply, mulf_apply, subf_apply, broadcast_apply]
  rw [broadcastTo_apply x2 broadcasts_S2000x1_S2000x128 (ix2 r k) (ix2 r 0)
    (fun a => by match a with | ⟨0, _⟩ => rfl | ⟨1, _⟩ => rfl)]
  rw [Cert.Lib.PlainProduct.matmul_zero_apply plain_pr]
  rfl

/-- Row `r` of block `t` is row `2000·t + r` of the array. -/
def row (t : Fin 50) (r : Fin 2000) : Fin 100000 := ⟨t.val * 2000 + r.val, by have := t.isLt; have := r.isLt; omega⟩

/-- The printed index maps over the grid: every row-blocked window is at block `(t, 0)`, the whole arrays at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_8.index t (0 : Fin 2) = t.val ∧ win2_8.index t (1 : Fin 2) = 0 :=
  (by decide +kernel : ∀ t : Fin grid2.N, _)

/-- The whole-array function: the next layer's features of the arrays the region found. -/
def out (h s : Vec Ideal S100000x128 .f32) (inv : Vec Ideal S100000x1 .f32) (p : Vec Ideal S100000x40 .f32)
    (r : Vec Ideal S40x128 .f32) (w : Vec Ideal S128x40 .f32) (b : Vec Ideal S1x40 .f32) : Vec Ideal S100000x40 .f32 :=
  fun i => lin (N := 100000) (D := 128) (E := 40) (relu (mixMul h s inv p r)) w (fun f => b (ix2 0 f)) (i 0) (i 1)

theorem blk0 (c : Dev nD) (t : Fin cfg2.N) (r : Fin 2000) (f : Fin 128) :
    iblk2 V c 0 t (ix2 r f) = V c (Pipeline.arrRef spec2 0) (ix2 (row t r) f) := by
  obtain ⟨e0, e1, -⟩ := idx_facts t
  show V c (Pipeline.arrRef spec2 0) (((cfg2.win 0).blk t).view.emb (ix2 r f)) = _
  refine congrArg _ (funext fun a => Fin.ext ?_)
  match a with
  | ⟨0, _⟩ => show win2_0.index t (0 : Fin 2) * 2000 + 1 * r.val = t.val * 2000 + r.val; rw [e0]; omega
  | ⟨1, _⟩ => show win2_0.index t (1 : Fin 2) * 128 + 1 * f.val = f.val; rw [e1]; omega

theorem blk1 (c : Dev nD) (t : Fin cfg2.N) (r : Fin 2000) (f : Fin 128) :
    iblk2 V c 1 t (ix2 r f) = V c (Pipeline.arrRef spec2 1) (ix2 (row t r) f) := by
  obtain ⟨-, -, e0, e1, -⟩ := idx_facts t
  show V c (Pipeline.arrRef spec2 1) (((cfg2.win 1).blk t).view.emb (ix2 r f)) = _
  refine congrArg _ (funext fun a => Fin.ext ?_)
  match a with
  | ⟨0, _⟩ => show win2_1.index t (0 : Fin 2) * 2000 + 1 * r.val = t.val * 2000 + r.val; rw [e0]; omega
  | ⟨1, _⟩ => show win2_1.index t (1 : Fin 2) * 128 + 1 * f.val = f.val; rw [e1]; omega

theorem blk2 (c : Dev nD) (t : Fin cfg2.N) (r : Fin 2000) :
    iblk2 V c 2 t (ix2 r 0) = V c (Pipeline.arrRef spec2 2) (ix2 (row t r) 0) := by
  obtain ⟨-, -, -, -, e0, e1, -⟩ := idx_facts t
  show V c (Pipeline.arrRef spec2 2) (((cfg2.win 2).blk t).view.emb (ix2 r 0)) = _
  refine congrArg _ (funext fun a => Fin.ext ?_)
  match a with
  | ⟨0, _⟩ => show win2_2.index t (0 : Fin 2) * 2000 + 1 * r.val = t.val * 2000 + r.val; rw [e0]; omega
  | ⟨1, _⟩ => show win2_2.index t (1 : Fin 2) * 1 + 1 * 0 = 0; rw [e1]

theorem blk3 (c : Dev nD) (t : Fin cfg2.N) (r : Fin 2000) (k : Fin 40) :
    iblk2 V c 3 t (ix2 r k) = V c (Pipeline.arrRef spec2 3) (ix2 (row t r) k) := by
  obtain ⟨-, -, -, -, -, -, e0, e1, -⟩ := idx_facts t
  show V c (Pipeline.arrRef spec2 3) (((cfg2.win 3).blk t).view.emb (ix2 r k)) = _
  refine congrArg _ (funext fun a => Fin.ext ?_)
  match a with
  | ⟨0, _⟩ => show win2_3.index t (0 : Fin 2) * 2000 + 1 * r.val = t.val * 2000 + r.val; rw [e0]; omega
  | ⟨1, _⟩ => show win2_3.index t (1 : Fin 2) * 40 + 1 * k.val = k.val; rw [e1]; omega

theorem blk4 (c : Dev nD) (t : Fin cfg2.N) (k : Fin 40) (f : Fin 128) :
    iblk2 V c 4 t (ix2 k f) = V c (Pipeline.arrRef spec2 4) (ix2 k f) := by
  obtain ⟨-, -, -, -, -, -, -, -, e0, e1, -⟩ := idx_facts t
  show V c (Pipeline.arrRef spec2 4) (((cfg2.win 4).blk t).view.emb (ix2 k f)) = _
  refine congrArg _ (funext fun a => Fin.ext ?_)
  match a with
  | ⟨0, _⟩ => show win2_4.index t (0 : Fin 2) * 40 + 1 * k.val = k.val; rw [e0]; omega
  | ⟨1, _⟩ => show win2_4.index t (1 : Fin 2) * 128 + 1 * f.val = f.val; rw [e1]; omega

theorem blk5 (c : Dev nD) (t : Fin cfg2.N) (k : Fin 128) (f : Fin 40) :
    iblk2 V c 5 t (ix2 k f) = V c (Pipeline.arrRef spec2 5) (ix2 k f) := by
  obtain ⟨-, -, -, -, -, -, -, -, -, -, e0, e1, -⟩ := idx_facts t
  show V c (Pipeline.arrRef spec2 5) (((cfg2.win 5).blk t).view.emb (ix2 k f)) = _
  refine congrArg _ (funext fun a => Fin.ext ?_)
  match a with
  | ⟨0, _⟩ => show win2_5.index t (0 : Fin 2) * 128 + 1 * k.val = k.val; rw [e0]; omega
  | ⟨1, _⟩ => show win2_5.index t (1 : Fin 2) * 40 + 1 * f.val = f.val; rw [e1]; omega

theorem blk6 (c : Dev nD) (t : Fin cfg2.N) (f : Fin 40) :
    iblk2 V c 6 t (ix2 0 f) = V c (Pipeline.arrRef spec2 6) (ix2 0 f) := by
  obtain ⟨-, -, -, -, -, -, -, -, -, -, -, -, e0, e1, -⟩ := idx_facts t
  show V c (Pipeline.arrRef spec2 6) (((cfg2.win 6).blk t).view.emb (ix2 0 f)) = _
  refine congrArg _ (funext fun a => Fin.ext ?_)
  match a with
  | ⟨0, _⟩ => show win2_6.index t (0 : Fin 2) * 1 + 1 * 0 = 0; rw [e0]
  | ⟨1, _⟩ => show win2_6.index t (1 : Fin 2) * 40 + 1 * f.val = f.val; rw [e1]; omega

/-- Entry `(r, f)` of the output's block `t` is entry `(2000·t + r, f)` of the array. -/
theorem emb8 (t : Fin cfg2.N) (r : Fin 2000) (f : Fin 40) :
    ((cfg2.win 8).blk t).view.emb (ix2 r f) = ix2 (row t r) f := by
  obtain ⟨-, -, -, -, -, -, -, -, -, -, -, -, -, -, e0, e1⟩ := idx_facts t
  refine funext fun a => Fin.ext ?_
  match a with
  | ⟨0, _⟩ => show win2_8.index t (0 : Fin 2) * 2000 + 1 * r.val = t.val * 2000 + r.val; rw [e0]; omega
  | ⟨1, _⟩ => show win2_8.index t (1 : Fin 2) * 40 + 1 * f.val = f.val; rw [e1]; omega

/-- The next layer's features at a row depend only on that row of the row-blocked arrays and on the whole arrays: if
    row `r` of the blocks is row `n` of the arrays, and the whole arrays agree, the block's value at `(r, f)` is the
    arrays' at `(n, f)`. -/
theorem rows_eq (x0 x1 : Vec Ideal S2000x128 .f32) (x2 : Vec Ideal S2000x1 .f32) (x3 : Vec Ideal S2000x40 .f32)
    (x4 : Vec Ideal S40x128 .f32) (x5 : Vec Ideal S128x40 .f32) (x6 : Vec Ideal S1x40 .f32)
    (h s : Vec Ideal S100000x128 .f32) (inv : Vec Ideal S100000x1 .f32) (p : Vec Ideal S100000x40 .f32)
    (d : Vec Ideal S40x128 .f32) (w : Vec Ideal S128x40 .f32) (b : Vec Ideal S1x40 .f32)
    (n : Fin 100000) (r : Fin 2000) (f : Fin 40)
    (e0 : ∀ k : Fin 128, x0 (ix2 r k) = h (ix2 n k)) (e1 : ∀ k : Fin 128, x1 (ix2 r k) = s (ix2 n k))
    (e2 : x2 (ix2 r 0) = inv (ix2 n 0)) (e3 : ∀ q : Fin 40, x3 (ix2 r q) = p (ix2 n q))
    (e4 : ∀ (q : Fin 40) (k : Fin 128), x4 (ix2 q k) = d (ix2 q k))
    (e5 : ∀ (k : Fin 128) (g : Fin 40), x5 (ix2 k g) = w (ix2 k g)) (e6 : ∀ g : Fin 40, x6 (ix2 0 g) = b (ix2 0 g)) :
    lin (N := 2000) (D := 128) (E := 40) (relu (mixMul x0 x1 x2 x3 x4)) x5 (fun f => x6 (ix2 0 f)) r f
      = out h s inv p d w b (ix2 n f) := by
  show _ = lin (N := 100000) (D := 128) (E := 40) (relu (mixMul h s inv p d)) w (fun f => b (ix2 0 f)) n f
  unfold lin relu mixMul classTerm
  simp only [e0, e1, e2, e3, e4, e5, e6]

/-- The body's value at row `r`, feature `f` of point `t`'s blocks is the next layer's features of the arrays the region
    found, at row `2000·t + r`, feature `f`. -/
theorem pay_blk (c : Dev nD) (t : Fin cfg2.N) (r : Fin 2000) (f : Fin 40) :
    k2_pay2 (iblk2 V c 0 t) (iblk2 V c 1 t) (iblk2 V c 2 t) (iblk2 V c 3 t) (iblk2 V c 4 t) (iblk2 V c 5 t) (iblk2 V c 6 t) (ix2 r f)
      = out (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (ix2 (row t r) f) :=
  (pay_at _ _ _ _ _ _ _ r f).trans
    (rows_eq _ _ _ _ _ _ _ _ _ _ _ _ _ _ (row t r) r f (fun k => blk0 V c t r k) (fun k => blk1 V c t r k) (blk2 V c t r)
      (fun q => blk3 V c t r q) (fun q k => blk4 V c t q k) (fun k g => blk5 V c t k g) (fun g => blk6 V c t g))

/-- What point `t` writes back is block `t` of the next layer's features of the arrays the region found. -/
theorem flushed_eq (c : Dev nD) (t : Fin cfg2.N) :
    (dat2 V c).flushed 8 t = ((cfg2.win 8).blk t).view.read (Elt Ideal)
      (out (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 8).cut (grid2.coords t) ((dat2 V c).after 8 t) = _
  rw [after2_8]
  unfold out2_8
  rw [View.canon_unit_zero hz]
  simp only [View.ld_unit_zero (S := S2000x128) hz, View.ld_unit_zero (S := S2000x1) hz, View.ld_unit_zero (S := S2000x40) hz,
    View.ld_unit_zero (S := S40x128) hz, View.ld_unit_zero (S := S128x40) hz, View.ld_unit_zero (S := S1x40) hz]
  funext j
  obtain ⟨r, f, rfl⟩ : ∃ (r : Fin 2000) (f : Fin 40), j = ix2 r f := ⟨j 0, j 1, eq_ix2 j⟩
  refine (pay_blk V c t r f).trans ?_
  rw [← emb8 t r f]
  rfl

/-- An index of the array is in point `t`'s block iff each coordinate is in the block's range on its axis. -/
theorem mem_blk (t : Fin cfg2.N) (i : S100000x40.Idx) :
    i ∈ ((cfg2.win 8).blk t).view.set ↔ ∀ a : Fin 2, win2_8.index t a * S2000x40.size a ≤ (i a).val
      ∧ (i a).val < win2_8.index t a * S2000x40.size a + S2000x40.size a := by
  show i ∈ ((View.whole main_v79_0).slice (win2_8.rect t)).set ↔ _
  rw [View.set_slice_whole, Rect.mem_set_unit]
  exact Iff.rfl

/-- Every entry of the array is in some point's block: row `n` in block `n / 2000`. -/
theorem cover (i : S100000x40.Idx) : ∃ t : Fin cfg2.N, (cfg2.win 8).flush t = true ∧ i ∈ ((cfg2.win 8).blk t).view.set := by
  have hi0 : (i 0).val < 100000 := (i 0).isLt
  have hi1 : (i 1).val < 40 := (i 1).isLt
  have ht : (i 0).val / 2000 < 50 := by omega
  refine ⟨⟨(i 0).val / 2000, ht⟩, flush2_8 _, ?_⟩
  rw [mem_blk]
  obtain ⟨-, -, -, -, -, -, -, -, -, -, -, -, -, -, e0, e1⟩ := idx_facts ⟨(i 0).val / 2000, ht⟩
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_8.index ⟨(i 0).val / 2000, ht⟩ (1 : Fin 2) * 40 ≤ (i 1).val
      ∧ (i 1).val < win2_8.index ⟨(i 0).val / 2000, ht⟩ (1 : Fin 2) * 40 + 40
    rw [e1]; omega

/-- THE ARRAY after the region: the next layer's features of the arrays the region found, entry by entry. -/
theorem final (c : Dev nD) : (dat2 V c).arrAt 8 cfg2.N
    = out (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) :=
  (dat2 V c).arrAt_eq_of_cover 8 _ (fun t _ => flushed_eq V c t) cover

end Cert.KernelIdeal.Region2H

end
-- ==== Proof.Region2C.lean ====
/-
  The third region's per-tile class sums: what it leaves in that output array.

  Point `t` of the grid of 50 reads rows `2000·t … 2000·t + 1999` of the labels and computes, from the other blocks it
  loaded, those rows of the new features (40 of them per row). It writes block `(t, 0, 0)` of a `[50, 40, 40]` array: at
  class `c`, feature `f`, the sum over the tile's 2000 rows of the new feature `f` of the rows whose label, read as a
  signed integer, is `c`. The body builds this as a product: the one-hot of the labels (the column's number compared
  with the row's label) contracted over the rows with the new features. The 50 blocks tile the array, so the array ends
  as that function of the label array the region found and of the new features' array, entry by entry.
-/
import proofs.«421558_j42331197669872_3_alg».proof.Proof.Gen.KernelIdeal.Frame
import proofs.«421558_j42331197669872_3_alg».proof.Proof.Spec
import proofs.«421558_j42331197669872_3_alg».proof.Proof.LibClassSum
import Idealize.ShloMosaic.Lib.Pipeline.Value
import Idealize.ShloMosaic.Lib.ValueIdx

set_option maxRecDepth 16384

noncomputable section

open scoped BigOperators

namespace Cert.KernelIdeal.Region2C

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz3 : (![0, 0, 0] : Fin 3 → Nat) = fun _ => 0 := funext fun a => by fin_cases a <;> rfl

/-- The class-sum product contracts the first axis of both operands. -/
theorem col_sum : Cert.Lib.ClassSum.IsColProduct (B := 2000) (C := 40) (E := 40) dot_S2000x40_S2000x40_S40x40_0_0_1_1_n_n :=
  ⟨rfl, rfl, rfl, rfl, rfl, rfl⟩

/-- The one-hot entry at row `r`, class `c`: the indicator that the label of row `r` is `c`. -/
theorem onehot_at (lab : IVec S2000x1 32) (r : Fin 2000) (c : Fin 40) :
    (sitofp .f32 (extui 32 (cmpi .eq (iota .tc S2000x40 32 [1] iota_S2000x40_d1_w32)
      (broadcastTo S2000x40 lab broadcasts_S2000x1_S2000x40)) natLt_1_32) : FVec Ideal S2000x40 .f32) (ix2 r c)
      = ind (lab (ix2 r 0)) c := by
  rw [Cert.Lib.ClassSum.onehot_apply (by norm_num) iota_S2000x40_d1_w32 _ natLt_1_32 r c]
  rw [broadcastTo_apply lab broadcasts_S2000x1_S2000x40 (ix2 r c) (ix2 r 0)
    (fun a => by match a with | ⟨0, _⟩ => rfl | ⟨1, _⟩ => rfl)]
  rfl

/-- The body's value at class `c`, feature `f` of a block: the sum over the block's rows of the new feature `f` of the
    rows labelled `c`. -/
theorem pay_at (H : FVec Ideal S2000x40 .f32) (lab : Vec Ideal S2000x1 .i32) (c : Fin 40) (f : Fin 40) :
    k2_pay1 H (k2_pay3 lab) (iota .tc S2000x40 32 [1] iota_S2000x40_d1_w32) (ix3 0 c f)
      = ∑ r : Fin 2000, ind (lab (ix2 r 0)) c * H (ix2 r f) := by
  unfold k2_pay1 k2_pay3
  simp only [shapeCast_self]
  refine (shapeCast_addUnit_apply ![40, 40] _ shapeCasts_S40x40_S1x40x40 (ix3 0 c f)).trans ?_
  rw [show (fun a : Fin 2 => (ix3 (0 : Fin 1) c f) a.succ) = ix2 c f from
    funext fun a => by match a with | ⟨0, _⟩ => rfl | ⟨1, _⟩ => rfl]
  unfold matmul
  rw [Cert.Lib.ClassSum.matmul_zero_apply col_sum]
  refine Finset.sum_congr rfl fun r _ => ?_
  rw [truncf_apply, truncf_apply, onehot_at]

/-- Row `r` of block `t` is row `2000·t + r` of the array. -/
def row (t : Fin 50) (r : Fin 2000) : Fin 100000 := ⟨t.val * 2000 + r.val, by have := t.isLt; have := r.isLt; omega⟩

/-- The printed index maps over the grid: the label window is at block `(t, 0)`, the class sums at `(t, 0, 0)`. -/
theorem idx_facts : ∀ t : Fin cfg2.N,
    win2_7.index t (0 : Fin 2) = t.val ∧ win2_7.index t (1 : Fin 2) = 0
    ∧ win2_9.index t (0 : Fin 3) = t.val ∧ win2_9.index t (1 : Fin 3) = 0 ∧ win2_9.index t (2 : Fin 3) = 0 :=
  (by decide +kernel : ∀ t : Fin grid2.N, _)

/-- The whole-array function: per tile and class, the sum over the tile's rows of the new features of the rows with
    that label. -/
def out (lab : Vec Ideal S100000x1 .i32) (Hn : Vec Ideal S100000x40 .f32) : Vec Ideal S50x40x40 .f32 :=
  fun j => ∑ r : Fin 2000, ind (lab (ix2 (row (j 0) r) 0)) (j 1) * Hn (ix2 (row (j 0) r) (j 2))

theorem blk7 (c : Dev nD) (t : Fin cfg2.N) (r : Fin 2000) :
    iblk2 V c 7 t (ix2 r 0) = V c (Pipeline.arrRef spec2 7) (ix2 (row t r) 0) := by
  obtain ⟨e0, e1, -⟩ := idx_facts t
  show V c (Pipeline.arrRef spec2 7) (((cfg2.win 7).blk t).view.emb (ix2 r 0)) = _
  refine congrArg _ (funext fun a => Fin.ext ?_)
  match a with
  | ⟨0, _⟩ => show win2_7.index t (0 : Fin 2) * 2000 + 1 * r.val = t.val * 2000 + r.val; rw [e0]; omega
  | ⟨1, _⟩ => show win2_7.index t (1 : Fin 2) * 1 + 1 * 0 = 0; rw [e1]

/-- Entry `(0, k, f)` of the output's block `t` is entry `(t, k, f)` of the array. -/
theorem emb9 (t : Fin cfg2.N) (k : Fin 40) (f : Fin 40) :
    ((cfg2.win 9).blk t).view.emb (ix3 0 k f) = (ix3 t k f : S50x40x40.Idx) := by
  obtain ⟨-, -, e0, e1, e2⟩ := idx_facts t
  refine funext fun a => Fin.ext ?_
  match a with
  | ⟨0, _⟩ => show win2_9.index t (0 : Fin 3) * 1 + 1 * 0 = t.val; rw [e0]; omega
  | ⟨1, _⟩ => show win2_9.index t (1 : Fin 3) * 40 + 1 * k.val = k.val; rw [e1]; omega
  | ⟨2, _⟩ => show win2_9.index t (2 : Fin 3) * 40 + 1 * f.val = f.val; rw [e2]; omega

/-- What point `t` writes back is block `t` of the class sums of the label array the region found and of the new
    features' array, given that the body's new features at a block are that array's rows. -/
theorem flushed_eq (c : Dev nD) (Hn : Vec Ideal S100000x40 .f32)
    (hH : ∀ (t : Fin cfg2.N) (r : Fin 2000) (f : Fin 40),
      k2_pay2 (iblk2 V c 0 t) (iblk2 V c 1 t) (iblk2 V c 2 t) (iblk2 V c 3 t) (iblk2 V c 4 t) (iblk2 V c 5 t) (iblk2 V c 6 t) (ix2 r f)
        = Hn (ix2 (row t r) f))
    (t : Fin cfg2.N) :
    (dat2 V c).flushed 9 t = ((cfg2.win 9).blk t).view.read (Elt Ideal) (out (V c (Pipeline.arrRef spec2 7)) Hn) := by
  show (cfg2.win 9).cut (grid2.coords t) ((dat2 V c).after 9 t) = _
  rw [after2_9]
  unfold out2_9
  rw [View.canon_unit_zero hz3]
  simp only [View.ld_unit_zero (S := S2000x128) hz, View.ld_unit_zero (S := S2000x1) hz, View.ld_unit_zero (S := S2000x40) hz,
    View.ld_unit_zero (S := S40x128) hz, View.ld_unit_zero (S := S128x40) hz, View.ld_unit_zero (S := S1x40) hz]
  funext j
  obtain ⟨z, k, f, rfl⟩ : ∃ (z : Fin 1) (k : Fin 40) (f : Fin 40), j = ix3 z k f := ⟨j 0, j 1, j 2, eq_ix3 j⟩
  obtain rfl : z = 0 := Fin.ext (by have := z.isLt; omega)
  show k2_pay1 (k2_pay2 (iblk2 V c 0 t) (iblk2 V c 1 t) (iblk2 V c 2 t) (iblk2 V c 3 t) (iblk2 V c 4 t) (iblk2 V c 5 t) (iblk2 V c 6 t))
      (k2_pay3 (iblk2 V c 7 t)) (iota .tc S2000x40 32 [1] iota_S2000x40_d1_w32) (ix3 0 k f)
    = out (V c (Pipeline.arrRef spec2 7)) Hn (((cfg2.win 9).blk t).view.emb (ix3 0 k f))
  refine (pay_at _ _ k f).trans ?_
  rw [emb9]
  show ∑ r : Fin 2000, ind (iblk2 V c 7 t (ix2 r 0)) k
      * k2_pay2 (iblk2 V c 0 t) (iblk2 V c 1 t) (iblk2 V c 2 t) (iblk2 V c 3 t) (iblk2 V c 4 t) (iblk2 V c 5 t) (iblk2 V c 6 t) (ix2 r f)
    = ∑ r : Fin 2000, ind (V c (Pipeline.arrRef spec2 7) (ix2 (row t r) 0)) k * Hn (ix2 (row t r) f)
  refine Finset.sum_congr rfl fun r _ => ?_
  rw [blk7 V c t r, hH t r f]

/-- An index of the array is in point `t`'s block iff each coordinate is in the block's range on its axis. -/
theorem mem_blk (t : Fin cfg2.N) (i : S50x40x40.Idx) :
    i ∈ ((cfg2.win 9).blk t).view.set ↔ ∀ a : Fin 3, win2_9.index t a * S1x40x40.size a ≤ (i a).val
      ∧ (i a).val < win2_9.index t a * S1x40x40.size a + S1x40x40.size a := by
  show i ∈ ((View.whole main_v79_1).slice (win2_9.rect t)).set ↔ _
  rw [View.set_slice_whole, Rect.mem_set_unit]
  exact Iff.rfl

/-- Every entry of the array is in some point's block: tile `n` in block `n`. -/
theorem cover (i : S50x40x40.Idx) : ∃ t : Fin cfg2.N, (cfg2.win 9).flush t = true ∧ i ∈ ((cfg2.win 9).blk t).view.set := by
  have hi0 : (i 0).val < 50 := (i 0).isLt
  have hi1 : (i 1).val < 40 := (i 1).isLt
  have hi2 : (i 2).val < 40 := (i 2).isLt
  refine ⟨⟨(i 0).val, hi0⟩, flush2_9 _, ?_⟩
  rw [mem_blk]
  obtain ⟨-, -, e0, e1, e2⟩ := idx_facts ⟨(i 0).val, hi0⟩
  intro a
  match a with
  | ⟨0, _⟩ =>
    show win2_9.index ⟨(i 0).val, hi0⟩ (0 : Fin 3) * 1 ≤ (i 0).val
      ∧ (i 0).val < win2_9.index ⟨(i 0).val, hi0⟩ (0 : Fin 3) * 1 + 1
    rw [e0]; show (i 0).val * 1 ≤ (i 0).val ∧ (i 0).val < (i 0).val * 1 + 1; omega
  | ⟨1, _⟩ =>
    show win2_9.index ⟨(i 0).val, hi0⟩ (1 : Fin 3) * 40 ≤ (i 1).val
      ∧ (i 1).val < win2_9.index ⟨(i 0).val, hi0⟩ (1 : Fin 3) * 40 + 40
    rw [e1]; omega
  | ⟨2, _⟩ =>
    show win2_9.index ⟨(i 0).val, hi0⟩ (2 : Fin 3) * 40 ≤ (i 2).val
      ∧ (i 2).val < win2_9.index ⟨(i 0).val, hi0⟩ (2 : Fin 3) * 40 + 40
    rw [e2]; omega

/-- THE ARRAY after the region: the per-tile class sums of the label array the region found and of the new features'
    array, entry by entry, given that the body's new features at a block are that array's rows. -/
theorem final (c : Dev nD) (Hn : Vec Ideal S100000x40 .f32)
    (hH : ∀ (t : Fin cfg2.N) (r : Fin 2000) (f : Fin 40),
      k2_pay2 (iblk2 V c 0 t) (iblk2 V c 1 t) (iblk2 V c 2 t) (iblk2 V c 3 t) (iblk2 V c 4 t) (iblk2 V c 5 t) (iblk2 V c 6 t) (ix2 r f)
        = Hn (ix2 (row t r) f)) :
    (dat2 V c).arrAt 9 cfg2.N = out (V c (Pipeline.arrRef spec2 7)) Hn :=
  (dat2 V c).arrAt_eq_of_cover 9 _ (fun t _ => flushed_eq V c Hn hH t) cover

end Cert.KernelIdeal.Region2C

end
-- ==== Proof.Region3.lean ====
/-
  The last region: what it leaves in its output array.

  Point `t` of the grid of 25 reads rows `4000·t … 4000·t + 3999` of the features `h`, of the neighbours' sums `s`,
  of the reciprocal column and of the class weights, and the whole `[40, 40]` array of class directions, and writes
  those rows of the result: at row `n`, feature `f`, the layer's output `h + ½ · (p · r) + ½ · (s · inv − h)`. The
  25 blocks tile the array, so the array ends as that function of the arrays the region found, entry by entry.
-/
import proofs.«421558_j42331197669872_3_alg».proof.Proof.Gen.KernelIdeal.Frame
import proofs.«421558_j42331197669872_3_alg».proof.Proof.Spec
import proofs.«421558_j42331197669872_3_alg».proof.Proof.LibPlainProduct
import Idealize.ShloMosaic.Lib.Pipeline.Value
import Idealize.ShloMosaic.Lib.ValueIdx

set_option maxRecDepth 16384

noncomputable section

namespace Cert.KernelIdeal.Region3

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The class-term product has the plain dimension numbers. -/
theorem plain_pr : Cert.Lib.PlainProduct.IsPlain (M := 4000) (K := 40) (N := 40) dot_S4000x40_S40x40_S4000x40_1_0_0_1_n_n :=
  ⟨rfl, rfl, rfl, rfl, rfl, rfl⟩

/-- The body's value at row `r`, feature `f` of a block: the layer's output of the blocks it loaded. -/
theorem pay_at (x0 x1 : Vec Ideal S4000x40 .f32) (x2 : Vec Ideal S4000x1 .f32) (x3 : Vec Ideal S4000x40 .f32)
    (x4 : Vec Ideal S40x40 .f32) (r : Fin 4000) (f : Fin 40) :
    k3_pay1 x0 x1 x2 x3 x4 (ix2 r f) = mixMul (N := 4000) (D := 40) x0 x1 x2 x3 x4 r f := by
  unfold k3_pay1 mixMul classTerm
  simp only [addf_apply, mulf_apply, subf_apply, broadcast_apply, shapeCast_self]
  rw [broadcastTo_apply x2 broadcasts_S4000x1_S4000x40 (ix2 r f) (ix2 r 0)
    (fun a => by match a with | ⟨0, _⟩ => rfl | ⟨1, _⟩ => rfl)]
  unfold matmul
  rw [Cert.Lib.PlainProduct.matmul_zero_apply plain_pr]
  rfl

/-- Row `r` of block `t` is row `4000·t + r` of the array. -/
def row (t : Fin 25) (r : Fin 4000) : Fin 100000 := ⟨t.val * 4000 + r.val, by have := t.isLt; have := r.isLt; omega⟩

/-- The printed index maps over the grid: every row-blocked window is at block `(t, 0)`, the class directions at `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The whole-array function: the layer's output of the arrays the region found. -/
def out (h s : Vec Ideal S100000x40 .f32) (inv : Vec Ideal S100000x1 .f32) (p : Vec Ideal S100000x40 .f32)
    (r : Vec Ideal S40x40 .f32) : Vec Ideal S100000x40 .f32 :=
  fun i => mixMul (N := 100000) (D := 40) h s inv p r (i 0) (i 1)

theorem blk0 (c : Dev nD) (t : Fin cfg3.N) (r : Fin 4000) (f : Fin 40) :
    iblk3 V c 0 t (ix2 r f) = V c (Pipeline.arrRef spec3 0) (ix2 (row t r) f) := by
  obtain ⟨e0, e1, -⟩ := idx_facts t
  show V c (Pipeline.arrRef spec3 0) (((cfg3.win 0).blk t).view.emb (ix2 r f)) = _
  refine congrArg _ (funext fun a => Fin.ext ?_)
  match a with
  | ⟨0, _⟩ => show win3_0.index t (0 : Fin 2) * 4000 + 1 * r.val = t.val * 4000 + r.val; rw [e0]; omega
  | ⟨1, _⟩ => show win3_0.index t (1 : Fin 2) * 40 + 1 * f.val = f.val; rw [e1]; omega

theorem blk1 (c : Dev nD) (t : Fin cfg3.N) (r : Fin 4000) (f : Fin 40) :
    iblk3 V c 1 t (ix2 r f) = V c (Pipeline.arrRef spec3 1) (ix2 (row t r) f) := by
  obtain ⟨-, -, e0, e1, -⟩ := idx_facts t
  show V c (Pipeline.arrRef spec3 1) (((cfg3.win 1).blk t).view.emb (ix2 r f)) = _
  refine congrArg _ (funext fun a => Fin.ext ?_)
  match a with
  | ⟨0, _⟩ => show win3_1.index t (0 : Fin 2) * 4000 + 1 * r.val = t.val * 4000 + r.val; rw [e0]; omega
  | ⟨1, _⟩ => show win3_1.index t (1 : Fin 2) * 40 + 1 * f.val = f.val; rw [e1]; omega

theorem blk2 (c : Dev nD) (t : Fin cfg3.N) (r : Fin 4000) :
    iblk3 V c 2 t (ix2 r 0) = V c (Pipeline.arrRef spec3 2) (ix2 (row t r) 0) := by
  obtain ⟨-, -, -, -, e0, e1, -⟩ := idx_facts t
  show V c (Pipeline.arrRef spec3 2) (((cfg3.win 2).blk t).view.emb (ix2 r 0)) = _
  refine congrArg _ (funext fun a => Fin.ext ?_)
  match a with
  | ⟨0, _⟩ => show win3_2.index t (0 : Fin 2) * 4000 + 1 * r.val = t.val * 4000 + r.val; rw [e0]; omega
  | ⟨1, _⟩ => show win3_2.index t (1 : Fin 2) * 1 + 1 * 0 = 0; rw [e1]

theorem blk3 (c : Dev nD) (t : Fin cfg3.N) (r : Fin 4000) (k : Fin 40) :
    iblk3 V c 3 t (ix2 r k) = V c (Pipeline.arrRef spec3 3) (ix2 (row t r) k) := by
  obtain ⟨-, -, -, -, -, -, e0, e1, -⟩ := idx_facts t
  show V c (Pipeline.arrRef spec3 3) (((cfg3.win 3).blk t).view.emb (ix2 r k)) = _
  refine congrArg _ (funext fun a => Fin.ext ?_)
  match a with
  | ⟨0, _⟩ => show win3_3.index t (0 : Fin 2) * 4000 + 1 * r.val = t.val * 4000 + r.val; rw [e0]; omega
  | ⟨1, _⟩ => show win3_3.index t (1 : Fin 2) * 40 + 1 * k.val = k.val; rw [e1]; omega

theorem blk4 (c : Dev nD) (t : Fin cfg3.N) (k f : Fin 40) :
    iblk3 V c 4 t (ix2 k f) = V c (Pipeline.arrRef spec3 4) (ix2 k f) := by
  obtain ⟨-, -, -, -, -, -, -, -, e0, e1, -⟩ := idx_facts t
  show V c (Pipeline.arrRef spec3 4) (((cfg3.win 4).blk t).view.emb (ix2 k f)) = _
  refine congrArg _ (funext fun a => Fin.ext ?_)
  match a with
  | ⟨0, _⟩ => show win3_4.index t (0 : Fin 2) * 40 + 1 * k.val = k.val; rw [e0]; omega
  | ⟨1, _⟩ => show win3_4.index t (1 : Fin 2) * 40 + 1 * f.val = f.val; rw [e1]; omega

/-- Entry `(r, f)` of the output's block `t` is entry `(4000·t + r, f)` of the array. -/
theorem emb5 (t : Fin cfg3.N) (r : Fin 4000) (f : Fin 40) :
    ((cfg3.win 5).blk t).view.emb (ix2 r f) = ix2 (row t r) f := by
  obtain ⟨-, -, -, -, -, -, -, -, -, -, e0, e1⟩ := idx_facts t
  refine funext fun a => Fin.ext ?_
  match a with
  | ⟨0, _⟩ => show win3_5.index t (0 : Fin 2) * 4000 + 1 * r.val = t.val * 4000 + r.val; rw [e0]; omega
  | ⟨1, _⟩ => show win3_5.index t (1 : Fin 2) * 40 + 1 * f.val = f.val; rw [e1]; omega

/-- What point `t` writes back is block `t` of the layer's output of the arrays the region found. -/
theorem flushed_eq (c : Dev nD) (t : Fin cfg3.N) :
    (dat3 V c).flushed 5 t = ((cfg3.win 5).blk t).view.read (Elt Ideal)
      (out (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S4000x40) hz, View.ld_unit_zero (S := S4000x1) hz, View.ld_unit_zero (S := S40x40) hz]
  funext j
  obtain ⟨r, f, rfl⟩ : ∃ (r : Fin 4000) (f : Fin 40), j = ix2 r f := ⟨j 0, j 1, eq_ix2 j⟩
  show k3_pay1 (iblk3 V c 0 t) (iblk3 V c 1 t) (iblk3 V c 2 t) (iblk3 V c 3 t) (iblk3 V c 4 t) (ix2 r f)
    = out (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 r f))
  refine (pay_at _ _ _ _ _ r f).trans ?_
  rw [emb5]
  show mixMul (N := 4000) (D := 40) (iblk3 V c 0 t) (iblk3 V c 1 t) (iblk3 V c 2 t) (iblk3 V c 3 t) (iblk3 V c 4 t) r f
    = mixMul (N := 100000) (D := 40) (V c (Pipeline.arrRef spec3 0)) (V c (Pipeline.arrRef spec3 1)) (V c (Pipeline.arrRef spec3 2))
        (V c (Pipeline.arrRef spec3 3)) (V c (Pipeline.arrRef spec3 4)) (row t r) f
  unfold mixMul classTerm
  rw [blk0, blk1, blk2]
  simp only [blk3, blk4]

/-- An index of the array is in point `t`'s block iff each coordinate is in the block's range on its axis. -/
theorem mem_blk (t : Fin cfg3.N) (i : S100000x40.Idx) :
    i ∈ ((cfg3.win 5).blk t).view.set ↔ ∀ a : Fin 2, win3_5.index t a * S4000x40.size a ≤ (i a).val
      ∧ (i a).val < win3_5.index t a * S4000x40.size a + S4000x40.size a := by
  show i ∈ ((View.whole main_v107).slice (win3_5.rect t)).set ↔ _
  rw [View.set_slice_whole, Rect.mem_set_unit]
  exact Iff.rfl

/-- Every entry of the array is in some point's block: row `n` in block `n / 4000`. -/
theorem cover (i : S100000x40.Idx) : ∃ t : Fin cfg3.N, (cfg3.win 5).flush t = true ∧ i ∈ ((cfg3.win 5).blk t).view.set := by
  have hi0 : (i 0).val < 100000 := (i 0).isLt
  have hi1 : (i 1).val < 40 := (i 1).isLt
  have ht : (i 0).val / 4000 < 25 := by omega
  refine ⟨⟨(i 0).val / 4000, ht⟩, flush3_5 _, ?_⟩
  rw [mem_blk]
  obtain ⟨-, -, -, -, -, -, -, -, -, -, e0, e1⟩ := idx_facts ⟨(i 0).val / 4000, ht⟩
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, ht⟩ (1 : Fin 2) * 40 ≤ (i 1).val
      ∧ (i 1).val < win3_5.index ⟨(i 0).val / 4000, ht⟩ (1 : Fin 2) * 40 + 40
    rw [e1]; omega

/-- THE ARRAY after the region: the layer's output of the arrays the region found, entry by entry. -/
theorem final (c : Dev nD) : (dat3 V c).arrAt 5 cfg3.N
    = out (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed_eq V c t) cover

end Cert.KernelIdeal.Region3

end
-- ==== Proof.RefRead.lean ====
/-
  The reference's stages read at an entry, over the extended reals.

  The reference runs three layers. Each takes the node features `h`, adds half the class term `p · r` and half of the
  neighbours' mean less `h` (the mean is the neighbours' sum divided by the clamped degree); the first two layers then
  rectify and apply a weight matrix and a bias. Here each stage that matters is read at one entry as the formula of
  `Cert.Spec` in the stages before it: the features of each layer (`v7_at`, `v64_at`, `v121_at`), the last layer's
  output (`v173_at`), the class sums each layer's class directions are made from (`c29_at`, `c86_at`, `c143_at`), and
  the fact that a clamped degree is not zero (`d23_ne`, `d80_ne`, `d137_ne`).
-/
import proofs.«421558_j42331197669872_3_alg».proof.Proof.RefStages
import proofs.«421558_j42331197669872_3_alg».proof.Proof.Spec
import proofs.«421558_j42331197669872_3_alg».proof.Proof.LibClassSum
import Idealize.ShloMosaic.PureOps.Ideal.Laws
import Idealize.ShloMosaic.Lib.ValueIdx
import Idealize.ShloMosaic.Lib.IdealHost

noncomputable section

open scoped BigOperators

namespace Cert.ReferenceIdeal.RefRead

open Cert.ReferenceIdeal Cert.ReferenceIdeal.Gen Cert.ReferenceIdeal.Read Cert.Spec
open Idealize.ShloMosaic Idealize.ShloMosaic.ValueIdx

variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 : (⟨S100000x40, .f32⟩ : BufTy).Contents (Elt Ideal))
  (x4 : (⟨S40x1x40, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x40, .f32⟩ : BufTy).Contents (Elt Ideal))
  (x10 : (⟨S40, .f32⟩ : BufTy).Contents (Elt Ideal))

/-! ## The first features -/

/-- The first layer's features at node `n`: the input row times the first weight matrix, plus the first bias. -/
theorem v7_at (n : Fin 100000) (f : Fin 128) :
    val_main_v7 (F := Ideal) x0 x5 x6 (ix2 n f) = lin (fun n k => x0 (ix2 n k)) x5 (fun f => x6 (ix1 f)) n f := by
  rw [val_main_v7_apply, val_main_v4_apply, val_main_v6_apply, val_main_v5_apply]
  unfold Cert.Spec.lin
  have e1 : ∀ k : Fin 128, lidx_main_v4 (ix2 n f) k = ix2 n k := fun k => funext fun a => Fin.ext (by match a with | ⟨0, _⟩ => rfl | ⟨1, _⟩ => rfl)
  have e2 : ∀ k : Fin 128, ridx_main_v4 (ix2 n f) k = ix2 k f := fun k => funext fun a => Fin.ext (by match a with | ⟨0, _⟩ => rfl | ⟨1, _⟩ => rfl)
  have e3 : idx_main_v5 (idx_main_v6 (ix2 n f)) = ix1 f := funext fun a => Fin.ext (by match a with | ⟨0, _⟩ => rfl)
  simp only [e1, e2, e3, Ideal.addf_def]

/-! ## The first layer -/

/-- The first layer's output at node `n`, feature `k`: the features plus half the class term plus half of the
    neighbours' mean (their sum divided by the clamped degree) less the features. -/
theorem v59_at (n : Fin 100000) (k : Fin 128) :
    val_main_v59 (F := Ideal) x0 x1 x2 x3 x4 x5 x6 (ix2 n k) = mixDiv (val_main_v7 (F := Ideal) x0 x5 x6) (val_main_v17 (F := Ideal) x0 x1 x5 x6) (val_main_v23 (F := Ideal) x1) x3 (val_main_v51 (F := Ideal) x0 x2 x4 x5 x6) n k := by
  rw [val_main_v59_apply, val_main_v55_apply, val_main_v54_apply, val_main_v53_apply, val_main_cst_10_apply,
    val_main_v52_apply, val_main_v58_apply, val_main_v57_apply, val_main_cst_11_apply, val_main_v56_apply,
    val_main_v26_apply, val_main_v25_apply, val_main_v24_apply]
  unfold Cert.Spec.mixDiv Cert.Spec.classTerm
  have e1 : ∀ c : Fin 40, lidx_main_v52 (ix2 n k) c = ix2 n c := fun c => funext fun a => Fin.ext (by match a with | ⟨0, _⟩ => rfl | ⟨1, _⟩ => rfl)
  have e2 : ∀ c : Fin 40, ridx_main_v52 (ix2 n k) c = ix2 c k := fun c => funext fun a => Fin.ext (by match a with | ⟨0, _⟩ => rfl | ⟨1, _⟩ => rfl)
  have e3 : idx_main_v24 (idx_main_v25 (ix2 n k)) = ix1 n := funext fun a => Fin.ext (by match a with | ⟨0, _⟩ => rfl)
  simp only [e1, e2, e3, Ideal.addf_def, Ideal.mulf_def, Ideal.subf_def, Ideal.hostDivf_def, Ideal.ofBits_def]

/-- The same rectified. -/
theorem v60_at (n : Fin 100000) (k : Fin 128) :
    val_main_v60 (F := Ideal) x0 x1 x2 x3 x4 x5 x6 (ix2 n k) = relu (mixDiv (val_main_v7 (F := Ideal) x0 x5 x6) (val_main_v17 (F := Ideal) x0 x1 x5 x6) (val_main_v23 (F := Ideal) x1) x3 (val_main_v51 (F := Ideal) x0 x2 x4 x5 x6)) n k := by
  rw [val_main_v60_apply, val_main_call2_v0_apply, val_main_call2_cst_apply, v59_at]
  unfold Cert.Spec.relu
  simp only [Ideal.maximumf_def, Ideal.ofBits_def]

/-- The next layer's features at node `n`: the rectified output's row times the next weight matrix, plus the next bias. -/
theorem v64_at (n : Fin 100000) (f : Fin 128) :
    val_main_v64 (F := Ideal) x0 x1 x2 x3 x4 x5 x6 x7 x8 (ix2 n f) = lin (relu (mixDiv (val_main_v7 (F := Ideal) x0 x5 x6) (val_main_v17 (F := Ideal) x0 x1 x5 x6) (val_main_v23 (F := Ideal) x1) x3 (val_main_v51 (F := Ideal) x0 x2 x4 x5 x6))) x7 (fun f => x8 (ix1 f)) n f := by
  rw [val_main_v64_apply, val_main_v61_apply, val_main_v63_apply, val_main_v62_apply]
  unfold Cert.Spec.lin
  have e1 : ∀ k : Fin 128, lidx_main_v61 (ix2 n f) k = ix2 n k := fun k => funext fun a => Fin.ext (by match a with | ⟨0, _⟩ => rfl | ⟨1, _⟩ => rfl)
  have e2 : ∀ k : Fin 128, ridx_main_v61 (ix2 n f) k = ix2 k f := fun k => funext fun a => Fin.ext (by match a with | ⟨0, _⟩ => rfl | ⟨1, _⟩ => rfl)
  have e3 : idx_main_v62 (idx_main_v63 (ix2 n f)) = ix1 f := funext fun a => Fin.ext (by match a with | ⟨0, _⟩ => rfl)
  simp only [e1, e2, e3, Ideal.addf_def, v60_at]

/-! ## The second layer -/

/-- The second layer's output at node `n`, feature `k`: the features plus half the class term plus half of the
    neighbours' mean (their sum divided by the clamped degree) less the features. -/
theorem v116_at (n : Fin 100000) (k : Fin 128) :
    val_main_v116 (F := Ideal) x0 x1 x2 x3 x4 x5 x6 x7 x8 (ix2 n k) = mixDiv (val_main_v64 (F := Ideal) x0 x1 x2 x3 x4 x5 x6 x7 x8) (val_main_v74 (F := Ideal) x0 x1 x2 x3 x4 x5 x6 x7 x8) (val_main_v80 (F := Ideal) x1) x3 (val_main_v108 (F := Ideal) x0 x1 x2 x3 x4 x5 x6 x7 x8) n k := by
  rw [val_main_v116_apply, val_main_v112_apply, val_main_v111_apply, val_main_v110_apply, val_main_cst_24_apply,
    val_main_v109_apply, val_main_v115_apply, val_main_v114_apply, val_main_cst_25_apply, val_main_v113_apply,
    val_main_v83_apply, val_main_v82_apply, val_main_v81_apply]
  unfold Cert.Spec.mixDiv Cert.Spec.classTerm
  have e1 : ∀ c : Fin 40, lidx_main_v109 (ix2 n k) c = ix2 n c := fun c => funext fun a => Fin.ext (by match a with | ⟨0, _⟩ => rfl | ⟨1, _⟩ => rfl)
  have e2 : ∀ c : Fin 40, ridx_main_v109 (ix2 n k) c = ix2 c k := fun c => funext fun a => Fin.ext (by match a with | ⟨0, _⟩ => rfl | ⟨1, _⟩ => rfl)
  have e3 : idx_main_v81 (idx_main_v82 (ix2 n k)) = ix1 n := funext fun a => Fin.ext (by match a with | ⟨0, _⟩ => rfl)
  simp only [e1, e2, e3, Ideal.addf_def, Ideal.mulf_def, Ideal.subf_def, Ideal.hostDivf_def, Ideal.ofBits_def]

/-- The same rectified. -/
theorem v117_at (n : Fin 100000) (k : Fin 128) :
    val_main_v117 (F := Ideal) x0 x1 x2 x3 x4 x5 x6 x7 x8 (ix2 n k) = relu (mixDiv (val_main_v64 (F := Ideal) x0 x1 x2 x3 x4 x5 x6 x7 x8) (val_main_v74 (F := Ideal) x0 x1 x2 x3 x4 x5 x6 x7 x8) (val_main_v80 (F := Ideal) x1) x3 (val_main_v108 (F := Ideal) x0 x1 x2 x3 x4 x5 x6 x7 x8)) n k := by
  rw [val_main_v117_apply, val_main_call5_v0_apply, val_main_call5_cst_apply, v116_at]
  unfold Cert.Spec.relu
  simp only [Ideal.maximumf_def, Ideal.ofBits_def]

/-- The next layer's features at node `n`: the rectified output's row times the next weight matrix, plus the next bias. -/
theorem v121_at (n : Fin 100000) (f : Fin 40) :
    val_main_v121 (F := Ideal) x0 x1 x2 x3 x4 x5 x6 x7 x8 x9 x10 (ix2 n f) = lin (relu (mixDiv (val_main_v64 (F := Ideal) x0 x1 x2 x3 x4 x5 x6 x7 x8) (val_main_v74 (F := Ideal) x0 x1 x2 x3 x4 x5 x6 x7 x8) (val_main_v80 (F := Ideal) x1) x3 (val_main_v108 (F := Ideal) x0 x1 x2 x3 x4 x5 x6 x7 x8))) x9 (fun f => x10 (ix1 f)) n f := by
  rw [val_main_v121_apply, val_main_v118_apply, val_main_v120_apply, val_main_v119_apply]
  unfold Cert.Spec.lin
  have e1 : ∀ k : Fin 128, lidx_main_v118 (ix2 n f) k = ix2 n k := fun k => funext fun a => Fin.ext (by match a with | ⟨0, _⟩ => rfl | ⟨1, _⟩ => rfl)
  have e2 : ∀ k : Fin 128, ridx_main_v118 (ix2 n f) k = ix2 k f := fun k => funext fun a => Fin.ext (by match a with | ⟨0, _⟩ => rfl | ⟨1, _⟩ => rfl)
  have e3 : idx_main_v119 (idx_main_v120 (ix2 n f)) = ix1 f := funext fun a => Fin.ext (by match a with | ⟨0, _⟩ => rfl)
  simp only [e1, e2, e3, Ideal.addf_def, v117_at]

/-! ## The third layer -/

/-- The third layer's output at node `n`, feature `k`: the features plus half the class term plus half of the
    neighbours' mean (their sum divided by the clamped degree) less the features. -/
theorem v173_at (n : Fin 100000) (k : Fin 40) :
    val_main_v173 (F := Ideal) x0 x1 x2 x3 x4 x5 x6 x7 x8 x9 x10 (ix2 n k) = mixDiv (val_main_v121 (F := Ideal) x0 x1 x2 x3 x4 x5 x6 x7 x8 x9 x10) (val_main_v131 (F := Ideal) x0 x1 x2 x3 x4 x5 x6 x7 x8 x9 x10) (val_main_v137 (F := Ideal) x1) x3 (val_main_v165 (F := Ideal) x0 x1 x2 x3 x4 x5 x6 x7 x8 x9 x10) n k := by
  rw [val_main_v173_apply, val_main_v169_apply, val_main_v168_apply, val_main_v167_apply, val_main_cst_38_apply,
    val_main_v166_apply, val_main_v172_apply, val_main_v171_apply, val_main_cst_39_apply, val_main_v170_apply,
    val_main_v140_apply, val_main_v139_apply, val_main_v138_apply]
  unfold Cert.Spec.mixDiv Cert.Spec.classTerm
  have e1 : ∀ c : Fin 40, lidx_main_v166 (ix2 n k) c = ix2 n c := fun c => funext fun a => Fin.ext (by match a with | ⟨0, _⟩ => rfl | ⟨1, _⟩ => rfl)
  have e2 : ∀ c : Fin 40, ridx_main_v166 (ix2 n k) c = ix2 c k := fun c => funext fun a => Fin.ext (by match a with | ⟨0, _⟩ => rfl | ⟨1, _⟩ => rfl)
  have e3 : idx_main_v138 (idx_main_v139 (ix2 n k)) = ix1 n := funext fun a => Fin.ext (by match a with | ⟨0, _⟩ => rfl)
  simp only [e1, e2, e3, Ideal.addf_def, Ideal.mulf_def, Ideal.subf_def, Ideal.hostDivf_def, Ideal.ofBits_def]

/-! ## The class sums -/

/-- The first layer's class sums: at class `c`, feature `f`, the sum of the features over the nodes whose label is `c`. -/
theorem c29_at (c : Fin 40) (f : Fin 128) :
    val_main_v29 (F := Ideal) x0 x2 x5 x6 (ix2 c f) = ∑ n : Fin 100000, ind (x2 (ix1 n)) c * val_main_v7 (F := Ideal) x0 x5 x6 (ix2 n f) := by
  have hs : Cert.Lib.ClassSum.IsRowScatter scatter_S40x128_S100000x1_S100000x128_1_0_0_1 := ⟨rfl, rfl, rfl, rfl⟩
  unfold val_main_v29
  rw [Cert.Lib.ClassSum.scatterAdd_apply hs, val_main_v27_apply, val_main_cst_4_apply, Ideal.ofBits_def, Ideal.ofBits_zero_f32, zero_add]
  refine Finset.sum_congr rfl fun n _ => ?_
  have e : idx_main_v28 (ix2 n 0) = ix1 n := funext fun a => Fin.ext (by match a with | ⟨0, _⟩ => rfl)
  rw [val_main_v28_apply, e]
  unfold Cert.Spec.ind
  by_cases hn : (x2 (ix1 n)).toInt = (c.val : Int)
  · rw [if_pos hn, if_pos hn, one_mul]
  · rw [if_neg hn, if_neg hn, zero_mul]

/-- The second layer's class sums: at class `c`, feature `f`, the sum of the features over the nodes whose label is `c`. -/
theorem c86_at (c : Fin 40) (f : Fin 128) :
    val_main_v86 (F := Ideal) x0 x1 x2 x3 x4 x5 x6 x7 x8 (ix2 c f) = ∑ n : Fin 100000, ind (x2 (ix1 n)) c * val_main_v64 (F := Ideal) x0 x1 x2 x3 x4 x5 x6 x7 x8 (ix2 n f) := by
  have hs : Cert.Lib.ClassSum.IsRowScatter scatter_S40x128_S100000x1_S100000x128_1_0_0_1 := ⟨rfl, rfl, rfl, rfl⟩
  unfold val_main_v86
  rw [Cert.Lib.ClassSum.scatterAdd_apply hs, val_main_v84_apply, val_main_cst_18_apply, Ideal.ofBits_def, Ideal.ofBits_zero_f32, zero_add]
  refine Finset.sum_congr rfl fun n _ => ?_
  have e : idx_main_v85 (ix2 n 0) = ix1 n := funext fun a => Fin.ext (by match a with | ⟨0, _⟩ => rfl)
  rw [val_main_v85_apply, e]
  unfold Cert.Spec.ind
  by_cases hn : (x2 (ix1 n)).toInt = (c.val : Int)
  · rw [if_pos hn, if_pos hn, one_mul]
  · rw [if_neg hn, if_neg hn, zero_mul]

/-- The third layer's class sums: at class `c`, feature `f`, the sum of the features over the nodes whose label is `c`. -/
theorem c143_at (c : Fin 40) (f : Fin 40) :
    val_main_v143 (F := Ideal) x0 x1 x2 x3 x4 x5 x6 x7 x8 x9 x10 (ix2 c f) = ∑ n : Fin 100000, ind (x2 (ix1 n)) c * val_main_v121 (F := Ideal) x0 x1 x2 x3 x4 x5 x6 x7 x8 x9 x10 (ix2 n f) := by
  have hs : Cert.Lib.ClassSum.IsRowScatter scatter_S40x40_S100000x1_S100000x40_1_0_0_1 := ⟨rfl, rfl, rfl, rfl⟩
  unfold val_main_v143
  rw [Cert.Lib.ClassSum.scatterAdd_apply hs, val_main_v141_apply, val_main_cst_32_apply, Ideal.ofBits_def, Ideal.ofBits_zero_f32, zero_add]
  refine Finset.sum_congr rfl fun n _ => ?_
  have e : idx_main_v142 (ix2 n 0) = ix1 n := funext fun a => Fin.ext (by match a with | ⟨0, _⟩ => rfl)
  rw [val_main_v142_apply, e]
  unfold Cert.Spec.ind
  by_cases hn : (x2 (ix1 n)).toInt = (c.val : Int)
  · rw [if_pos hn, if_pos hn, one_mul]
  · rw [if_neg hn, if_neg hn, zero_mul]

/-! ## The clamped degrees -/

/-- The first layer's clamped degree is at least one, so it is not zero. -/
theorem d23_ne (n : Fin 100000) : val_main_v23 (F := Ideal) x1 (ix1 n) ≠ 0 := by
  rw [val_main_v23_apply, val_main_v22_apply, val_main_cst_3_apply, Ideal.maximumf_def, Ideal.ofBits_def, Ideal.ofBits_one_f32]
  exact (lt_of_lt_of_le zero_lt_one (le_max_right _ _)).ne'

/-- The second layer's clamped degree is at least one, so it is not zero. -/
theorem d80_ne (n : Fin 100000) : val_main_v80 (F := Ideal) x1 (ix1 n) ≠ 0 := by
  rw [val_main_v80_apply, val_main_v79_apply, val_main_cst_17_apply, Ideal.maximumf_def, Ideal.ofBits_def, Ideal.ofBits_one_f32]
  exact (lt_of_lt_of_le zero_lt_one (le_max_right _ _)).ne'

/-- The third layer's clamped degree is at least one, so it is not zero. -/
theorem d137_ne (n : Fin 100000) : val_main_v137 (F := Ideal) x1 (ix1 n) ≠ 0 := by
  rw [val_main_v137_apply, val_main_v136_apply, val_main_cst_31_apply, Ideal.maximumf_def, Ideal.ofBits_def, Ideal.ofBits_one_f32]
  exact (lt_of_lt_of_le zero_lt_one (le_max_right _ _)).ne'

end Cert.ReferenceIdeal.RefRead

end
-- ==== Proof.LibTileSum.lean ====
/-
  Three readings at an entry, over the extended reals where a sum is involved.

  The host's sum of a `[T, C, D]` array over its leading axis, into a zero initial value, is at entry `(c, f)` the sum
  over `t` of the entries `(t, c, f)`. A vector reshaped to a one-row matrix reads, at `(0, f)`, the vector at `f`; reshaped
  to a one-column matrix it reads, at `(n, 0)`, the vector at `n`.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.Lib.TileSum

open Idealize.ShloMosaic Idealize.ShloMosaic.ValueIdx

variable {T C D N : Nat}

/-- Over result entry `(c, f)`, the source index with `t` inserted on the leading axis is `(t, c, f)`. -/
theorem lift_lead (h : (⟨3, ![T, C, D]⟩ : Shape).Reduces [0] ⟨2, ![C, D]⟩) (c : Fin C) (f : Fin D)
    (t : Fin ((⟨3, ![T, C, D]⟩ : Shape).size 0)) :
    h.lift (ix2 c f) t = ix3 (n0 := T) t c f := by
  funext a
  apply Fin.ext
  show h.liftVal (ix2 c f) t.val a = _
  unfold Shape.Reduces.liftVal
  match a with
  | ⟨0, _⟩ => simp
  | ⟨1, _⟩ => simp
  | ⟨2, _⟩ => simp

/-- The host's sum over the leading axis, from the zero initial value, at an entry. -/
theorem reduce_lead (h' : (⟨3, ![T, C, D]⟩ : Shape).ReducesTo [0] ⟨2, ![C, D]⟩)
    (h : (⟨3, ![T, C, D]⟩ : Shape).Reduces [0] ⟨2, ![C, D]⟩) (hu : 0 < (⟨0, ![]⟩ : Shape).numel)
    (X : FVec Ideal ⟨3, ![T, C, D]⟩ .f32) (c : Fin C) (f : Fin D) :
    Host.reduceAdd X (constant ⟨0, ![]⟩ .f32 0x00000000#32) h' hu (ix2 c f) = ∑ t : Fin T, X (ix3 t c f) := by
  show _ = ∑ t : Fin ((⟨3, ![T, C, D]⟩ : Shape).size 0), X (ix3 (n0 := T) t c f)
  rw [hostReduceAdd_apply, Ideal.hostReduceAdd_single h' h]
  show Ideal.ofBits .f32 0x00000000#32 + _ = _
  rw [Ideal.ofBits_zero_f32, zero_add]
  exact Finset.sum_congr rfl fun t _ => congrArg X (lift_lead h c f t)

/-- A vector as a one-row matrix, at `(0, f)`. -/
theorem cast_row {α : Type} (a : (⟨1, ![D]⟩ : Shape).Idx → α) (h : (⟨1, ![D]⟩ : Shape).ShapeCasts ⟨2, ![1, D]⟩) (f : Fin D) :
    shapeCast ⟨2, ![1, D]⟩ a h (ix2 0 f) = a (ix1 f) := by
  refine shapeCast_apply a h (ix2 0 f) (ix1 f) ?_
  rw [Shape.rowMajor_val_one, Shape.rowMajor_val_two]
  show f.val = (0 : Fin 1).val * D + f.val
  simp

/-- A vector as a one-column matrix, at `(n, 0)`. -/
theorem cast_col {α : Type} (a : (⟨1, ![N]⟩ : Shape).Idx → α) (h : (⟨1, ![N]⟩ : Shape).ShapeCasts ⟨2, ![N, 1]⟩) (n : Fin N) :
    shapeCast ⟨2, ![N, 1]⟩ a h (ix2 n 0) = a (ix1 n) := by
  refine shapeCast_apply a h (ix2 n 0) (ix1 n) ?_
  rw [Shape.rowMajor_val_one, Shape.rowMajor_val_two]
  show n.val = n.val * 1 + (0 : Fin 1).val
  simp

end Cert.Lib.TileSum

end
-- ==== Proof.BridgeLayers.lean ====
/-
  Each region's array function is the reference's stage.

  A region of the kernel leaves in its output the layer's formula with the neighbours' mean written as their sum TIMES
  a reciprocal column; the reference's stage is the same formula with the sum DIVIDED by the clamped degree. The column
  the kernel's host makes is one over the clamped degree, entry by entry, and a clamped degree is not zero, so the two
  forms agree (`Cert.Spec.mixMul_eq_mixDiv`). The bias the kernel reads as a one-row matrix is the reference's vector.
  Hence, over the reference's own earlier stages as inputs, every region's array function equals the reference's stage
  as a whole array.
-/
import proofs.«421558_j42331197669872_3_alg».proof.Proof.Region0
import proofs.«421558_j42331197669872_3_alg».proof.Proof.Region1H
import proofs.«421558_j42331197669872_3_alg».proof.Proof.Region3
import proofs.«421558_j42331197669872_3_alg».proof.Proof.RefRead
import proofs.«421558_j42331197669872_3_alg».proof.Proof.LibTileSum
import proofs.«421558_j42331197669872_3_alg».proof.Proof.Spec
import Idealize.ShloMosaic.Lib.ValueIdx
import Idealize.ShloMosaic.Lib.IdealHost

noncomputable section

open scoped BigOperators

namespace Cert.Proof.Layers

open Cert.KernelIdeal Cert.KernelIdeal.Facts₀ Cert.Spec
open Cert.ReferenceIdeal.Read Cert.ReferenceIdeal.RefRead
open Idealize.ShloMosaic Idealize.ShloMosaic.ValueIdx

/-! ## The reciprocal column, and the two forms of a layer under a linear map -/

/-- The column the kernel's host makes from a degree vector `d` — the splat of one divided by `d`, as a one-column
    matrix — is at row `n` one over `d n`. -/
theorem inv_at (d : FVec Ideal S100000 .f32) (n : Fin 100000) :
    shapeCast S100000x1 (Host.divf (broadcastInDim S100000 ![] bcast_S_S100000 (constant S_ .f32 0x3F800000#32)) d)
        shapeCasts_S100000_S100000x1 (ix2 n 0)
      = Ideal.div Cert.Spec.one32 (d (ix1 n)) :=
  (Cert.Lib.TileSum.cast_col _ shapeCasts_S100000_S100000x1 n).trans
    (by rw [hostDivf_apply, broadcastInDim_scalar_apply, constant_apply])

section General

variable {N D E : Nat}

/-- A linear map of the same rows with the same weights and equal biases. -/
theorem lin_bias (o : Fin N → Fin D → EReal) (w : (⟨2, ![D, E]⟩ : Shape).Idx → EReal) (b b' : Fin E → EReal)
    (hb : ∀ f, b f = b' f) (n : Fin N) (f : Fin E) : lin o w b n f = lin o w b' n f := by
  rw [show b = b' from funext hb]

/-- The rectified layer under a linear map: with the mean as the sum times a reciprocal column that is one over a
    divisor nowhere zero, it is the same as with the mean as the sum divided by that divisor; the biases equal. -/
theorem lin_relu_mix (h s : (⟨2, ![N, D]⟩ : Shape).Idx → EReal) (inv : (⟨2, ![N, 1]⟩ : Shape).Idx → EReal)
    (d : (⟨1, ![N]⟩ : Shape).Idx → EReal) (p : (⟨2, ![N, 40]⟩ : Shape).Idx → EReal) (r : (⟨2, ![40, D]⟩ : Shape).Idx → EReal)
    (w : (⟨2, ![D, E]⟩ : Shape).Idx → EReal) (b b' : Fin E → EReal)
    (hinv : ∀ n, inv (ix2 n 0) = Ideal.div one32 (d (ix1 n))) (hd : ∀ n, d (ix1 n) ≠ 0) (hb : ∀ f, b f = b' f)
    (n : Fin N) (f : Fin E) :
    lin (relu (mixMul h s inv p r)) w b n f = lin (relu (mixDiv h s d p r)) w b' n f := by
  have h1 : relu (mixMul h s inv p r) = relu (mixDiv h s d p r) := funext fun n => funext fun k => by
    unfold relu
    rw [mixMul_eq_mixDiv h s inv d p r n k (hinv n) (hd n)]
  rw [h1, show b = b' from funext hb]

end General

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S100000, .i32⟩ : BufTy).Contents (Elt Ideal))
  (x3 : (⟨Cert.ReferenceIdeal.S100000x40, .f32⟩ : BufTy).Contents (Elt Ideal))
  (x4 : (⟨Cert.ReferenceIdeal.S40x1x40, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S128x128, .f32⟩ : BufTy).Contents (Elt Ideal))
  (x8 : (⟨Cert.ReferenceIdeal.S128, .f32⟩ : BufTy).Contents (Elt Ideal))
  (x9 : (⟨Cert.ReferenceIdeal.S128x40, .f32⟩ : BufTy).Contents (Elt Ideal))
  (x10 : (⟨Cert.ReferenceIdeal.S40, .f32⟩ : BufTy).Contents (Elt Ideal))

/-! ## The last layer -/

/-- The last region's array function, over the reference's stages, is the reference's result. -/
theorem layer3 :
    Cert.KernelIdeal.Region3.out (val_main_v121 (F := Ideal) x0 x1 x2 x3 x4 x5 x6 x7 x8 x9 x10) (val_main_v131 (F := Ideal) x0 x1 x2 x3 x4 x5 x6 x7 x8 x9 x10)
        (shapeCast S100000x1 (Host.divf (F := Ideal) (broadcastInDim S100000 ![] bcast_S_S100000 (constant S_ .f32 0x3F800000#32)) (val_main_v137 (F := Ideal) x1)) shapeCasts_S100000_S100000x1)
        x3 (val_main_v165 (F := Ideal) x0 x1 x2 x3 x4 x5 x6 x7 x8 x9 x10)
      = val_main_v173 (F := Ideal) x0 x1 x2 x3 x4 x5 x6 x7 x8 x9 x10 := by
  funext i
  obtain ⟨n, k, rfl⟩ : ∃ (n : Fin 100000) (k : Fin 40), i = ix2 n k := ⟨i 0, i 1, eq_ix2 i⟩
  refine Eq.trans ?_ (v173_at x0 x1 x2 x3 x4 x5 x6 x7 x8 x9 x10 n k).symm
  show mixMul (N := 100000) (D := 40) (val_main_v121 (F := Ideal) x0 x1 x2 x3 x4 x5 x6 x7 x8 x9 x10) (val_main_v131 (F := Ideal) x0 x1 x2 x3 x4 x5 x6 x7 x8 x9 x10)
      (shapeCast S100000x1 (Host.divf (F := Ideal) (broadcastInDim S100000 ![] bcast_S_S100000 (constant S_ .f32 0x3F800000#32)) (val_main_v137 (F := Ideal) x1)) shapeCasts_S100000_S100000x1)
      x3 (val_main_v165 (F := Ideal) x0 x1 x2 x3 x4 x5 x6 x7 x8 x9 x10) n k = _
  exact mixMul_eq_mixDiv _ _ _ (val_main_v137 (F := Ideal) x1) _ _ n k (inv_at _ n) (d137_ne x1 n)

/-! ## The first features -/

/-- The first region's features, over the program's arguments, are the reference's first features. -/
theorem layer0 :
    Cert.KernelIdeal.Region0.outH x0 x5 (shapeCast S1x128 x6 shapeCasts_S128_S1x128) = val_main_v7 (F := Ideal) x0 x5 x6 := by
  funext i
  obtain ⟨n, f, rfl⟩ : ∃ (n : Fin 100000) (f : Fin 128), i = ix2 n f := ⟨i 0, i 1, eq_ix2 i⟩
  refine Eq.trans ?_ (v7_at x0 x5 x6 n f).symm
  show lin (N := 100000) (D := 128) (E := 128) (fun n k => x0 (ix2 n k)) x5
      (fun f => shapeCast S1x128 x6 shapeCasts_S128_S1x128 (ix2 0 f)) n f = _
  exact lin_bias _ _ _ _ (fun f => Cert.Lib.TileSum.cast_row x6 shapeCasts_S128_S1x128 f) n f

/-! ## The first layer -/

/-- The second region's features, over the reference's stages, are the reference's second features. -/
theorem layer1 :
    Cert.KernelIdeal.Region1H.out (val_main_v7 (F := Ideal) x0 x5 x6) (val_main_v17 (F := Ideal) x0 x1 x5 x6)
        (shapeCast S100000x1 (Host.divf (F := Ideal) (broadcastInDim S100000 ![] bcast_S_S100000 (constant S_ .f32 0x3F800000#32)) (val_main_v23 (F := Ideal) x1)) shapeCasts_S100000_S100000x1)
        x3 (val_main_v51 (F := Ideal) x0 x2 x4 x5 x6) x7 (shapeCast S1x128 x8 shapeCasts_S128_S1x128)
      = val_main_v64 (F := Ideal) x0 x1 x2 x3 x4 x5 x6 x7 x8 := by
  funext i
  obtain ⟨n, f, rfl⟩ : ∃ (n : Fin 100000) (f : Fin 128), i = ix2 n f := ⟨i 0, i 1, eq_ix2 i⟩
  refine Eq.trans ?_ (v64_at x0 x1 x2 x3 x4 x5 x6 x7 x8 n f).symm
  show lin (N := 100000) (D := 128) (E := 128)
      (relu (mixMul (val_main_v7 (F := Ideal) x0 x5 x6) (val_main_v17 (F := Ideal) x0 x1 x5 x6)
        (shapeCast S100000x1 (Host.divf (F := Ideal) (broadcastInDim S100000 ![] bcast_S_S100000 (constant S_ .f32 0x3F800000#32)) (val_main_v23 (F := Ideal) x1)) shapeCasts_S100000_S100000x1)
        x3 (val_main_v51 (F := Ideal) x0 x2 x4 x5 x6)))
      x7 (fun f => shapeCast S1x128 x8 shapeCasts_S128_S1x128 (ix2 0 f)) n f = _
  exact lin_relu_mix _ _ _ (val_main_v23 (F := Ideal) x1) _ _ _ _ _ (fun n => inv_at _ n) (fun n => d23_ne x1 n)
    (fun f => Cert.Lib.TileSum.cast_row x8 shapeCasts_S128_S1x128 f) n f

end Cert.Proof.Layers

end
-- ==== Proof.BridgeLayer2.lean ====
/-
  The third region's array function is the reference's third features.

  Region 2 leaves, at node `n` and feature `f`, the rectified second-layer output — the features plus half the class
  term plus half of the neighbours' sum TIMES the reciprocal column, less the features — times the third weight matrix,
  plus the third bias read as a one-row matrix. The reference's stage is the same with the neighbours' sum DIVIDED by
  the clamped degree and the bias as a vector. The column is one over the clamped degree entry by entry, and a clamped
  degree is at least one, so the two agree as whole arrays.
-/
import proofs.«421558_j42331197669872_3_alg».proof.Proof.BridgeLayers
import proofs.«421558_j42331197669872_3_alg».proof.Proof.Region2H

noncomputable section

open scoped BigOperators

namespace Cert.Proof.Layers

open Cert.KernelIdeal Cert.KernelIdeal.Facts₀ Cert.Spec
open Cert.ReferenceIdeal.Read Cert.ReferenceIdeal.RefRead
open Idealize.ShloMosaic Idealize.ShloMosaic.ValueIdx

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S100000, .i32⟩ : BufTy).Contents (Elt Ideal))
  (x3 : (⟨Cert.ReferenceIdeal.S100000x40, .f32⟩ : BufTy).Contents (Elt Ideal))
  (x4 : (⟨Cert.ReferenceIdeal.S40x1x40, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S128x128, .f32⟩ : BufTy).Contents (Elt Ideal))
  (x8 : (⟨Cert.ReferenceIdeal.S128, .f32⟩ : BufTy).Contents (Elt Ideal))
  (x9 : (⟨Cert.ReferenceIdeal.S128x40, .f32⟩ : BufTy).Contents (Elt Ideal))
  (x10 : (⟨Cert.ReferenceIdeal.S40, .f32⟩ : BufTy).Contents (Elt Ideal))

/-- The third region's features, over the reference's stages, are the reference's third features. -/
theorem layer2 :
    Cert.KernelIdeal.Region2H.out (val_main_v64 (F := Ideal) x0 x1 x2 x3 x4 x5 x6 x7 x8) (val_main_v74 (F := Ideal) x0 x1 x2 x3 x4 x5 x6 x7 x8)
        (shapeCast S100000x1 (Host.divf (F := Ideal) (broadcastInDim S100000 ![] bcast_S_S100000 (constant S_ .f32 0x3F800000#32)) (val_main_v80 (F := Ideal) x1)) shapeCasts_S100000_S100000x1)
        x3 (val_main_v108 (F := Ideal) x0 x1 x2 x3 x4 x5 x6 x7 x8) x9 (shapeCast S1x40 x10 shapeCasts_S40_S1x40)
      = val_main_v121 (F := Ideal) x0 x1 x2 x3 x4 x5 x6 x7 x8 x9 x10 := by
  funext i
  obtain ⟨n, f, rfl⟩ : ∃ (n : Fin 100000) (f : Fin 40), i = ix2 n f := ⟨i 0, i 1, eq_ix2 i⟩
  refine Eq.trans ?_ (v121_at x0 x1 x2 x3 x4 x5 x6 x7 x8 x9 x10 n f).symm
  show lin (N := 100000) (D := 128) (E := 40)
      (relu (mixMul (val_main_v64 (F := Ideal) x0 x1 x2 x3 x4 x5 x6 x7 x8) (val_main_v74 (F := Ideal) x0 x1 x2 x3 x4 x5 x6 x7 x8)
        (shapeCast S100000x1 (Host.divf (F := Ideal) (broadcastInDim S100000 ![] bcast_S_S100000 (constant S_ .f32 0x3F800000#32)) (val_main_v80 (F := Ideal) x1)) shapeCasts_S100000_S100000x1)
        x3 (val_main_v108 (F := Ideal) x0 x1 x2 x3 x4 x5 x6 x7 x8)))
      x9 (fun f => shapeCast S1x40 x10 shapeCasts_S40_S1x40 (ix2 0 f)) n f = _
  exact lin_relu_mix _ _ _ (val_main_v80 (F := Ideal) x1) _ _ _ _ _ (fun n => inv_at _ n) (fun n => d80_ne x1 n)
    (fun f => Cert.Lib.TileSum.cast_row x10 shapeCasts_S40_S1x40 f) n f

end Cert.Proof.Layers

end
-- ==== Proof.BridgeClass.lean ====
/-
  The per-tile class sums, added over the tiles, are the reference's class sums.

  Each of the first three regions leaves an array of per-tile class sums: at tile `t`, class `c`, feature `f`, the sum
  over the tile's rows of the feature `f` of the rows whose label is `c`. The host adds that array over its leading
  axis. A sum over all `100000` rows is the sum over the tiles of the sums over a tile's rows, so the host's result at
  `(c, f)` is the sum over every row whose label is `c` of its feature `f` — which is what the reference's scatter of
  the rows into the classes holds there.
-/
import proofs.«421558_j42331197669872_3_alg».proof.Proof.Region0
import proofs.«421558_j42331197669872_3_alg».proof.Proof.Region1C
import proofs.«421558_j42331197669872_3_alg».proof.Proof.Region2C
import proofs.«421558_j42331197669872_3_alg».proof.Proof.RefRead
import proofs.«421558_j42331197669872_3_alg».proof.Proof.LibTileSum
import proofs.«421558_j42331197669872_3_alg».proof.Proof.LibClassSum
import proofs.«421558_j42331197669872_3_alg».proof.Proof.Spec
import Idealize.ShloMosaic.Lib.ValueIdx
import Idealize.ShloMosaic.Lib.IdealHost

set_option maxRecDepth 16384

noncomputable section

open scoped BigOperators

namespace Cert.Proof.Classes

open Cert.KernelIdeal Cert.KernelIdeal.Facts₀ Cert.Spec
open Idealize.ShloMosaic Idealize.ShloMosaic.ValueIdx

/-! ## The tiles' sums added up, over any label column and any features -/

/-- The first region's 25 tiles of 4000 rows: added over the tiles, the class sums over all the rows. -/
theorem class0 (lab : Vec Ideal S100000x1 .i32) (H : Vec Ideal S100000x128 .f32) (x2 : IVec S100000 32)
    (hl : ∀ n : Fin 100000, lab (ix2 n 0) = x2 (ix1 n)) (c : Fin 40) (f : Fin 128) :
    Host.reduceAdd (F := Ideal) (Cert.KernelIdeal.Region0.outC lab H) (constant S_ .f32 0x00000000#32)
        reducesTo_S25x40x128_S40x128_d0 h_S_ (ix2 c f)
      = ∑ n : Fin 100000, ind (x2 (ix1 n)) c * H (ix2 n f) := by
  have hR : S25x40x128.Reduces [0] S40x128 :=
    ⟨reducesTo_S25x40x128_S40x128_d0.1, by decide, reducesTo_S25x40x128_S40x128_d0.2⟩
  refine (Cert.Lib.TileSum.reduce_lead (T := 25) (C := 40) (D := 128) reducesTo_S25x40x128_S40x128_d0 hR h_S_
    (Cert.KernelIdeal.Region0.outC lab H) c f).trans ?_
  refine Eq.trans ?_ (Cert.Lib.ClassSum.sum_tiles (T := 25) (B := 4000)
    (fun n : Fin 100000 => ind (x2 (ix1 n)) c * H (ix2 n f))).symm
  refine Finset.sum_congr rfl fun t _ => ?_
  show ∑ r : Fin 4000, ind (lab (ix2 (Cert.KernelIdeal.Region0.row t r) 0)) c * H (ix2 (Cert.KernelIdeal.Region0.row t r) f) = _
  refine Finset.sum_congr rfl fun r _ => ?_
  exact congrArg (fun v : BitVec 32 => ind v c * H (ix2 (Cert.KernelIdeal.Region0.row t r) f))
    (hl (Cert.KernelIdeal.Region0.row t r))

/-- The second region's 50 tiles of 2000 rows: added over the tiles, the class sums over all the rows. -/
theorem class1 (lab : Vec Ideal S100000x1 .i32) (H : Vec Ideal S100000x128 .f32) (x2 : IVec S100000 32)
    (hl : ∀ n : Fin 100000, lab (ix2 n 0) = x2 (ix1 n)) (c : Fin 40) (f : Fin 128) :
    Host.reduceAdd (F := Ideal) (Cert.KernelIdeal.Region1C.out lab H) (constant S_ .f32 0x00000000#32)
        reducesTo_S50x40x128_S40x128_d0 h_S_ (ix2 c f)
      = ∑ n : Fin 100000, ind (x2 (ix1 n)) c * H (ix2 n f) := by
  have hR : S50x40x128.Reduces [0] S40x128 :=
    ⟨reducesTo_S50x40x128_S40x128_d0.1, by decide, reducesTo_S50x40x128_S40x128_d0.2⟩
  refine (Cert.Lib.TileSum.reduce_lead (T := 50) (C := 40) (D := 128) reducesTo_S50x40x128_S40x128_d0 hR h_S_
    (Cert.KernelIdeal.Region1C.out lab H) c f).trans ?_
  refine Eq.trans ?_ (Cert.Lib.ClassSum.sum_tiles (T := 50) (B := 2000)
    (fun n : Fin 100000 => ind (x2 (ix1 n)) c * H (ix2 n f))).symm
  refine Finset.sum_congr rfl fun t _ => ?_
  show ∑ r : Fin 2000, ind (lab (ix2 (Cert.KernelIdeal.Region1C.row t r) 0)) c * H (ix2 (Cert.KernelIdeal.Region1C.row t r) f) = _
  refine Finset.sum_congr rfl fun r _ => ?_
  exact congrArg (fun v : BitVec 32 => ind v c * H (ix2 (Cert.KernelIdeal.Region1C.row t r) f))
    (hl (Cert.KernelIdeal.Region1C.row t r))

/-- The third region's 50 tiles of 2000 rows, 40 features: added over the tiles, the class sums over all the rows. -/
theorem class2 (lab : Vec Ideal S100000x1 .i32) (H : Vec Ideal S100000x40 .f32) (x2 : IVec S100000 32)
    (hl : ∀ n : Fin 100000, lab (ix2 n 0) = x2 (ix1 n)) (c : Fin 40) (f : Fin 40) :
    Host.reduceAdd (F := Ideal) (Cert.KernelIdeal.Region2C.out lab H) (constant S_ .f32 0x00000000#32)
        reducesTo_S50x40x40_S40x40_d0 h_S_ (ix2 c f)
      = ∑ n : Fin 100000, ind (x2 (ix1 n)) c * H (ix2 n f) := by
  have hR : S50x40x40.Reduces [0] S40x40 :=
    ⟨reducesTo_S50x40x40_S40x40_d0.1, by decide, reducesTo_S50x40x40_S40x40_d0.2⟩
  refine (Cert.Lib.TileSum.reduce_lead (T := 50) (C := 40) (D := 40) reducesTo_S50x40x40_S40x40_d0 hR h_S_
    (Cert.KernelIdeal.Region2C.out lab H) c f).trans ?_
  refine Eq.trans ?_ (Cert.Lib.ClassSum.sum_tiles (T := 50) (B := 2000)
    (fun n : Fin 100000 => ind (x2 (ix1 n)) c * H (ix2 n f))).symm
  refine Finset.sum_congr rfl fun t _ => ?_
  show ∑ r : Fin 2000, ind (lab (ix2 (Cert.KernelIdeal.Region2C.row t r) 0)) c * H (ix2 (Cert.KernelIdeal.Region2C.row t r) f) = _
  refine Finset.sum_congr rfl fun r _ => ?_
  exact congrArg (fun v : BitVec 32 => ind v c * H (ix2 (Cert.KernelIdeal.Region2C.row t r) f))
    (hl (Cert.KernelIdeal.Region2C.row t r))

/-! ## At the reference's label vector and feature stages -/

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S100000, .i32⟩ : BufTy).Contents (Elt Ideal))
  (x3 : (⟨Cert.ReferenceIdeal.S100000x40, .f32⟩ : BufTy).Contents (Elt Ideal))
  (x4 : (⟨Cert.ReferenceIdeal.S40x1x40, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S128x128, .f32⟩ : BufTy).Contents (Elt Ideal))
  (x8 : (⟨Cert.ReferenceIdeal.S128, .f32⟩ : BufTy).Contents (Elt Ideal))
  (x9 : (⟨Cert.ReferenceIdeal.S128x40, .f32⟩ : BufTy).Contents (Elt Ideal))
  (x10 : (⟨Cert.ReferenceIdeal.S40, .f32⟩ : BufTy).Contents (Elt Ideal))

/-- The first layer: the tiles' class sums of the label vector as a column and the first features, added over the
    tiles, are the reference's first class sums. -/
theorem csum0 :
    Host.reduceAdd (F := Ideal)
        (Cert.KernelIdeal.Region0.outC (shapeCast S100000x1 x2 shapeCasts_S100000_S100000x1)
          (Cert.ReferenceIdeal.Read.val_main_v7 x0 x5 x6))
        (constant S_ .f32 0x00000000#32) reducesTo_S25x40x128_S40x128_d0 h_S_
      = Cert.ReferenceIdeal.Read.val_main_v29 x0 x2 x5 x6 := by
  funext j
  obtain ⟨c, f, rfl⟩ : ∃ (c : Fin 40) (f : Fin 128), j = ix2 c f := ⟨j 0, j 1, eq_ix2 j⟩
  refine Eq.trans ?_ (Cert.ReferenceIdeal.RefRead.c29_at x0 x2 x5 x6 c f).symm
  exact class0 _ _ x2 (fun n => Cert.Lib.TileSum.cast_col x2 shapeCasts_S100000_S100000x1 n) c f

/-- The second layer: the same for the second features and the reference's second class sums. -/
theorem csum1 :
    Host.reduceAdd (F := Ideal)
        (Cert.KernelIdeal.Region1C.out (shapeCast S100000x1 x2 shapeCasts_S100000_S100000x1)
          (Cert.ReferenceIdeal.Read.val_main_v64 x0 x1 x2 x3 x4 x5 x6 x7 x8))
        (constant S_ .f32 0x00000000#32) reducesTo_S50x40x128_S40x128_d0 h_S_
      = Cert.ReferenceIdeal.Read.val_main_v86 x0 x1 x2 x3 x4 x5 x6 x7 x8 := by
  funext j
  obtain ⟨c, f, rfl⟩ : ∃ (c : Fin 40) (f : Fin 128), j = ix2 c f := ⟨j 0, j 1, eq_ix2 j⟩
  refine Eq.trans ?_ (Cert.ReferenceIdeal.RefRead.c86_at x0 x1 x2 x3 x4 x5 x6 x7 x8 c f).symm
  exact class1 _ _ x2 (fun n => Cert.Lib.TileSum.cast_col x2 shapeCasts_S100000_S100000x1 n) c f

/-- The third layer: the same for the third features (40 per row) and the reference's third class sums. -/
theorem csum2 :
    Host.reduceAdd (F := Ideal)
        (Cert.KernelIdeal.Region2C.out (shapeCast S100000x1 x2 shapeCasts_S100000_S100000x1)
          (Cert.ReferenceIdeal.Read.val_main_v121 x0 x1 x2 x3 x4 x5 x6 x7 x8 x9 x10))
        (constant S_ .f32 0x00000000#32) reducesTo_S50x40x40_S40x40_d0 h_S_
      = Cert.ReferenceIdeal.Read.val_main_v143 x0 x1 x2 x3 x4 x5 x6 x7 x8 x9 x10 := by
  funext j
  obtain ⟨c, f, rfl⟩ : ∃ (c : Fin 40) (f : Fin 40), j = ix2 c f := ⟨j 0, j 1, eq_ix2 j⟩
  refine Eq.trans ?_ (Cert.ReferenceIdeal.RefRead.c143_at x0 x1 x2 x3 x4 x5 x6 x7 x8 x9 x10 c f).symm
  exact class2 _ _ x2 (fun n => Cert.Lib.TileSum.cast_col x2 shapeCasts_S100000_S100000x1 n) c f

end Cert.Proof.Classes

end
-- ==== Proof.KernelValue.lean ====
/-
  The idealized kernel's result buffer holds the reference's last stage.

  The buffers are followed through the program: region 0 leaves the first layer's features and their per-tile class sums;
  the host adds the tiles, forms the class directions and the neighbours' sums; region 1 leaves the second layer's features
  and class sums, region 2 the third's, and region 3 the output. At each step the buffer is the reference's stage of the
  same arguments: the features by the layer's formula (the neighbours' mean as a product with the reciprocal of the
  clamped degree against the reference's quotient), the class sums by adding the tiles, the host's terms by being the
  same operations.
-/
import proofs.«421558_j42331197669872_3_alg».proof.Proof.KernelRun
import proofs.«421558_j42331197669872_3_alg».proof.Proof.KernelHost3
import proofs.«421558_j42331197669872_3_alg».proof.Proof.Region0
import proofs.«421558_j42331197669872_3_alg».proof.Proof.Region1H
import proofs.«421558_j42331197669872_3_alg».proof.Proof.Region1C
import proofs.«421558_j42331197669872_3_alg».proof.Proof.Region2H
import proofs.«421558_j42331197669872_3_alg».proof.Proof.Region2C
import proofs.«421558_j42331197669872_3_alg».proof.Proof.Region3
import proofs.«421558_j42331197669872_3_alg».proof.Proof.BridgeLayers
import proofs.«421558_j42331197669872_3_alg».proof.Proof.BridgeLayer2
import proofs.«421558_j42331197669872_3_alg».proof.Proof.BridgeClass

set_option maxRecDepth 16384

noncomputable section

namespace Cert.Proof.KernelValue

open Cert.KernelIdeal Cert.KernelIdeal.Gen Cert.KernelIdeal.HostVals
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
set_option quotPrecheck true

/-! ## Layer 1 -/

/-- Region 0 leaves the first layer's features. -/
theorem h1_eq : W2 (F := Ideal) m ρ c (Proc.devRef .tc main_v21_0) = Cert.ReferenceIdeal.Read.val_main_v7 (F := Ideal) a0 a5 a6 := by
  refine (show W2 (F := Ideal) m ρ c (Proc.devRef .tc main_v21_0) = (dat0 (V1 m ρ) c).arrAt 4 cfg0.N from W2_arr m ρ c 4).trans ?_
  rw [Cert.KernelIdeal.Region0.finalH (V1 m ρ) c]
  have e0 : V1 (F := Ideal) m ρ c (Pipeline.arrRef spec0 0) = a0 := x_eq0 m ρ c
  have e1 : V1 (F := Ideal) m ρ c (Pipeline.arrRef spec0 1) = a5 := w_eq0 m ρ c
  have e2 : V1 (F := Ideal) m ρ c (Pipeline.arrRef spec0 2) = shapeCast S1x128 a6 shapeCasts_S128_S1x128 := b_eq0 m ρ c
  rw [e0, e1, e2]
  exact Cert.Proof.Layers.layer0 a0 a5 a6

/-- The host's sum of region 0's per-tile class sums is the reference's class sums. -/
theorem c1_eq : Host.reduceAdd (F := Ideal) (W2 (F := Ideal) m ρ c (Proc.devRef .tc main_v21_1)) (constant S_ .f32 0x00000000#32)
    reducesTo_S25x40x128_S40x128_d0 h_S_ = Cert.ReferenceIdeal.Read.val_main_v29 (F := Ideal) a0 a2 a5 a6 := by
  have e : W2 (F := Ideal) m ρ c (Proc.devRef .tc main_v21_1)
      = Cert.KernelIdeal.Region0.outC (shapeCast S100000x1 a2 shapeCasts_S100000_S100000x1) (Cert.ReferenceIdeal.Read.val_main_v7 (F := Ideal) a0 a5 a6) := by
    refine (show W2 (F := Ideal) m ρ c (Proc.devRef .tc main_v21_1) = (dat0 (V1 m ρ) c).arrAt 5 cfg0.N from W2_arr m ρ c 5).trans ?_
    rw [Cert.KernelIdeal.Region0.finalC (V1 m ρ) c]
    have e0 : V1 (F := Ideal) m ρ c (Pipeline.arrRef spec0 0) = a0 := x_eq0 m ρ c
    have e1 : V1 (F := Ideal) m ρ c (Pipeline.arrRef spec0 1) = a5 := w_eq0 m ρ c
    have e2 : V1 (F := Ideal) m ρ c (Pipeline.arrRef spec0 2) = shapeCast S1x128 a6 shapeCasts_S128_S1x128 := b_eq0 m ρ c
    have e3 : V1 (F := Ideal) m ρ c (Pipeline.arrRef spec0 3) = shapeCast S100000x1 a2 shapeCasts_S100000_S100000x1 := lab_eq0 m ρ c
    rw [e0, e1, e2, e3, Cert.Proof.Layers.layer0 a0 a5 a6]
  rw [e]
  exact Cert.Proof.Classes.csum0 a0 a2 a5 a6

/-! ## Layer 2 -/

/-- Region 1's feature function of the buffers it finds is the reference's second-layer features. -/
theorem out1_eq : Cert.KernelIdeal.Region1H.out (V7 (F := Ideal) m ρ c (Pipeline.arrRef spec1 0)) (V7 (F := Ideal) m ρ c (Pipeline.arrRef spec1 1))
    (V7 (F := Ideal) m ρ c (Pipeline.arrRef spec1 2)) (V7 (F := Ideal) m ρ c (Pipeline.arrRef spec1 3)) (V7 (F := Ideal) m ρ c (Pipeline.arrRef spec1 4))
    (V7 (F := Ideal) m ρ c (Pipeline.arrRef spec1 5)) (V7 (F := Ideal) m ρ c (Pipeline.arrRef spec1 6)) = Cert.ReferenceIdeal.Read.val_main_v64 (F := Ideal) a0 a1 a2 a3 a4 a5 a6 a7 a8 := by
  have e0 : V7 (F := Ideal) m ρ c (Pipeline.arrRef spec1 0) = Cert.ReferenceIdeal.Read.val_main_v7 (F := Ideal) a0 a5 a6 := (h1_kept m ρ c).trans (h1_eq m ρ c)
  have e1 : V7 (F := Ideal) m ρ c (Pipeline.arrRef spec1 1) = Cert.ReferenceIdeal.Read.val_main_v17 (F := Ideal) a0 a1 a5 a6 := s1_eq m ρ c (h1_eq m ρ c)
  have e2 : V7 (F := Ideal) m ρ c (Pipeline.arrRef spec1 2) = shapeCast S100000x1 (Host.divf (F := Ideal) (broadcastInDim S100000 ![] bcast_S_S100000 (constant S_ .f32 0x3F800000#32)) (Cert.ReferenceIdeal.Read.val_main_v23 (F := Ideal) a1)) shapeCasts_S100000_S100000x1 := inv_eq1 m ρ c
  have e3 : V7 (F := Ideal) m ρ c (Pipeline.arrRef spec1 3) = a3 := p_eq1 m ρ c
  have e4 : V7 (F := Ideal) m ρ c (Pipeline.arrRef spec1 4) = Cert.ReferenceIdeal.Read.val_main_v51 (F := Ideal) a0 a2 a4 a5 a6 := r1_eq m ρ c (c1_eq m ρ c)
  have e5 : V7 (F := Ideal) m ρ c (Pipeline.arrRef spec1 5) = a7 := w_eq1 m ρ c
  have e6 : V7 (F := Ideal) m ρ c (Pipeline.arrRef spec1 6) = shapeCast S1x128 a8 shapeCasts_S128_S1x128 := b_eq1 m ρ c
  exact (congr (congr (congr (congr (congr (congr (congrArg Cert.KernelIdeal.Region1H.out e0) e1) e2) e3) e4) e5) e6).trans
    (Cert.Proof.Layers.layer1 a0 a1 a2 a3 a4 a5 a6 a7 a8)

/-- Region 1 leaves the second layer's features. -/
theorem h2_eq : W8 (F := Ideal) m ρ c (Proc.devRef .tc main_v50_0) = Cert.ReferenceIdeal.Read.val_main_v64 (F := Ideal) a0 a1 a2 a3 a4 a5 a6 a7 a8 := by
  refine (show W8 (F := Ideal) m ρ c (Proc.devRef .tc main_v50_0) = (dat1 (V7 m ρ) c).arrAt 8 cfg1.N from W8_arr m ρ c 8).trans ?_
  rw [Cert.KernelIdeal.Region1H.final (V7 m ρ) c]
  exact out1_eq m ρ c

/-- The host's sum of region 1's per-tile class sums is the reference's class sums of the second layer. -/
theorem c2_eq : Host.reduceAdd (F := Ideal) (W8 (F := Ideal) m ρ c (Proc.devRef .tc main_v50_1)) (constant S_ .f32 0x00000000#32)
    reducesTo_S50x40x128_S40x128_d0 h_S_ = Cert.ReferenceIdeal.Read.val_main_v86 (F := Ideal) a0 a1 a2 a3 a4 a5 a6 a7 a8 := by
  have e : W8 (F := Ideal) m ρ c (Proc.devRef .tc main_v50_1)
      = Cert.KernelIdeal.Region1C.out (shapeCast S100000x1 a2 shapeCasts_S100000_S100000x1) (Cert.ReferenceIdeal.Read.val_main_v64 (F := Ideal) a0 a1 a2 a3 a4 a5 a6 a7 a8) := by
    refine (show W8 (F := Ideal) m ρ c (Proc.devRef .tc main_v50_1) = (dat1 (V7 m ρ) c).arrAt 9 cfg1.N from W8_arr m ρ c 9).trans ?_
    rw [Cert.KernelIdeal.Region1C.final (V7 m ρ) c _ (fun t r f => Cert.KernelIdeal.Region1H.pay_blk (V7 m ρ) c t r f)]
    have e7 : V7 (F := Ideal) m ρ c (Pipeline.arrRef spec1 7) = shapeCast S100000x1 a2 shapeCasts_S100000_S100000x1 := lab_eq1 m ρ c
    rw [e7, out1_eq m ρ c]
  rw [e]
  exact Cert.Proof.Classes.csum1 _ _ _ _ _ _ _ _ _

/-! ## Layer 3 -/

/-- Region 2 finds the second layer's features in its first window. -/
theorem in2_0 : V13 (F := Ideal) m ρ c (Pipeline.arrRef spec2 0) = Cert.ReferenceIdeal.Read.val_main_v64 (F := Ideal) a0 a1 a2 a3 a4 a5 a6 a7 a8 :=
  (h2_kept m ρ c).trans (h2_eq m ρ c)

/-- Region 2 finds the neighbours' sums of the second layer's features in its second window. -/
theorem in2_1 : V13 (F := Ideal) m ρ c (Pipeline.arrRef spec2 1) = Cert.ReferenceIdeal.Read.val_main_v74 (F := Ideal) a0 a1 a2 a3 a4 a5 a6 a7 a8 :=
  s2_eq m ρ c (h2_eq m ρ c)

/-- Region 2 finds the reciprocal of the clamped degree, as a column, in its third window. -/
theorem in2_2 : V13 (F := Ideal) m ρ c (Pipeline.arrRef spec2 2) = shapeCast S100000x1 (Host.divf (F := Ideal) (broadcastInDim S100000 ![] bcast_S_S100000 (constant S_ .f32 0x3F800000#32)) (Cert.ReferenceIdeal.Read.val_main_v80 (F := Ideal) a1)) shapeCasts_S100000_S100000x1 :=
  inv_eq2 m ρ c

/-- Region 2 finds the class weights in its fourth window. -/
theorem in2_3 : V13 (F := Ideal) m ρ c (Pipeline.arrRef spec2 3) = a3 :=
  p_eq2 m ρ c

/-- Region 2 finds the second layer's class directions in its fifth window. -/
theorem in2_4 : V13 (F := Ideal) m ρ c (Pipeline.arrRef spec2 4) = Cert.ReferenceIdeal.Read.val_main_v108 (F := Ideal) a0 a1 a2 a3 a4 a5 a6 a7 a8 :=
  r2_eq m ρ c (c2_eq m ρ c)

/-- Region 2 finds the third weight matrix in its sixth window. -/
theorem in2_5 : V13 (F := Ideal) m ρ c (Pipeline.arrRef spec2 5) = a9 :=
  w_eq2 m ρ c

/-- Region 2 finds the third bias, as a one-row matrix, in its seventh window. -/
theorem in2_6 : V13 (F := Ideal) m ρ c (Pipeline.arrRef spec2 6) = shapeCast S1x40 a10 shapeCasts_S40_S1x40 :=
  b_eq2 m ρ c

/-- Region 2's feature function of the buffers it finds is the reference's third-layer features. -/
theorem out2_eq : Cert.KernelIdeal.Region2H.out (V13 (F := Ideal) m ρ c (Pipeline.arrRef spec2 0)) (V13 (F := Ideal) m ρ c (Pipeline.arrRef spec2 1))
    (V13 (F := Ideal) m ρ c (Pipeline.arrRef spec2 2)) (V13 (F := Ideal) m ρ c (Pipeline.arrRef spec2 3)) (V13 (F := Ideal) m ρ c (Pipeline.arrRef spec2 4))
    (V13 (F := Ideal) m ρ c (Pipeline.arrRef spec2 5)) (V13 (F := Ideal) m ρ c (Pipeline.arrRef spec2 6)) = Cert.ReferenceIdeal.Read.val_main_v121 (F := Ideal) a0 a1 a2 a3 a4 a5 a6 a7 a8 a9 a10 := by
  exact (congr (congr (congr (congr (congr (congr (congrArg Cert.KernelIdeal.Region2H.out (in2_0 m ρ c)) (in2_1 m ρ c)) (in2_2 m ρ c))
    (in2_3 m ρ c)) (in2_4 m ρ c)) (in2_5 m ρ c)) (in2_6 m ρ c)).trans (Cert.Proof.Layers.layer2 a0 a1 a2 a3 a4 a5 a6 a7 a8 a9 a10)

/-- Region 2 leaves the third layer's features. -/
theorem h3_eq : W14 (F := Ideal) m ρ c (Proc.devRef .tc main_v79_0) = Cert.ReferenceIdeal.Read.val_main_v121 (F := Ideal) a0 a1 a2 a3 a4 a5 a6 a7 a8 a9 a10 := by
  refine (show W14 (F := Ideal) m ρ c (Proc.devRef .tc main_v79_0) = (dat2 (V13 m ρ) c).arrAt 8 cfg2.N from W14_arr m ρ c 8).trans ?_
  rw [Cert.KernelIdeal.Region2H.final (V13 m ρ) c]
  exact out2_eq m ρ c

/-- The host's sum of region 2's per-tile class sums is the reference's class sums of the third layer. -/
theorem c3_eq : Host.reduceAdd (F := Ideal) (W14 (F := Ideal) m ρ c (Proc.devRef .tc main_v79_1)) (constant S_ .f32 0x00000000#32)
    reducesTo_S50x40x40_S40x40_d0 h_S_ = Cert.ReferenceIdeal.Read.val_main_v143 (F := Ideal) a0 a1 a2 a3 a4 a5 a6 a7 a8 a9 a10 := by
  have e : W14 (F := Ideal) m ρ c (Proc.devRef .tc main_v79_1)
      = Cert.KernelIdeal.Region2C.out (shapeCast S100000x1 a2 shapeCasts_S100000_S100000x1) (Cert.ReferenceIdeal.Read.val_main_v121 (F := Ideal) a0 a1 a2 a3 a4 a5 a6 a7 a8 a9 a10) := by
    refine (show W14 (F := Ideal) m ρ c (Proc.devRef .tc main_v79_1) = (dat2 (V13 m ρ) c).arrAt 9 cfg2.N from W14_arr m ρ c 9).trans ?_
    rw [Cert.KernelIdeal.Region2C.final (V13 m ρ) c _ (fun t r f => Cert.KernelIdeal.Region2H.pay_blk (V13 m ρ) c t r f)]
    have e7 : V13 (F := Ideal) m ρ c (Pipeline.arrRef spec2 7) = shapeCast S100000x1 a2 shapeCasts_S100000_S100000x1 := lab_eq2 m ρ c
    rw [e7, out2_eq m ρ c]
  rw [e]
  exact Cert.Proof.Classes.csum2 _ _ _ _ _ _ _ _ _ _ _

/-! ## The output -/

/-- Region 3 leaves the reference's result in the result buffer. -/
theorem kernel_value : W20 (F := Ideal) m ρ c (Proc.devRef .tc main_v107) = Cert.ReferenceIdeal.Read.val_main_v173 (F := Ideal) a0 a1 a2 a3 a4 a5 a6 a7 a8 a9 a10 := by
  rw [Cert.KernelIdeal.Run.result_arr m ρ c, Cert.KernelIdeal.Region3.final (V19 m ρ) c]
  have e0 : V19 (F := Ideal) m ρ c (Pipeline.arrRef spec3 0) = Cert.ReferenceIdeal.Read.val_main_v121 (F := Ideal) a0 a1 a2 a3 a4 a5 a6 a7 a8 a9 a10 := (h3_kept m ρ c).trans (h3_eq m ρ c)
  have e1 : V19 (F := Ideal) m ρ c (Pipeline.arrRef spec3 1) = Cert.ReferenceIdeal.Read.val_main_v131 (F := Ideal) a0 a1 a2 a3 a4 a5 a6 a7 a8 a9 a10 := s3_eq m ρ c (h3_eq m ρ c)
  have e2 : V19 (F := Ideal) m ρ c (Pipeline.arrRef spec3 2) = shapeCast S100000x1 (Host.divf (F := Ideal) (broadcastInDim S100000 ![] bcast_S_S100000 (constant S_ .f32 0x3F800000#32)) (Cert.ReferenceIdeal.Read.val_main_v137 (F := Ideal) a1)) shapeCasts_S100000_S100000x1 := inv_eq3 m ρ c
  have e3 : V19 (F := Ideal) m ρ c (Pipeline.arrRef spec3 3) = a3 := p_eq3 m ρ c
  have e4 : V19 (F := Ideal) m ρ c (Pipeline.arrRef spec3 4) = Cert.ReferenceIdeal.Read.val_main_v165 (F := Ideal) a0 a1 a2 a3 a4 a5 a6 a7 a8 a9 a10 := r3_eq m ρ c (c3_eq m ρ c)
  rw [e0, e1, e2, e3, e4]
  exact Cert.Proof.Layers.layer3 _ _ _ _ _ _ _ _ _ _ _

end Cert.Proof.KernelValue

end
-- ==== Proof.RefRun.lean ====
/-
  The reference's run, layer by layer.

  The reference is one line of 238 host operations. Run in order from the launch contents, the first 87 leave the
  second layer's features in their buffer, the next 79 the third layer's, the last 72 the result; a buffer a layer
  does not write keeps its contents through it. Each layer's buffer is read back as the stage function of the
  arguments (`val_main_v64`, `val_main_v121`, `val_main_v173`), the later layers citing the earlier stage as one
  value; chained, the whole line leaves the result at `val_main_v173` of the arguments' launch contents, and every
  weakly fair execution of @main ends so, with the arguments unchanged.
-/
import proofs.«421558_j42331197669872_3_alg».proof.Proof.RefOps
import proofs.«421558_j42331197669872_3_alg».proof.Proof.RefStages
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- The buffers the first layer's operations write. -/
abbrev ops1_W : List (Ref sig .tc) := [main_v0, main_v1, main_v2, main_v3, main_v4, main_v5, main_v6, main_v7, main_c, main_v8, main_v9, main_c_0, main_v10, main_v11, main_v12, main_v13, main_v14, main_cst, main_v15, main_v16, main_v17, main_cst_1, main_v18, main_cst_2, main_v19, main_v20, main_v21, main_cst_3, main_v22, main_v23, main_v24, main_v25, main_v26, main_cst_4, main_v27, main_v28, main_v29, main_cst_5, main_v30, main_cst_6, main_v31, main_v32, main_v33, main_cst_7, main_v34, main_v35, main_v36, main_v37, main_v38, main_v39, main_v40, main_v41, main_v42, main_v43, main_call0_v0, main_call0_cst, main_call0_v1, main_call0_v2, main_v44, main_cst_8, main_v45, main_v46, main_cst_9, main_call1_v0, main_call1_v1, main_v47, main_v48, main_v49, main_v50, main_v51, main_v52, main_cst_10, main_v53, main_v54, main_v55, main_v56, main_cst_11, main_v57, main_v58, main_v59, main_call2_cst, main_call2_v0, main_v60, main_v61, main_v62, main_v63, main_v64]

/-- Every operation of the first layer writes one of them. -/
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the first layer does not write keeps its contents through it. -/
theorem keep1 (V : Valuation τ sig (Elt F)) (r : Ref sig .tc) (h : r ∉ ops1_W) :
    after (ops1 (F := F)) V (Proc.devRef .tc r) = V (Proc.devRef .tc r) :=
  after_of_writes_sub ops1 V ops1_writes h

/-- The buffers the second layer's operations write. -/
abbrev ops2_W : List (Ref sig .tc) := [main_c_12, main_v65, main_v66, main_c_13, main_v67, main_v68, main_v69, main_v70, main_v71, main_cst_14, main_v72, main_v73, main_v74, main_cst_15, main_v75, main_cst_16, main_v76, main_v77, main_v78, main_cst_17, main_v79, main_v80, main_v81, main_v82, main_v83, main_cst_18, main_v84, main_v85, main_v86, main_cst_19, main_v87, main_cst_20, main_v88, main_v89, main_v90, main_cst_21, main_v91, main_v92, main_v93, main_v94, main_v95, main_v96, main_v97, main_v98, main_v99, main_v100, main_call3_v0, main_call3_cst, main_call3_v1, main_call3_v2, main_v101, main_cst_22, main_v102, main_v103, main_cst_23, main_call4_v0, main_call4_v1, main_v104, main_v105, main_v106, main_v107, main_v108, main_v109, main_cst_24, main_v110, main_v111, main_v112, main_v113, main_cst_25, main_v114, main_v115, main_v116, main_call5_cst, main_call5_v0, main_v117, main_v118, main_v119, main_v120, main_v121]

/-- Every operation of the second layer writes one of them. -/
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the second layer does not write keeps its contents through it. -/
theorem keep2 (V : Valuation τ sig (Elt F)) (r : Ref sig .tc) (h : r ∉ ops2_W) :
    after (ops2 (F := F)) V (Proc.devRef .tc r) = V (Proc.devRef .tc r) :=
  after_of_writes_sub ops2 V ops2_writes h

/-- The buffers the third layer's operations write. -/
abbrev ops3_W : List (Ref sig .tc) := [main_c_26, main_v122, main_v123, main_c_27, main_v124, main_v125, main_v126, main_v127, main_v128, main_cst_28, main_v129, main_v130, main_v131, main_cst_29, main_v132, main_cst_30, main_v133, main_v134, main_v135, main_cst_31, main_v136, main_v137, main_v138, main_v139, main_v140, main_cst_32, main_v141, main_v142, main_v143, main_cst_33, main_v144, main_cst_34, main_v145, main_v146, main_v147, main_cst_35, main_v148, main_v149, main_v150, main_v151, main_v152, main_v153, main_v154, main_v155, main_v156, main_v157, main_call6_v0, main_call6_cst, main_call6_v1, main_call6_v2, main_v158, main_cst_36, main_v159, main_v160, main_cst_37, main_call7_v0, main_call7_v1, main_v161, main_v162, main_v163, main_v164, main_v165, main_v166, main_cst_38, main_v167, main_v168, main_v169, main_v170, main_cst_39, main_v171, main_v172, main_v173]

/-- Every operation of the third layer writes one of them. -/
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the third layer does not write keeps its contents through it. -/
theorem keep3 (V : Valuation τ sig (Elt F)) (r : Ref sig .tc) (h : r ∉ ops3_W) :
    after (ops3 (F := F)) V (Proc.devRef .tc r) = V (Proc.devRef .tc r) :=
  after_of_writes_sub ops3 V ops3_writes h

/-! ## The layers' results, from any contents -/

/-- After the first layer's operations the edge sources are the stage `val_main_v1` of the contents at the edge list … -/
theorem chunk1_v1 (V : Valuation τ sig (Elt F)) :
    after (ops1 (F := F)) V (Proc.devRef .tc main_v1) = Read.val_main_v1 (F := F) (V (Proc.devRef .tc main_arg1)) := by
  after_results_simp <;> rfl

/-- … the edge targets the stage `val_main_v3` … -/
theorem chunk1_v3 (V : Valuation τ sig (Elt F)) :
    after (ops1 (F := F)) V (Proc.devRef .tc main_v3) = Read.val_main_v3 (F := F) (V (Proc.devRef .tc main_arg1)) := by
  after_results_simp <;> rfl

/-- … and the second layer's features the stage `val_main_v64` of the contents at the arguments. -/
theorem chunk1_v64 (V : Valuation τ sig (Elt F)) :
    after (ops1 (F := F)) V (Proc.devRef .tc main_v64) = Read.val_main_v64 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp <;> rfl

set_option maxHeartbeats 2000000 in
/-- From contents that hold the second layer's features, the edge lists and the arguments, the second layer's
    operations leave the third layer's features, the stage `val_main_v121`. -/
theorem chunk2_v121 (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S100000x40, .f32⟩ : BufTy).Contents (Elt F)) (x4 : (⟨S40x1x40, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x40, .f32⟩ : BufTy).Contents (Elt F)) (x10 : (⟨S40, .f32⟩ : BufTy).Contents (Elt F))
    (h64 : V (Proc.devRef .tc main_v64) = Read.val_main_v64 (F := F) x0 x1 x2 x3 x4 x5 x6 x7 x8)
    (h1 : V (Proc.devRef .tc main_v1) = Read.val_main_v1 (F := F) x1) (h3 : V (Proc.devRef .tc main_v3) = Read.val_main_v3 (F := F) x1)
    (a2 : V (Proc.devRef .tc main_arg2) = x2) (a3 : V (Proc.devRef .tc main_arg3) = x3) (a4 : V (Proc.devRef .tc main_arg4) = x4)
    (a9 : V (Proc.devRef .tc main_arg9) = x9) (a10 : V (Proc.devRef .tc main_arg10) = x10) :
    after (ops2 (F := F)) V (Proc.devRef .tc main_v121) = Read.val_main_v121 (F := F) x0 x1 x2 x3 x4 x5 x6 x7 x8 x9 x10 := by
  after_results_simp
  simp only [h64, h1, h3, a2, a3, a4, a9, a10]
  rfl

/-- From contents that hold the third layer's features, the edge lists and the arguments, the third layer's
    operations leave the result, the stage `val_main_v173`. -/
theorem chunk3_v173 (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S100000x40, .f32⟩ : BufTy).Contents (Elt F)) (x4 : (⟨S40x1x40, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x40, .f32⟩ : BufTy).Contents (Elt F)) (x10 : (⟨S40, .f32⟩ : BufTy).Contents (Elt F))
    (h121 : V (Proc.devRef .tc main_v121) = Read.val_main_v121 (F := F) x0 x1 x2 x3 x4 x5 x6 x7 x8 x9 x10)
    (h1 : V (Proc.devRef .tc main_v1) = Read.val_main_v1 (F := F) x1) (h3 : V (Proc.devRef .tc main_v3) = Read.val_main_v3 (F := F) x1)
    (a2 : V (Proc.devRef .tc main_arg2) = x2) (a3 : V (Proc.devRef .tc main_arg3) = x3) (a4 : V (Proc.devRef .tc main_arg4) = x4) :
    after (ops3 (F := F)) V (Proc.devRef .tc main_v173) = Read.val_main_v173 (F := F) x0 x1 x2 x3 x4 x5 x6 x7 x8 x9 x10 := by
  after_results_simp
  simp only [h121, h1, h3, a2, a3, a4]
  rfl

/-! ## The whole run -/

section Run

variable (m : (ℓ : Loc nD τ sig) → Buf (Elt F) ℓ) (c : Dev nD)

/-- After the first layer: the second layer's features … -/
theorem stage1 :
    after (ops1 (F := F)) (launchContents m c) (Proc.devRef .tc main_v64) = Read.val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  chunk1_v64 (launchContents m c)

/-- … then, after the second, the third layer's features … -/
theorem stage2 :
    after (ops2 (F := F)) (after (ops1 (F := F)) (launchContents m c)) (Proc.devRef .tc main_v121) = Read.val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  chunk2_v121 _ _ _ _ _ _ _ _ _ _ _ _ (stage1 m c) (chunk1_v1 _) (chunk1_v3 _)
    (keep1 _ main_arg2 (by decide)) (keep1 _ main_arg3 (by decide)) (keep1 _ main_arg4 (by decide))
    (keep1 _ main_arg9 (by decide)) (keep1 _ main_arg10 (by decide))

/-- … then, after the third, the result. -/
theorem stage3 :
    after (ops3 (F := F)) (after (ops2 (F := F)) (after (ops1 (F := F)) (launchContents m c))) (Proc.devRef .tc main_v173)
      = Read.val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  chunk3_v173 _ _ _ _ _ _ _ _ _ _ _ _ (stage2 m c)
    ((keep2 _ main_v1 (by decide)).trans (chunk1_v1 _)) ((keep2 _ main_v3 (by decide)).trans (chunk1_v3 _))
    ((keep2 _ main_arg2 (by decide)).trans (keep1 _ main_arg2 (by decide)))
    ((keep2 _ main_arg3 (by decide)).trans (keep1 _ main_arg3 (by decide)))
    ((keep2 _ main_arg4 (by decide)).trans (keep1 _ main_arg4 (by decide)))

/-- The whole line of operations leaves the result buffer at the stage `val_main_v173` of the arguments' launch contents. -/
theorem result_eq :
    after (ops (F := F)) (launchContents m c) (Proc.devRef .tc main_v173) = Read.val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after (ops1 ++ ops2 ++ ops3) _ _ = _
  rw [StableHlo.after_append, StableHlo.after_append]
  exact stage3 m c

/-- A buffer no layer writes keeps its launch contents through the whole line. -/
theorem keep (r : Ref sig .tc) (h1 : r ∉ ops1_W) (h2 : r ∉ ops2_W) (h3 : r ∉ ops3_W) :
    after (ops (F := F)) (launchContents m c) (Proc.devRef .tc r) = m ((c.tc : Thread nD τ).loc r) := by
  show after (ops1 ++ ops2 ++ ops3) _ _ = _
  rw [StableHlo.after_append, StableHlo.after_append, keep3 _ r h3, keep2 _ r h2, keep1 _ r h1]

end Run

/-- On every device, for any float values, from any memory with zero counters: every weakly fair execution of @main
    terminates with the result buffer at the stage `val_main_v173` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = Read.val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v173).trans (result_eq m c),
      (h c main_arg0).trans (keep m c main_arg0 (by decide) (by decide) (by decide)),
      (h c main_arg1).trans (keep m c main_arg1 (by decide) (by decide) (by decide)),
      (h c main_arg2).trans (keep m c main_arg2 (by decide) (by decide) (by decide)),
      (h c main_arg3).trans (keep m c main_arg3 (by decide) (by decide) (by decide)),
      (h c main_arg4).trans (keep m c main_arg4 (by decide) (by decide) (by decide)),
      (h c main_arg5).trans (keep m c main_arg5 (by decide) (by decide) (by decide)),
      (h c main_arg6).trans (keep m c main_arg6 (by decide) (by decide) (by decide)),
      (h c main_arg7).trans (keep m c main_arg7 (by decide) (by decide) (by decide)),
      (h c main_arg8).trans (keep m c main_arg8 (by decide) (by decide) (by decide)),
      (h c main_arg9).trans (keep m c main_arg9 (by decide) (by decide) (by decide)),
      (h c main_arg10).trans (keep m c main_arg10 (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/- The proof of `Cert.Claim` (proofs.«421558_j42331197669872_3_alg».proof.Defs): three layers of a graph network with a
   class-direction term, as four pipelined regions among host operations (the kernel) and as StableHLO operations
   only (the reference). The three frames: the kernel's and the idealized kernel's are the launch theorem over their
   segments; the reference's is its run with the value dropped. The idealization rewrote no operation. The value
   claim, at the ideal instance: both result buffers end at ONE function of the arguments, the reference's last stage
   function `Cert.ReferenceIdeal.Read.val_main_v173` — the kernel's by the run with its result named
   (Proof/KernelRun.lean) and the contents of that buffer at the last boundary (Proof/KernelValue.lean), the
   reference's by its own run (Proof/RefRun.lean) at arguments that agree with the kernel's. -/
import proofs.«421558_j42331197669872_3_alg».proof.Defs
import proofs.«421558_j42331197669872_3_alg».proof.Proof.Gen.Kernel
import proofs.«421558_j42331197669872_3_alg».proof.Proof.Gen.Kernel.Skeleton
import proofs.«421558_j42331197669872_3_alg».proof.Proof.Gen.Kernel.Launch
import proofs.«421558_j42331197669872_3_alg».proof.Proof.Gen.Kernel.Points
import proofs.«421558_j42331197669872_3_alg».proof.Proof.Gen.Kernel.Frame
import proofs.«421558_j42331197669872_3_alg».proof.Proof.Gen.KernelIdeal
import proofs.«421558_j42331197669872_3_alg».proof.Proof.Gen.KernelIdeal.Skeleton
import proofs.«421558_j42331197669872_3_alg».proof.Proof.Gen.KernelIdeal.Launch
import proofs.«421558_j42331197669872_3_alg».proof.Proof.Gen.KernelIdeal.Points
import proofs.«421558_j42331197669872_3_alg».proof.Proof.Gen.KernelIdeal.Frame
import proofs.«421558_j42331197669872_3_alg».proof.Proof.Gen.ReferenceIdeal
import proofs.«421558_j42331197669872_3_alg».proof.Proof.Gen.Pre_finite_inputs
import proofs.«421558_j42331197669872_3_alg».proof.Proof.KernelRun
import proofs.«421558_j42331197669872_3_alg».proof.Proof.KernelValue
import proofs.«421558_j42331197669872_3_alg».proof.Proof.RefRun
import Idealize.ShloMosaic.Adequacy
import Idealize.ShloMosaic.Init

noncomputable section

namespace Cert.Proof

open Idealize.ShloMosaic Idealize.ShloMosaic.TcCoe Idealize.SL.Sem

/-- The kernel runs, at bit patterns, and its arguments end as launched: the generated frame. -/
theorem frame_k : Cert.frame_Kernel := fun m ρ _ => Cert.Kernel.Gen.frame m ρ

/-- The idealized kernel runs and its arguments end as launched: the generated frame. -/
theorem frame_ki : Cert.frame_KernelIdeal := fun m ρ _ => Cert.KernelIdeal.Gen.frame m ρ

/-- The reference runs and its arguments end as launched: its run, the value conjunct dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal instance, from memories that agree on the arguments, both programs run and end with one result:
    the reference's last stage function `val_main_v173` of the arguments. The kernel's result buffer holds it
    (`KernelValue.kernel_value`, over the run with the result named); the reference's holds it at its own arguments,
    which are the kernel's. -/
theorem algebraic : Cert.algebraic_KernelIdeal_ReferenceIdeal := by
  intro m ρ m' ρ' _ hagree
  refine ⟨fun c => Cert.ReferenceIdeal.Read.val_main_v173
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Proof.KernelValue.kernel_value m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
